-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S3x3 : Shape := ⟨2, ![3, 3]⟩
abbrev S2x16777216 : Shape := ⟨2, ![2, 16777216]⟩
abbrev S16777216x3 : Shape := ⟨2, ![16777216, 3]⟩
abbrev S1x16777216 : Shape := ⟨2, ![1, 16777216]⟩
abbrev S16777216 : Shape := ⟨1, ![16777216]⟩
abbrev S_ : Shape := ⟨0, ![]⟩
abbrev S16777216x1 : Shape := ⟨2, ![16777216, 1]⟩

class Facts : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S16777216x3_S16777216_d1 : S16777216x3.ReducesTo [1] S16777216
  h_S_ : 0 < S_.numel
  bcast_S_S262144x3 : S_.BroadcastsInDim S262144x3 (![] : Fin 0 → Fin S262144x3.rank)
  reducesTo_S262144x3_S_d0_1 : S262144x3.ReducesTo [0, 1] S_
  bcast_S_S3x3 : S_.BroadcastsInDim S3x3 (![] : Fin 0 → Fin S3x3.rank)
  reducesTo_S3x3_S_d0_1 : S3x3.ReducesTo [0, 1] S_
  bcast_S_S16777216x3 : S_.BroadcastsInDim S16777216x3 (![] : Fin 0 → Fin S16777216x3.rank)
  reducesTo_S16777216x3_S_d0_1 : S16777216x3.ReducesTo [0, 1] S_
  bcast_S_S2x16777216 : S_.BroadcastsInDim S2x16777216 (![] : Fin 0 → Fin S2x16777216.rank)
  reducesTo_S2x16777216_S_d0_1 : S2x16777216.ReducesTo [0, 1] S_
  reducesTo_S16777216_S_d0 : S16777216.ReducesTo [0] S_
  gather_S262144x3_S16777216x1_S16777216x3_1_0_n_n_0_1_13_wf : GatherDims.WF S262144x3 S16777216x1 S16777216x3 [1] [0] [] [0] [] 1 ![1, 3]
  dot_S16777216x3_S3x3_S16777216x3_1_0_0_1_n_n_wf : DotDims.WF S16777216x3 S3x3 S16777216x3 [1] [0] [0] [1] [] []

variable [Facts]

def gather_S262144x3_S16777216x1_S16777216x3_1_0_n_n_0_1_13 : GatherDims S262144x3 S16777216x1 S16777216x3 where
  offsetDims := [1]
  collapsedSliceDims := [0]
  operandBatchingDims := []
  startIndicesBatchingDims := []
  startIndexMap := [0]
  indexVectorDim := 1
  sliceSizes := ![1, 3]
  wf := gather_S262144x3_S16777216x1_S16777216x3_1_0_n_n_0_1_13_wf
def dot_S16777216x3_S3x3_S16777216x3_1_0_0_1_n_n : DotDims S16777216x3 S3x3 S16777216x3 where
  lhsContracting := [1]
  rhsContracting := [0]
  lhsNonContracting := [0]
  rhsNonContracting := [1]
  lhsBatch := []
  rhsBatch := []
  wf := dot_S16777216x3_S3x3_S16777216x3_1_0_0_1_n_n_wf
def fn_part2 {F : FTy → Type} [FloatOps F] (main_arg2 : IVec S2x16777216 32) (main_v22 : FVec F S16777216 .f32) (main_v36 : IVec S_ 1) : IVec S_ 1 :=
  let main_c_9 : IVec S_ 32 := constantI S_ 32 0#32
  let main_v37 : IVec S2x16777216 32 := broadcastInDim S2x16777216 ![] bcast_S_S2x16777216 main_c_9
  let main_v38 : IVec S2x16777216 1 := cmpi .sge main_arg2 main_v37
  let main_c_10 : IVec S_ 32 := constantI S_ 32 262144#32
  let main_v39 : IVec S2x16777216 32 := broadcastInDim S2x16777216 ![] bcast_S_S2x16777216 main_c_10
  let main_v40 : IVec S2x16777216 1 := cmpi .slt main_arg2 main_v39
  let main_v41 : IVec S2x16777216 1 := andi main_v38 main_v40
  let main_c_11 : IVec S_ 1 := constantI S_ 1 1#1
  let main_v42 : IVec S_ 1 := (fun x v => Host.reduce IntOp.andi x v reducesTo_S2x16777216_S_d0_1 h_S_) main_v41 main_c_11
  let main_v43 : IVec S_ 1 := andi main_v36 main_v42
  let main_cst_12 : FVec F S_ .f32 := constant S_ .f32 0x00000000#32
  let main_v44 : FVec F S16777216 .f32 := broadcastInDim S16777216 ![] bcast_S_S16777216 main_cst_12
  let main_v45 : IVec S16777216 1 := cmpf .ogt main_v22 main_v44
  let main_c_13 : IVec S_ 1 := constantI S_ 1 1#1
  let main_v46 : IVec S_ 1 := (fun x v => Host.reduce IntOp.andi x v reducesTo_S16777216_S_d0 h_S_) main_v45 main_c_13
  let main_v47 : IVec S_ 1 := andi main_v43 main_v46
  main_v47

def fn_part1 {F : FTy → Type} [FloatOps F] (main_arg0 : FVec F S262144x3 .f32) (main_arg1 : FVec F S3x3 .f32) (main_arg2 : IVec S2x16777216 32) (main_arg3 : FVec F S16777216x3 .f32) (main_v18 : FVec F S16777216x3 .f32) (main_v19 : FVec F S16777216x3 .f32) : IVec S_ 1 :=
  let main_v20 : FVec F S16777216x3 .f32 := addf main_v18 main_v19
  let main_v21 : FVec F S16777216x3 .f32 := mulf main_v20 main_v20
  let main_cst : FVec F S_ .f32 := constant S_ .f32 0x00000000#32
  let main_v22 : FVec F S16777216 .f32 := (fun x v => Host.reduceAdd x v reducesTo_S16777216x3_S16777216_d1 h_S_) main_v21 main_cst
  let main_v23 : FVec F S262144x3 .f32 := Host.absf main_arg0
  let main_cst_3 : FVec F S_ .f32 := constant S_ .f32 0x7F800000#32
  let main_v24 : FVec F S262144x3 .f32 := broadcastInDim S262144x3 ![] bcast_S_S262144x3 main_cst_3
  let main_v25 : IVec S262144x3 1 := cmpf .olt main_v23 main_v24
  let main_c_4 : IVec S_ 1 := constantI S_ 1 1#1
  let main_v26 : IVec S_ 1 := (fun x v => Host.reduce IntOp.andi x v reducesTo_S262144x3_S_d0_1 h_S_) main_v25 main_c_4
  let main_v27 : FVec F S3x3 .f32 := Host.absf main_arg1
  let main_cst_5 : FVec F S_ .f32 := constant S_ .f32 0x7F800000#32
  let main_v28 : FVec F S3x3 .f32 := broadcastInDim S3x3 ![] bcast_S_S3x3 main_cst_5
  let main_v29 : IVec S3x3 1 := cmpf .olt main_v27 main_v28
  let main_c_6 : IVec S_ 1 := constantI S_ 1 1#1
  let main_v30 : IVec S_ 1 := (fun x v => Host.reduce IntOp.andi x v reducesTo_S3x3_S_d0_1 h_S_) main_v29 main_c_6
  let main_v31 : IVec S_ 1 := andi main_v26 main_v30
  let main_v32 : FVec F S16777216x3 .f32 := Host.absf main_arg3
  let main_cst_7 : FVec F S_ .f32 := constant S_ .f32 0x7F800000#32
  let main_v33 : FVec F S16777216x3 .f32 := broadcastInDim S16777216x3 ![] bcast_S_S16777216x3 main_cst_7
  let main_v34 : IVec S16777216x3 1 := cmpf .olt main_v32 main_v33
  let main_c_8 : IVec S_ 1 := constantI S_ 1 1#1
  let main_v35 : IVec S_ 1 := (fun x v => Host.reduce IntOp.andi x v reducesTo_S16777216x3_S_d0_1 h_S_) main_v34 main_c_8
  let main_v36 : IVec S_ 1 := andi main_v31 main_v35
  fn_part2 (F := F) main_arg2 main_v22 main_v36

def fn {F : FTy → Type} [FloatOps F] (main_arg0 : FVec F S262144x3 .f32) (main_arg1 : FVec F S3x3 .f32) (main_arg2 : IVec S2x16777216 32) (main_arg3 : FVec F S16777216x3 .f32) : IVec S_ 1 :=
  let main_v0 : IVec S1x16777216 32 := (extractStridedSlice S1x16777216 ![0, 0] · slices_S2x16777216_S1x16777216_0_0) main_arg2
  let main_v1 : IVec S16777216 32 := shapeCast S16777216 main_v0 shapeCasts_S1x16777216_S16777216
  let main_v2 : IVec S1x16777216 32 := (extractStridedSlice S1x16777216 ![1, 0] · slices_S2x16777216_S1x16777216_1_0) main_arg2
  let main_v3 : IVec S16777216 32 := shapeCast S16777216 main_v2 shapeCasts_S1x16777216_S16777216
  let main_c : IVec S_ 32 := constantI S_ 32 0#32
  let main_v4 : IVec S16777216 32 := broadcastInDim S16777216 ![] bcast_S_S16777216 main_c
  let main_v5 : IVec S16777216 1 := cmpi .slt main_v3 main_v4
  let main_c_0 : IVec S_ 32 := constantI S_ 32 262144#32
  let main_v6 : IVec S16777216 32 := broadcastInDim S16777216 ![] bcast_S_S16777216 main_c_0
  let main_v7 : IVec S16777216 32 := addi main_v3 main_v6
  let main_v8 : IVec S16777216 32 := select main_v5 main_v7 main_v3
  let main_v9 : IVec S16777216x1 32 := broadcastInDim S16777216x1 ![0] bcast_S16777216_S16777216x1_0 main_v8
  let main_v10 : FVec F S16777216x3 .f32 := (fun x i => Host.gather gather_S262144x3_S16777216x1_S16777216x3_1_0_n_n_0_1_13 x i) main_arg0 main_v9
  let main_c_1 : IVec S_ 32 := constantI S_ 32 0#32
  let main_v11 : IVec S16777216 32 := broadcastInDim S16777216 ![] bcast_S_S16777216 main_c_1
  let main_v12 : IVec S16777216 1 := cmpi .slt main_v1 main_v11
  let main_c_2 : IVec S_ 32 := constantI S_ 32 262144#32
  let main_v13 : IVec S16777216 32 := broadcastInDim S16777216 ![] bcast_S_S16777216 main_c_2
  let main_v14 : IVec S16777216 32 := addi main_v1 main_v13
  let main_v15 : IVec S16777216 32 := select main_v12 main_v14 main_v1
  let main_v16 : IVec S16777216x1 32 := broadcastInDim S16777216x1 ![0] bcast_S16777216_S16777216x1_0 main_v15
  let main_v17 : FVec F S16777216x3 .f32 := (fun x i => Host.gather gather_S262144x3_S16777216x1_S16777216x3_1_0_n_n_0_1_13 x i) main_arg0 main_v16
  let main_v18 : FVec F S16777216x3 .f32 := subf main_v10 main_v17
  let main_v19 : FVec F S16777216x3 .f32 := (fun l r => Host.dotGeneral dot_S16777216x3_S3x3_S16777216x3_1_0_0_1_n_n none l r) main_arg3 main_arg1
  fn_part1 (F := F) main_arg0 main_arg1 main_arg2 main_arg3 main_v18 main_v19
-- ==== Kernel.lean ====
abbrev S262144x3 : Shape := ⟨2, ![262144, 3]⟩
abbrev S3x3 : Shape := ⟨2, ![3, 3]⟩
abbrev S2x16777216 : Shape := ⟨2, ![2, 16777216]⟩
abbrev S16777216x3 : Shape := ⟨2, ![16777216, 3]⟩
abbrev S1x16777216 : Shape := ⟨2, ![1, 16777216]⟩
abbrev S16777216 : Shape := ⟨1, ![16777216]⟩
abbrev S3x262144 : Shape := ⟨2, ![3, 262144]⟩
abbrev S_ : Shape := ⟨0, ![]⟩
abbrev S16777216x1 : Shape := ⟨2, ![16777216, 1]⟩
abbrev S1 : Shape := ⟨1, ![1]⟩
abbrev S1x1 : Shape := ⟨2, ![1, 1]⟩
abbrev S3x16777216 : Shape := ⟨2, ![3, 16777216]⟩
abbrev S3x32768 : Shape := ⟨2, ![3, 32768]⟩
abbrev S32768 : Shape := ⟨1, ![32768]⟩
abbrev S1x32768 : Shape := ⟨2, ![1, 32768]⟩

abbrev nBuf : Space → Nat
  | .hbm => 84
  | .vmem => 11
  | .smem => 0
  | _ => 0

abbrev bufTy : (tb : Table) → Fin (tcTables nBuf tb) → BufTy
  | .hbm, ⟨0, _⟩ => ⟨S262144x3, .f32⟩
  | .hbm, ⟨1, _⟩ => ⟨S3x3, .f32⟩
  | .hbm, ⟨2, _⟩ => ⟨S2x16777216, .i32⟩
  | .hbm, ⟨3, _⟩ => ⟨S16777216x3, .f32⟩
  | .hbm, ⟨4, _⟩ => ⟨S1x16777216, .i32⟩
  | .hbm, ⟨5, _⟩ => ⟨S16777216, .i32⟩
  | .hbm, ⟨6, _⟩ => ⟨S1x16777216, .i32⟩
  | .hbm, ⟨7, _⟩ => ⟨S16777216, .i32⟩
  | .hbm, ⟨8, _⟩ => ⟨S3x262144, .f32⟩
  | .hbm, ⟨9, _⟩ => ⟨S_, .i32⟩
  | .hbm, ⟨10, _⟩ => ⟨S16777216, .i32⟩
  | .hbm, ⟨11, _⟩ => ⟨S16777216, .i1⟩
  | .hbm, ⟨12, _⟩ => ⟨S_, .i32⟩
  | .hbm, ⟨13, _⟩ => ⟨S16777216, .i32⟩
  | .hbm, ⟨14, _⟩ => ⟨S16777216, .i32⟩
  | .hbm, ⟨15, _⟩ => ⟨S16777216, .i32⟩
  | .hbm, ⟨16, _⟩ => ⟨S16777216x1, .i32⟩
  | .hbm, ⟨17, _⟩ => ⟨S1, .i32⟩
  | .hbm, ⟨18, _⟩ => ⟨S_, .i32⟩
  | .hbm, ⟨19, _⟩ => ⟨S16777216x1, .i32⟩
  | .hbm, ⟨20, _⟩ => ⟨S16777216x1, .i1⟩
  | .hbm, ⟨21, _⟩ => ⟨S1x1, .i32⟩
  | .hbm, ⟨22, _⟩ => ⟨S16777216x1, .i32⟩
  | .hbm, ⟨23, _⟩ => ⟨S16777216x1, .i1⟩
  | .hbm, ⟨24, _⟩ => ⟨S16777216x1, .i1⟩
  | .hbm, ⟨25, _⟩ => ⟨S_, .i1⟩
  | .hbm, ⟨26, _⟩ => ⟨S16777216, .i1⟩
  | .hbm, ⟨27, _⟩ => ⟨S3x16777216, .f32⟩
  | .hbm, ⟨28, _⟩ => ⟨S3x16777216, .i1⟩
  | .hbm, ⟨29, _⟩ => ⟨S_, .f32⟩
  | .hbm, ⟨30, _⟩ => ⟨S3x16777216, .f32⟩
  | .hbm, ⟨31, _⟩ => ⟨S3x16777216, .f32⟩
  | .hbm, ⟨32, _⟩ => ⟨S_, .i32⟩
  | .hbm, ⟨33, _⟩ => ⟨S16777216, .i32⟩
  | .hbm, ⟨34, _⟩ => ⟨S16777216, .i1⟩
  | .hbm, ⟨35, _⟩ => ⟨S_, .i32⟩
  | .hbm, ⟨36, _⟩ => ⟨S16777216, .i32⟩
  | .hbm, ⟨37, _⟩ => ⟨S16777216, .i32⟩
  | .hbm, ⟨38, _⟩ => ⟨S16777216, .i32⟩
  | .hbm, ⟨39, _⟩ => ⟨S16777216x1, .i32⟩
  | .hbm, ⟨40, _⟩ => ⟨S1, .i32⟩
  | .hbm, ⟨41, _⟩ => ⟨S_, .i32⟩
  | .hbm, ⟨42, _⟩ => ⟨S16777216x1, .i32⟩
  | .hbm, ⟨43, _⟩ => ⟨S16777216x1, .i1⟩
  | .hbm, ⟨44, _⟩ => ⟨S1x1, .i32⟩
  | .hbm, ⟨45, _⟩ => ⟨S16777216x1, .i32⟩
  | .hbm, ⟨46, _⟩ => ⟨S16777216x1, .i1⟩
  | .hbm, ⟨47, _⟩ => ⟨S16777216x1, .i1⟩
  | .hbm, ⟨48, _⟩ => ⟨S_, .i1⟩
  | .hbm, ⟨49, _⟩ => ⟨S16777216, .i1⟩
  | .hbm, ⟨50, _⟩ => ⟨S3x16777216, .f32⟩
  | .hbm, ⟨51, _⟩ => ⟨S3x16777216, .i1⟩
  | .hbm, ⟨52, _⟩ => ⟨S_, .f32⟩
  | .hbm, ⟨53, _⟩ => ⟨S3x16777216, .f32⟩
  | .hbm, ⟨54, _⟩ => ⟨S3x16777216, .f32⟩
  | .hbm, ⟨55, _⟩ => ⟨S3x16777216, .f32⟩
  | .hbm, ⟨56, _⟩ => ⟨S16777216, .f32⟩
  | .hbm, ⟨57, _⟩ => ⟨S3x16777216, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S3x262144, .f32⟩
  | .hbm, ⟨64, _⟩ => ⟨S3x16777216, .f32⟩
  | .hbm, ⟨65, _⟩ => ⟨S_, .i32⟩
  | .hbm, ⟨66, _⟩ => ⟨S16777216, .i32⟩
  | .hbm, ⟨67, _⟩ => ⟨S16777216, .i1⟩
  | .hbm, ⟨68, _⟩ => ⟨S_, .i32⟩
  | .hbm, ⟨69, _⟩ => ⟨S16777216, .i32⟩
  | .hbm, ⟨70, _⟩ => ⟨S16777216, .i32⟩
  | .hbm, ⟨71, _⟩ => ⟨S16777216, .i32⟩
  | .hbm, ⟨72, _⟩ => ⟨S16777216x1, .i32⟩
  | .hbm, ⟨73, _⟩ => ⟨S3x262144, .f32⟩
  | .hbm, ⟨74, _⟩ => ⟨S_, .i32⟩
  | .hbm, ⟨75, _⟩ => ⟨S16777216, .i32⟩
  | .hbm, ⟨76, _⟩ => ⟨S16777216, .i1⟩
  | .hbm, ⟨77, _⟩ => ⟨S_, .i32⟩
  | .hbm, ⟨78, _⟩ => ⟨S16777216, .i32⟩
  | .hbm, ⟨79, _⟩ => ⟨S16777216, .i32⟩
  | .hbm, ⟨80, _⟩ => ⟨S16777216, .i32⟩
  | .hbm, ⟨81, _⟩ => ⟨S16777216x1, .i32⟩
  | .hbm, ⟨82, _⟩ => ⟨S3x262144, .f32⟩
  | .hbm, ⟨83, _⟩ => ⟨S262144x3, .f32⟩
  | .local _ .vmem, ⟨0, _⟩ => ⟨S3x32768, .f32⟩
  | .local _ .vmem, ⟨1, _⟩ => ⟨S3x32768, .f32⟩
  | .local _ .vmem, ⟨2, _⟩ => ⟨S3x32768, .f32⟩
  | .local _ .vmem, ⟨3, _⟩ => ⟨S3x32768, .f32⟩
  | .local _ .vmem, ⟨4, _⟩ => ⟨S3x32768, .f32⟩
  | .local _ .vmem, ⟨5, _⟩ => ⟨S3x32768, .f32⟩
  | .local _ .vmem, ⟨6, _⟩ => ⟨S3x3, .f32⟩
  | .local _ .vmem, ⟨7, _⟩ => ⟨S32768, .f32⟩
  | .local _ .vmem, ⟨8, _⟩ => ⟨S32768, .f32⟩
  | .local _ .vmem, ⟨9, _⟩ => ⟨S3x32768, .f32⟩
  | .local _ .vmem, ⟨10, _⟩ => ⟨S3x32768, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v5 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v6 : Ref sig .tc := ⟨.hbm, 54, rfl⟩
abbrev main_v7 : Ref sig .tc := ⟨.hbm, 55, rfl⟩
abbrev main_v8_0 : Ref sig .tc := ⟨.hbm, 56, rfl⟩
abbrev main_v8_1 : Ref sig .tc := ⟨.hbm, 57, rfl⟩
abbrev main_cst : Ref sig .tc := ⟨.hbm, 58, rfl⟩
abbrev main_v9 : Ref sig .tc := ⟨.hbm, 59, rfl⟩
abbrev main_cst_0 : Ref sig .tc := ⟨.hbm, 60, rfl⟩
abbrev main_v10 : Ref sig .tc := ⟨.hbm, 61, rfl⟩
abbrev main_cst_1 : Ref sig .tc := ⟨.hbm, 62, rfl⟩
abbrev main_v11 : Ref sig .tc := ⟨.hbm, 63, rfl⟩
abbrev main_v12 : Ref sig .tc := ⟨.hbm, 64, rfl⟩
abbrev main_c : Ref sig .tc := ⟨.hbm, 65, rfl⟩
abbrev main_v13 : Ref sig .tc := ⟨.hbm, 66, rfl⟩
abbrev main_v14 : Ref sig .tc := ⟨.hbm, 67, rfl⟩
abbrev main_c_2 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_c_3 : Ref sig .tc := ⟨.hbm, 74, rfl⟩
abbrev main_v20 : Ref sig .tc := ⟨.hbm, 75, rfl⟩
abbrev main_v21 : Ref sig .tc := ⟨.hbm, 76, rfl⟩
abbrev main_c_4 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  ![arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x32768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  transposes_S262144x3_S3x262144_1_0 : S262144x3.Transposes [1, 0] S3x262144
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S_S16777216x1 : S_.BroadcastsInDim S16777216x1 (![] : Fin 0 → Fin S16777216x1.rank)
  bcast_S1_S1x1_1 : S1.BroadcastsInDim S1x1 (![1] : Fin 1 → Fin S1x1.rank)
  bcast_S1x1_S16777216x1_0_1 : S1x1.BroadcastsInDim S16777216x1 (![0, 1] : Fin 2 → Fin S16777216x1.rank)
  reducesTo_S16777216x1_S16777216_d1 : S16777216x1.ReducesTo [1] S16777216
  h_S_ : 0 < S_.numel
  bcast_S16777216_S3x16777216_1 : S16777216.BroadcastsInDim S3x16777216 (![1] : Fin 1 → Fin S3x16777216.rank)
  bcast_S_S3x16777216 : S_.BroadcastsInDim S3x16777216 (![] : Fin 0 → Fin S3x16777216.rank)
  transposes_S16777216x3_S3x16777216_1_0 : S16777216x3.Transposes [1, 0] S3x16777216
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  inb_S3x3_S3x3_0_0 : ∀ a, (![0, 0] : Fin 2 → Nat) a + S3x3.size a ≤ S3x3.size a
  h_S3x3 : 0 < S3x3.numel
  slices_S3x32768_o0_0_S1x32768 : S3x32768.Slices ![0, 0] S1x32768
  slices_S3x3_o0_0_S1x1 : S3x3.Slices ![0, 0] S1x1
  broadcasts_S1x1_S1x32768 : S1x1.Broadcasts S1x32768
  slices_S3x32768_o1_0_S1x32768 : S3x32768.Slices ![1, 0] S1x32768
  slices_S3x3_o1_0_S1x1 : S3x3.Slices ![1, 0] S1x1
  slices_S3x32768_o2_0_S1x32768 : S3x32768.Slices ![2, 0] S1x32768
  slices_S3x3_o2_0_S1x1 : S3x3.Slices ![2, 0] S1x1
  slices_S3x3_o0_1_S1x1 : S3x3.Slices ![0, 1] S1x1
  slices_S3x3_o1_1_S1x1 : S3x3.Slices ![1, 1] S1x1
  slices_S3x3_o2_1_S1x1 : S3x3.Slices ![2, 1] S1x1
  slices_S3x3_o0_2_S1x1 : S3x3.Slices ![0, 2] S1x1
  slices_S3x3_o1_2_S1x1 : S3x3.Slices ![1, 2] S1x1
  slices_S3x3_o2_2_S1x1 : S3x3.Slices ![2, 2] S1x1
  concatenates_S1x32768_S1x32768_S1x32768_S3x32768_d0 : Shape.Concatenates [S1x32768, S1x32768, S1x32768] S3x32768 0
  reduces_S3x32768_S32768 : S3x32768.Reduces [0] S32768
  shapeCasts_S32768_S1x32768 : S32768.ShapeCasts S1x32768
  broadcasts_S1x32768_S3x32768 : S1x32768.Broadcasts S3x32768
  shapeCasts_S1x32768_S32768 : S1x32768.ShapeCasts S32768
  inb_S32768_S32768_0 : ∀ a, (![0] : Fin 1 → Nat) a + S32768.size a ≤ S32768.size a
  h_S32768 : 0 < S32768.numel
  reducesTo_S16777216_S_d0 : S16777216.ReducesTo [0] S_
  bcast_S_S3x262144 : S_.BroadcastsInDim S3x262144 (![] : Fin 0 → Fin S3x262144.rank)
  transposes_S3x262144_S262144x3_1_0 : S3x262144.Transposes [1, 0] S262144x3
  gather_S3x262144_S16777216x1_S3x16777216_0_1_n_n_1_1_31_wf : GatherDims.WF S3x262144 S16777216x1 S3x16777216 [0] [1] [] [1] [] 1 ![3, 1]
  scatter_S3x262144_S16777216x1_S3x16777216_0_1_1_1_wf : ScatterDims.WF S3x262144 S16777216x1 S3x16777216 [0] [1] [1] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32768.size a ≤ S3x16777216.size a
  hwx0_0 : ∀ i : grid0.Coords, EltTy.bits .f32 = 32 ∨ (Rect.block (s := S3x16777216) S3x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32768.size a ≤ S3x16777216.size a
  hwx0_1 : ∀ i : grid0.Coords, EltTy.bits .f32 = 32 ∨ (Rect.block (s := S3x16777216) S3x32768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x32768.size a ≤ S3x16777216.size a
  hwx0_2 : ∀ i : grid0.Coords, EltTy.bits .f32 = 32 ∨ (Rect.block (s := S3x16777216) S3x32768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32768.size a ≤ S16777216.size a
  hwx0_4 : ∀ i : grid0.Coords, EltTy.bits .f32 = 32 ∨ (Rect.block (s := S16777216) S32768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3x32768.size a ≤ S3x16777216.size a
  hwx0_5 : ∀ i : grid0.Coords, EltTy.bits .f32 = 32 ∨ (Rect.block (s := S3x16777216) S3x32768.size (cc0_transform_5 i) (hinb0_5 i)).WholeWords (EltTy.packing .f32)

variable [Facts₀]

def gather_S3x262144_S16777216x1_S3x16777216_0_1_n_n_1_1_31 : GatherDims S3x262144 S16777216x1 S3x16777216 where
  offsetDims := [0]
  collapsedSliceDims := [1]
  operandBatchingDims := []
  startIndicesBatchingDims := []
  startIndexMap := [1]
  indexVectorDim := 1
  sliceSizes := ![3, 1]
  wf := gather_S3x262144_S16777216x1_S3x16777216_0_1_n_n_1_1_31_wf
def scatter_S3x262144_S16777216x1_S3x16777216_0_1_1_1 : ScatterDims S3x262144 S16777216x1 S3x16777216 where
  updateWindowDims := [0]
  insertedWindowDims := [1]
  scatterDimsToOperandDims := [1]
  indexVectorDim := 1
  wf := scatter_S3x262144_S16777216x1_S3x16777216_0_1_1_1_wf

abbrev win0_0 : Pipeline.Window sig grid0 :=
  Pipeline.Window.ofSpec (Memref.whole main_v5) S3x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S3x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S3x32768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8_0) S32768.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_1) S3x32768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x3 : Shape := ⟨2, ![262144, 3]⟩
abbrev S3x3 : Shape := ⟨2, ![3, 3]⟩
abbrev S2x16777216 : Shape := ⟨2, ![2, 16777216]⟩
abbrev S16777216x3 : Shape := ⟨2, ![16777216, 3]⟩
abbrev S1x16777216 : Shape := ⟨2, ![1, 16777216]⟩
abbrev S16777216 : Shape := ⟨1, ![16777216]⟩
abbrev S_ : Shape := ⟨0, ![]⟩
abbrev S16777216x1 : Shape := ⟨2, ![16777216, 1]⟩

abbrev nBuf : Space → Nat
  | .hbm => 92
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S3x3, .f32⟩
  | .hbm, ⟨2, _⟩ => ⟨S2x16777216, .i32⟩
  | .hbm, ⟨3, _⟩ => ⟨S16777216x3, .f32⟩
  | .hbm, ⟨4, _⟩ => ⟨S1x16777216, .i32⟩
  | .hbm, ⟨5, _⟩ => ⟨S16777216, .i32⟩
  | .hbm, ⟨6, _⟩ => ⟨S1x16777216, .i32⟩
  | .hbm, ⟨7, _⟩ => ⟨S16777216, .i32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S16777216, .i32⟩
  | .hbm, ⟨15, _⟩ => ⟨S16777216x1, .i32⟩
  | .hbm, ⟨16, _⟩ => ⟨S16777216x3, .f32⟩
  | .hbm, ⟨17, _⟩ => ⟨S_, .i32⟩
  | .hbm, ⟨18, _⟩ => ⟨S16777216, .i32⟩
  | .hbm, ⟨19, _⟩ => ⟨S16777216, .i1⟩
  | .hbm, ⟨20, _⟩ => ⟨S_, .i32⟩
  | .hbm, ⟨21, _⟩ => ⟨S16777216, .i32⟩
  | .hbm, ⟨22, _⟩ => ⟨S16777216, .i32⟩
  | .hbm, ⟨23, _⟩ => ⟨S16777216, .i32⟩
  | .hbm, ⟨24, _⟩ => ⟨S16777216x1, .i32⟩
  | .hbm, ⟨25, _⟩ => ⟨S16777216x3, .f32⟩
  | .hbm, ⟨26, _⟩ => ⟨S16777216x3, .f32⟩
  | .hbm, ⟨27, _⟩ => ⟨S16777216x3, .f32⟩
  | .hbm, ⟨28, _⟩ => ⟨S16777216x3, .f32⟩
  | .hbm, ⟨29, _⟩ => ⟨S16777216x3, .f32⟩
  | .hbm, ⟨30, _⟩ => ⟨S_, .f32⟩
  | .hbm, ⟨31, _⟩ => ⟨S16777216, .f32⟩
  | .hbm, ⟨32, _⟩ => ⟨S16777216, .f32⟩
  | .hbm, ⟨33, _⟩ => ⟨S_, .f32⟩
  | .hbm, ⟨34, _⟩ => ⟨S16777216, .f32⟩
  | .hbm, ⟨35, _⟩ => ⟨S16777216, .f32⟩
  | .hbm, ⟨36, _⟩ => ⟨S16777216, .f32⟩
  | .hbm, ⟨37, _⟩ => ⟨S16777216, .f32⟩
  | .hbm, ⟨38, _⟩ => ⟨S16777216, .f32⟩
  | .hbm, ⟨39, _⟩ => ⟨S16777216, .f32⟩
  | .hbm, ⟨40, _⟩ => ⟨S16777216, .f32⟩
  | .hbm, ⟨41, _⟩ => ⟨S_, .f32⟩
  | .hbm, ⟨42, _⟩ => ⟨S16777216, .f32⟩
  | .hbm, ⟨43, _⟩ => ⟨S16777216, .f32⟩
  | .hbm, ⟨44, _⟩ => ⟨S_, .f32⟩
  | .hbm, ⟨45, _⟩ => ⟨S16777216, .f32⟩
  | .hbm, ⟨46, _⟩ => ⟨S16777216, .i1⟩
  | .hbm, ⟨47, _⟩ => ⟨S_, .f32⟩
  | .hbm, ⟨48, _⟩ => ⟨S_, .f32⟩
  | .hbm, ⟨49, _⟩ => ⟨S16777216, .f32⟩
  | .hbm, ⟨50, _⟩ => ⟨S16777216, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S16777216, .f32⟩
  | .hbm, ⟨57, _⟩ => ⟨S16777216, .f32⟩
  | .hbm, ⟨58, _⟩ => ⟨S_, .f32⟩
  | .hbm, ⟨59, _⟩ => ⟨S16777216, .f32⟩
  | .hbm, ⟨60, _⟩ => ⟨S16777216, .f32⟩
  | .hbm, ⟨61, _⟩ => ⟨S16777216, .f32⟩
  | .hbm, ⟨62, _⟩ => ⟨S16777216, .f32⟩
  | .hbm, ⟨63, _⟩ => ⟨S_, .f32⟩
  | .hbm, ⟨64, _⟩ => ⟨S_, .f32⟩
  | .hbm, ⟨65, _⟩ => ⟨S16777216, .f32⟩
  | .hbm, ⟨66, _⟩ => ⟨S16777216, .f32⟩
  | .hbm, ⟨67, _⟩ => ⟨S16777216, .f32⟩
  | .hbm, ⟨68, _⟩ => ⟨S16777216x1, .f32⟩
  | .hbm, ⟨69, _⟩ => ⟨S16777216x3, .f32⟩
  | .hbm, ⟨70, _⟩ => ⟨S16777216x3, .f32⟩
  | .hbm, ⟨71, _⟩ => ⟨S_, .f32⟩
  | .hbm, ⟨72, _⟩ => ⟨S262144x3, .f32⟩
  | .hbm, ⟨73, _⟩ => ⟨S16777216x3, .f32⟩
  | .hbm, ⟨74, _⟩ => ⟨S_, .i32⟩
  | .hbm, ⟨75, _⟩ => ⟨S16777216, .i32⟩
  | .hbm, ⟨76, _⟩ => ⟨S16777216, .i1⟩
  | .hbm, ⟨77, _⟩ => ⟨S_, .i32⟩
  | .hbm, ⟨78, _⟩ => ⟨S16777216, .i32⟩
  | .hbm, ⟨79, _⟩ => ⟨S16777216, .i32⟩
  | .hbm, ⟨80, _⟩ => ⟨S16777216, .i32⟩
  | .hbm, ⟨81, _⟩ => ⟨S16777216x1, .i32⟩
  | .hbm, ⟨82, _⟩ => ⟨S262144x3, .f32⟩
  | .hbm, ⟨83, _⟩ => ⟨S_, .i32⟩
  | .hbm, ⟨84, _⟩ => ⟨S16777216, .i32⟩
  | .hbm, ⟨85, _⟩ => ⟨S16777216, .i1⟩
  | .hbm, ⟨86, _⟩ => ⟨S_, .i32⟩
  | .hbm, ⟨87, _⟩ => ⟨S16777216, .i32⟩
  | .hbm, ⟨88, _⟩ => ⟨S16777216, .i32⟩
  | .hbm, ⟨89, _⟩ => ⟨S16777216, .i32⟩
  | .hbm, ⟨90, _⟩ => ⟨S16777216x1, .i32⟩
  | .hbm, ⟨91, _⟩ => ⟨S262144x3, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_call0_v0 : Ref sig .tc := ⟨.hbm, 48, rfl⟩
abbrev main_call0_v1 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_cst_8 : Ref sig .tc := ⟨.hbm, 53, rfl⟩
abbrev main_v37 : Ref sig .tc := ⟨.hbm, 54, rfl⟩
abbrev main_cst_9 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_11 : Ref sig .tc := ⟨.hbm, 63, rfl⟩
abbrev main_call1_v0 : Ref sig .tc := ⟨.hbm, 64, rfl⟩
abbrev main_call1_v1 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_12 : Ref sig .tc := ⟨.hbm, 71, rfl⟩
abbrev main_v49 : Ref sig .tc := ⟨.hbm, 72, rfl⟩
abbrev main_v50 : Ref sig .tc := ⟨.hbm, 73, rfl⟩
abbrev main_c_13 : Ref sig .tc := ⟨.hbm, 74, rfl⟩
abbrev main_v51 : Ref sig .tc := ⟨.hbm, 75, rfl⟩
abbrev main_v52 : Ref sig .tc := ⟨.hbm, 76, rfl⟩
abbrev main_c_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_c_15 : Ref sig .tc := ⟨.hbm, 83, rfl⟩
abbrev main_v58 : Ref sig .tc := ⟨.hbm, 84, rfl⟩
abbrev main_v59 : Ref sig .tc := ⟨.hbm, 85, rfl⟩
abbrev main_c_16 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  slices_S2x16777216_S1x16777216_0_0 : S2x16777216.Slices ![0, 0] S1x16777216
  shapeCasts_S1x16777216_S16777216 : S1x16777216.ShapeCasts S16777216
  slices_S2x16777216_S1x16777216_1_0 : S2x16777216.Slices ![1, 0] S1x16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  reducesTo_S16777216x3_S16777216_d1 : S16777216x3.ReducesTo [1] S16777216
  h_S_ : 0 < S_.numel
  reducesTo_S16777216_S_d0 : S16777216.ReducesTo [0] S_
  bcast_S16777216x1_S16777216x3_0_1 : S16777216x1.BroadcastsInDim S16777216x3 (![0, 1] : Fin 2 → Fin S16777216x3.rank)
  bcast_S_S262144x3 : S_.BroadcastsInDim S262144x3 (![] : Fin 0 → Fin S262144x3.rank)
  gather_S262144x3_S16777216x1_S16777216x3_1_0_n_n_0_1_13_wf : GatherDims.WF S262144x3 S16777216x1 S16777216x3 [1] [0] [] [0] [] 1 ![1, 3]
  dot_S16777216x3_S3x3_S16777216x3_1_0_0_1_n_n_wf : DotDims.WF S16777216x3 S3x3 S16777216x3 [1] [0] [0] [1] [] []
  scatter_S262144x3_S16777216x1_S16777216x3_1_0_0_1_wf : ScatterDims.WF S262144x3 S16777216x1 S16777216x3 [1] [0] [0] 1

variable [Facts₀]

def gather_S262144x3_S16777216x1_S16777216x3_1_0_n_n_0_1_13 : GatherDims S262144x3 S16777216x1 S16777216x3 where
  offsetDims := [1]
  collapsedSliceDims := [0]
  operandBatchingDims := []
  startIndicesBatchingDims := []
  startIndexMap := [0]
  indexVectorDim := 1
  sliceSizes := ![1, 3]
  wf := gather_S262144x3_S16777216x1_S16777216x3_1_0_n_n_0_1_13_wf
def dot_S16777216x3_S3x3_S16777216x3_1_0_0_1_n_n : DotDims S16777216x3 S3x3 S16777216x3 where
  lhsContracting := [1]
  rhsContracting := [0]
  lhsNonContracting := [0]
  rhsNonContracting := [1]
  lhsBatch := []
  rhsBatch := []
  wf := dot_S16777216x3_S3x3_S16777216x3_1_0_0_1_n_n_wf
def scatter_S262144x3_S16777216x1_S16777216x3_1_0_0_1 : ScatterDims S262144x3 S16777216x1 S16777216x3 where
  updateWindowDims := [1]
  insertedWindowDims := [0]
  scatterDimsToOperandDims := [0]
  indexVectorDim := 1
  wf := scatter_S262144x3_S16777216x1_S16777216x3_1_0_0_1_wf

class Facts : Prop extends Facts₀ where

variable [Facts]
-- ==== Proof.KernelIdx.lean ====
/-
  Where the blocks of the pair kernel's windows sit in their arrays.

  The grid has 512 points; point t handles the pairs t·32768 … t·32768 + 32767.  The three planar inputs
  [3, 16777216] and the force output [3, 16777216] are cut along the pair axis into blocks [3, 32768], the
  energy output [16777216] into blocks [32768], and the cell [3, 3] is one block.  So entry (a, q) of point
  t's block is entry (a, t·32768 + q) of the array (`emb0` … `emb5`), decided once over the grid from the
  printed index maps (`idx0` … `idx5`).
-/
import proofs.«401026_j30176440222240_3_alg».proof.Proof.Gen.KernelIdeal.Frame
import Idealize.ShloMosaic.Lib.Pipeline.Value
import Idealize.ShloMosaic.Lib.ValueIdx

set_option maxRecDepth 16384
set_option Elab.async false

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)

/-- Point t reads block (0, t) of r_i … -/
theorem idx0 : ∀ t : Fin cfg0.N, win0_0.index t (0 : Fin 2) = 0 ∧ win0_0.index t (1 : Fin 2) = t.val :=
  (by decide +kernel : ∀ t : Fin grid0.N, _)
/-- … of r_j … -/
theorem idx1 : ∀ t : Fin cfg0.N, win0_1.index t (0 : Fin 2) = 0 ∧ win0_1.index t (1 : Fin 2) = t.val :=
  (by decide +kernel : ∀ t : Fin grid0.N, _)
/-- … and of the shifts, -/
theorem idx2 : ∀ t : Fin cfg0.N, win0_2.index t (0 : Fin 2) = 0 ∧ win0_2.index t (1 : Fin 2) = t.val :=
  (by decide +kernel : ∀ t : Fin grid0.N, _)
/-- the whole cell, -/
theorem idx3 : ∀ t : Fin cfg0.N, win0_3.index t (0 : Fin 2) = 0 ∧ win0_3.index t (1 : Fin 2) = 0 :=
  (by decide +kernel : ∀ t : Fin grid0.N, _)
/-- and writes block t of the energies -/
theorem idx4 : ∀ t : Fin cfg0.N, win0_4.index t (0 : Fin 1) = t.val :=
  (by decide +kernel : ∀ t : Fin grid0.N, _)
/-- and block (0, t) of the forces. -/
theorem idx5 : ∀ t : Fin cfg0.N, win0_5.index t (0 : Fin 2) = 0 ∧ win0_5.index t (1 : Fin 2) = t.val :=
  (by decide +kernel : ∀ t : Fin grid0.N, _)

/-- The pair that entry q of point t's block is. -/
def pairOf (t : Fin cfg0.N) (q : Fin 32768) : Fin 16777216 :=
  ⟨t.val * 32768 + q.val, by have := t.isLt; have := q.isLt; have h : cfg0.N = 512 := N_0; omega⟩

theorem emb0 (t : Fin cfg0.N) (a : Fin 3) (q : Fin 32768) :
    ((cfg0.win 0).blk t).view.emb (ix2 a q) = ix2 a (pairOf t q) := by
  obtain ⟨e0, e1⟩ := idx0 t
  funext b; apply Fin.ext
  match b with
  | ⟨0, _⟩ => show win0_0.index t (0 : Fin 2) * 3 + 1 * a.val = a.val; omega
  | ⟨1, _⟩ => show win0_0.index t (1 : Fin 2) * 32768 + 1 * q.val = t.val * 32768 + q.val; omega

theorem emb1 (t : Fin cfg0.N) (a : Fin 3) (q : Fin 32768) :
    ((cfg0.win 1).blk t).view.emb (ix2 a q) = ix2 a (pairOf t q) := by
  obtain ⟨e0, e1⟩ := idx1 t
  funext b; apply Fin.ext
  match b with
  | ⟨0, _⟩ => show win0_1.index t (0 : Fin 2) * 3 + 1 * a.val = a.val; omega
  | ⟨1, _⟩ => show win0_1.index t (1 : Fin 2) * 32768 + 1 * q.val = t.val * 32768 + q.val; omega

theorem emb2 (t : Fin cfg0.N) (a : Fin 3) (q : Fin 32768) :
    ((cfg0.win 2).blk t).view.emb (ix2 a q) = ix2 a (pairOf t q) := by
  obtain ⟨e0, e1⟩ := idx2 t
  funext b; apply Fin.ext
  match b with
  | ⟨0, _⟩ => show win0_2.index t (0 : Fin 2) * 3 + 1 * a.val = a.val; omega
  | ⟨1, _⟩ => show win0_2.index t (1 : Fin 2) * 32768 + 1 * q.val = t.val * 32768 + q.val; omega

theorem emb3 (t : Fin cfg0.N) (b a : Fin 3) :
    ((cfg0.win 3).blk t).view.emb (ix2 b a) = ix2 b a := by
  obtain ⟨e0, e1⟩ := idx3 t
  funext d; apply Fin.ext
  match d with
  | ⟨0, _⟩ => show win0_3.index t (0 : Fin 2) * 3 + 1 * b.val = b.val; omega
  | ⟨1, _⟩ => show win0_3.index t (1 : Fin 2) * 3 + 1 * a.val = a.val; omega

theorem emb4 (t : Fin cfg0.N) (q : Fin 32768) :
    ((cfg0.win 4).blk t).view.emb (ix1 q) = ix1 (pairOf t q) := by
  have e4 := idx4 t
  funext b; apply Fin.ext
  match b with
  | ⟨0, _⟩ => show win0_4.index t (0 : Fin 1) * 32768 + 1 * q.val = t.val * 32768 + q.val; omega

theorem emb5 (t : Fin cfg0.N) (a : Fin 3) (q : Fin 32768) :
    ((cfg0.win 5).blk t).view.emb (ix2 a q) = ix2 a (pairOf t q) := by
  obtain ⟨e0, e1⟩ := idx5 t
  funext b; apply Fin.ext
  match b with
  | ⟨0, _⟩ => show win0_5.index t (0 : Fin 2) * 3 + 1 * a.val = a.val; omega
  | ⟨1, _⟩ => show win0_5.index t (1 : Fin 2) * 32768 + 1 * q.val = t.val * 32768 + q.val; omega

end Cert.KernelIdeal.Blocks

end
-- ==== Proof.LJ.lean ====
/-
  The pair function of the Lennard-Jones 12-6 kernel, on the extended reals.

  For one pair p of atoms (i, j) with periodic shift s the displacement is
      dr a = (r_j a - r_i a) + ((s 0 · C 0 a + s 1 · C 1 a) + s 2 · C 2 a)        (a = 0, 1, 2)
  and d2 = |dr|² its squared length.  With dist = √d2 and x = 1 / dist the reference computes
      (σ/r)⁶ = x²·(x²·x²),  (σ/r)¹² = its square,
      e = 4·((σ/r)¹² − (σ/r)⁶) inside the cutoff dist < 2.5, else 0,
      g = (24/dist · (2·(σ/r)¹² − (σ/r)⁶) inside the cutoff, else 0) / dist,
  the pair's energy and the factor of dr in its force.  The kernel computes the same with the
  reciprocal guarded, x = (if d2 > 0 then 1/dist else 0), scaled by σ = 1.0, the sixth power
  associated as (x²·x²)·x², and products with x where the reference divides by dist.
  For d2 > 0 the guard passes, dist ≠ 0, so each quotient by dist is the product with dist⁻¹, and the
  two forms agree by commutativity and associativity of the product alone (`pe_eq`, `g_eq`):
  no distributive law is used, so nothing here needs a finite input.
-/
import Idealize.ShloMosaic.PureOps.Ideal
import Idealize.ShloMosaic.Lib.ValueIdx

noncomputable section

namespace LJ

open Idealize.ShloMosaic Idealize.ShloMosaic.ValueIdx

/-- The float words both programs spell, read as extended reals. -/
abbrev w0 : EReal := Ideal.ofBits .f32 0x00000000#32
abbrev w1 : EReal := Ideal.ofBits .f32 0x3F800000#32
abbrev w2 : EReal := Ideal.ofBits .f32 0x40000000#32
abbrev wcut : EReal := Ideal.ofBits .f32 0x40200000#32
abbrev w4 : EReal := Ideal.ofBits .f32 0x40800000#32
abbrev w24 : EReal := Ideal.ofBits .f32 0x41C00000#32

theorem w0_eq : w0 = 0 := by simp [Ideal.ofBits, Ideal.ieee]
theorem w1_eq : w1 = 1 := by simp [Ideal.ofBits, Ideal.ieee, -EReal.coe_mul]; norm_num

/-- Component a of the displacement of a pair: r_j − r_i plus the shift's row times the cell. -/
def dr (ri rj sh : Fin 3 → EReal) (cell : Fin 3 → Fin 3 → EReal) (a : Fin 3) : EReal :=
  (rj a - ri a) + ((sh 0 * cell 0 a + sh 1 * cell 1 a) + sh 2 * cell 2 a)

/-- The squared distance of the pair. -/
def d2 (ri rj sh : Fin 3 → EReal) (cell : Fin 3 → Fin 3 → EReal) : EReal :=
  (dr ri rj sh cell 0 * dr ri rj sh cell 0 + dr ri rj sh cell 1 * dr ri rj sh cell 1)
    + dr ri rj sh cell 2 * dr ri rj sh cell 2

/-- The distance. -/
def dist (q : EReal) : EReal := Ideal.sqrt q

/-- The cutoff test dist < 2.5, as the bit both programs select on. -/
def cut (q : EReal) : BitVec 1 := FloatOps.cmpf (F := Ideal) (φ := .f32) .olt (dist q) wcut

/-! ### The reference's form -/

def invR (q : EReal) : EReal := Ideal.div w1 (dist q)
def sr6R (q : EReal) : EReal := (invR q * invR q) * ((invR q * invR q) * (invR q * invR q))
def sr12R (q : EReal) : EReal := sr6R q * sr6R q
/-- The pair's energy. -/
def peR (q : EReal) : EReal := Scalar.select (cut q) (w4 * (sr12R q - sr6R q)) w0
/-- The factor of the displacement in the pair's force. -/
def gR (q : EReal) : EReal :=
  Ideal.div (Scalar.select (cut q) (Ideal.div w24 (dist q) * (w2 * sr12R q - sr6R q)) w0) (dist q)

/-! ### The kernel's form -/

def invK (q : EReal) : EReal :=
  Scalar.select (FloatOps.cmpf (F := Ideal) (φ := .f32) .ogt q w0) (Ideal.div w1 (dist q)) w0
def sr6K (q : EReal) : EReal :=
  (((w1 * invK q) * (w1 * invK q)) * ((w1 * invK q) * (w1 * invK q))) * ((w1 * invK q) * (w1 * invK q))
def sr12K (q : EReal) : EReal := sr6K q * sr6K q
def peK (q : EReal) : EReal := Scalar.select (cut q) (w4 * (sr12K q - sr6K q)) w0
def gK (q : EReal) : EReal :=
  Scalar.select (cut q) ((w24 * invK q) * (w2 * sr12K q - sr6K q)) w0 * invK q

/-! ### A pair's data, read off the argument arrays

The pair list `map : [2, 16777216]` holds the atoms i (row 0) and j (row 1) of pair p.  An index is wrapped
as numpy wraps a negative one (`wrap`), and a gather reads the row at the wrapped index read signed and
clamped into the array (`row`). -/

/-- numpy's reading of a possibly negative index into an axis of 262144. -/
def wrap (w : BitVec 32) : BitVec 32 := Scalar.select (IntOp.cmpi .slt w 0#32) (IntOp.addi w 262144#32) w

/-- The row of the position array a gather reads at start index w: read signed, clamped into [0, 262143]. -/
def row (w : BitVec 32) : Fin 262144 := ⟨min w.toInt.toNat (262144 - 1), by omega⟩

/-- r_i of pair p: the position of atom map[0, p]. -/
def pairRi (pos : (⟨2, ![262144, 3]⟩ : Shape).Idx → EReal) (map : IVec ⟨2, ![2, 16777216]⟩ 32) (p : Fin 16777216) :
    Fin 3 → EReal := fun a => pos (ix2 (row (wrap (map (ix2 (0 : Fin 2) p)))) a)
/-- r_j of pair p: the position of atom map[1, p]. -/
def pairRj (pos : (⟨2, ![262144, 3]⟩ : Shape).Idx → EReal) (map : IVec ⟨2, ![2, 16777216]⟩ 32) (p : Fin 16777216) :
    Fin 3 → EReal := fun a => pos (ix2 (row (wrap (map (ix2 (1 : Fin 2) p)))) a)
/-- The periodic shift of pair p. -/
def pairSh (sh : (⟨2, ![16777216, 3]⟩ : Shape).Idx → EReal) (p : Fin 16777216) : Fin 3 → EReal := fun b => sh (ix2 p b)
/-- The cell matrix by coordinates. -/
def cellF (cell : (⟨2, ![3, 3]⟩ : Shape).Idx → EReal) : Fin 3 → Fin 3 → EReal := fun b a => cell (ix2 b a)

/-- The squared distance of pair p. -/
def pairD2 (pos : (⟨2, ![262144, 3]⟩ : Shape).Idx → EReal) (cell : (⟨2, ![3, 3]⟩ : Shape).Idx → EReal)
    (map : IVec ⟨2, ![2, 16777216]⟩ 32) (sh : (⟨2, ![16777216, 3]⟩ : Shape).Idx → EReal) (p : Fin 16777216) : EReal :=
  d2 (pairRi pos map p) (pairRj pos map p) (pairSh sh p) (cellF cell)
/-- Component a of the displacement of pair p. -/
def pairDr (pos : (⟨2, ![262144, 3]⟩ : Shape).Idx → EReal) (cell : (⟨2, ![3, 3]⟩ : Shape).Idx → EReal)
    (map : IVec ⟨2, ![2, 16777216]⟩ 32) (sh : (⟨2, ![16777216, 3]⟩ : Shape).Idx → EReal) (p : Fin 16777216) (a : Fin 3) : EReal :=
  dr (pairRi pos map p) (pairRj pos map p) (pairSh sh p) (cellF cell) a

end LJ

end
-- ==== Proof.KernelPay.lean ====
/-
  The Lennard-Jones pair kernel's body, read at one pair.

  One grid point holds a block of 32768 pairs, laid out planar: the rows of a [3, 32768] block are the three
  Cartesian components and column q is pair q.  For pair q the body forms
      dr a = (r_j a − r_i a) + ((s 0 · C 0 a + s 1 · C 1 a) + s 2 · C 2 a)          (a = 0, 1, 2),
  the shift's row against column a of the cell, built row by row and stacked; then d2 = Σ_a (dr a)², the sum down
  the three rows of the block, associated from the left; and from d2 alone, element by element, the distance, its
  guarded reciprocal, the sixth and twelfth powers, the cutoff bit, the pair's energy and the factor of dr in its
  force.  The energy is stored as a [32768] vector and the force as the factor, spread down the three rows, times dr.

  Below each stage of the body is read at explicit coordinates (a, q), innermost first:
    * the difference r_j − r_i (`pay11_apply`);
    * a cell entry cut out as a [1, 1] block and spread along a row (`cell_apply`), a row of the shift block
      (`shrow_apply`), their three products summed (`lincomb_apply`), three such rows stacked (`stack3_apply_k`):
      the shift-times-cell term (`pay10_apply`);
    * their sum, the displacement `LJ.dr` (`pay1_apply`);
    * the sum of squares over the row axis as a sum over `Fin 3`, written out (`pay2_gen`), which is `LJ.d2`
      (`pay2_apply`);
    * the elementwise stages as the scalar functions `LJ.dist`, `LJ.invK`, `LJ.sr6K`, `LJ.sr12K`, `LJ.cut` of the
      squared length at the same index (`pay3_gen` … `pay7_gen`), the energy `LJ.peK` (`pay9_gen`) and the force
      factor `LJ.gK` times the displacement (`pay8_gen`);
  and last what each output buffer holds after the body (`out4_apply`, `out5_apply`): a store through the
  whole-buffer rectangle leaves its payload, and a load through it reads the block.

  No arithmetic law of the extended reals is used: every step is the definition of an operation at an index.  The
  float words stay words throughout.
-/
import proofs.«401026_j30176440222240_3_alg».proof.Proof.Gen.KernelIdeal.Frame
import proofs.«401026_j30176440222240_3_alg».proof.Proof.LJ
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx

/-- The offsets of a whole-buffer rectangle of rank 2 are all zero. -/
theorem hz2 : (![0, 0] : Fin 2 → Nat) = fun _ => 0 := funext fun a => by fin_cases a <;> rfl
/-- The offset of a whole-buffer rectangle of rank 1 is zero. -/
theorem hz1 : (![0] : Fin 1 → Nat) = fun _ => 0 := funext fun a => by fin_cases a; rfl

/-- The difference payload at (a, q): r_j − r_i. -/
theorem pay11_apply (x0 x1 : Vec Ideal S3x32768 .f32) (a : Fin 3) (q : Fin 32768) :
    k0_pay11 (F := Ideal) x0 x1 (ix2 a q) = x1 (ix2 a q) - x0 (ix2 a q) := by
  unfold k0_pay11
  simp only [shapeCast_self]
  rfl

/-- One cell entry, cut out as a [1, 1] block and spread along a row, is that entry everywhere. -/
theorem cell_apply (x3 : Vec Ideal S3x3 .f32) (o p : Nat) (hc : S3x3.Slices ![o, p] S1x1)
    (b a : Fin 3) (hb : b.val = o) (ha : a.val = p) (u : Fin 1) (q : Fin 32768) :
    broadcastTo S1x32768 (extractStridedSlice S1x1 ![o, p] x3 hc) broadcasts_S1x1_S1x32768 (ix2 u q) = x3 (ix2 b a) := by
  refine (broadcastTo_apply _ _ (ix2 u q) (ix2 (0 : Fin 1) (0 : Fin 1)) fun ax => ?_).trans ?_
  · match ax with
    | ⟨0, _⟩ => rfl
    | ⟨1, _⟩ => rfl
  · refine extractStridedSlice_apply _ _ _ _ (ix2 b a) fun ax => ?_
    match ax with
    | ⟨0, _⟩ => show b.val = o + 0; omega
    | ⟨1, _⟩ => show a.val = p + 0; omega

/-- One row of the shift block, cut out as a [1, 32768] block. -/
theorem shrow_apply (x2 : Vec Ideal S3x32768 .f32) (o : Nat) (hs : S3x32768.Slices ![o, 0] S1x32768)
    (b : Fin 3) (hb : b.val = o) (u : Fin 1) (q : Fin 32768) :
    extractStridedSlice S1x32768 ![o, 0] x2 hs (ix2 u q) = x2 (ix2 b q) :=
  slice2_axis0_apply o x2 hs u q b (by have := u.isLt; omega)

/-- Row a of the shift-times-cell payload before it is stacked: the shift's three entries against column a of the cell. -/
theorem lincomb_apply (x2 : Vec Ideal S3x32768 .f32) (x3 : Vec Ideal S3x3 .f32) (p : Nat) (a : Fin 3) (ha : a.val = p)
    (h0 : S3x3.Slices ![0, p] S1x1) (h1 : S3x3.Slices ![1, p] S1x1) (h2 : S3x3.Slices ![2, p] S1x1) (u : Fin 1) (q : Fin 32768) :
    addf (F := Ideal) (φ := .f32)
        (addf (mulf (extractStridedSlice S1x32768 ![0, 0] x2 slices_S3x32768_o0_0_S1x32768)
                    (broadcastTo S1x32768 (extractStridedSlice S1x1 ![0, p] x3 h0) broadcasts_S1x1_S1x32768))
              (mulf (extractStridedSlice S1x32768 ![1, 0] x2 slices_S3x32768_o1_0_S1x32768)
                    (broadcastTo S1x32768 (extractStridedSlice S1x1 ![1, p] x3 h1) broadcasts_S1x1_S1x32768)))
        (mulf (extractStridedSlice S1x32768 ![2, 0] x2 slices_S3x32768_o2_0_S1x32768)
              (broadcastTo S1x32768 (extractStridedSlice S1x1 ![2, p] x3 h2) broadcasts_S1x1_S1x32768)) (ix2 u q)
      = (x2 (ix2 0 q) * x3 (ix2 0 a) + x2 (ix2 1 q) * x3 (ix2 1 a)) + x2 (ix2 2 q) * x3 (ix2 2 a) := by
  show (extractStridedSlice S1x32768 ![0, 0] x2 slices_S3x32768_o0_0_S1x32768 (ix2 u q)
          * broadcastTo S1x32768 (extractStridedSlice S1x1 ![0, p] x3 h0) broadcasts_S1x1_S1x32768 (ix2 u q)
        + extractStridedSlice S1x32768 ![1, 0] x2 slices_S3x32768_o1_0_S1x32768 (ix2 u q)
          * broadcastTo S1x32768 (extractStridedSlice S1x1 ![1, p] x3 h1) broadcasts_S1x1_S1x32768 (ix2 u q))
        + extractStridedSlice S1x32768 ![2, 0] x2 slices_S3x32768_o2_0_S1x32768 (ix2 u q)
          * broadcastTo S1x32768 (extractStridedSlice S1x1 ![2, p] x3 h2) broadcasts_S1x1_S1x32768 (ix2 u q) = _
  rw [shrow_apply x2 0 _ 0 rfl u q, shrow_apply x2 1 _ 1 rfl u q, shrow_apply x2 2 _ 2 rfl u q,
    cell_apply x3 0 p h0 0 a rfl ha u q, cell_apply x3 1 p h1 1 a rfl ha u q, cell_apply x3 2 p h2 2 a rfl ha u q]

/-- Three [1, 32768] rows stacked along axis 0, read in row 0: the first piece. -/
theorem stack3_apply_0 {α : Type} (f0 f1 f2 : S1x32768.Idx → α)
    (h : Shape.Concatenates (([⟨S1x32768, f0⟩, ⟨S1x32768, f1⟩, ⟨S1x32768, f2⟩] : List ((s : Shape) × (s.Idx → α))).map (·.1)) S3x32768 0)
    (hn : 0 < 3) (q : Fin 32768) :
    concatenate S3x32768 0 [⟨S1x32768, f0⟩, ⟨S1x32768, f1⟩, ⟨S1x32768, f2⟩] h (ix2 (⟨0, hn⟩ : Fin 3) q) = f0 (ix2 (0 : Fin 1) q) := by
  refine concatenate_apply_piece (t := S3x32768) (0 : Fin 2) [⟨S1x32768, f0⟩, ⟨S1x32768, f1⟩, ⟨S1x32768, f2⟩] h
    (ix2 (⟨0, hn⟩ : Fin 3) q) 0 (Nat.lt_of_lt_of_eq hn rfl) S1x32768 f0 rfl rfl 0 ?_ (ix2 (0 : Fin 1) q) (fun b hb => ?_) ?_
  · rfl
  · match b with
    | ⟨0, _⟩ => exact absurd rfl hb
    | ⟨1, _⟩ => rfl
  · rfl

/-- Three [1, 32768] rows stacked along axis 0, read in row 1: the second piece. -/
theorem stack3_apply_1 {α : Type} (f0 f1 f2 : S1x32768.Idx → α)
    (h : Shape.Concatenates (([⟨S1x32768, f0⟩, ⟨S1x32768, f1⟩, ⟨S1x32768, f2⟩] : List ((s : Shape) × (s.Idx → α))).map (·.1)) S3x32768 0)
    (hn : 1 < 3) (q : Fin 32768) :
    concatenate S3x32768 0 [⟨S1x32768, f0⟩, ⟨S1x32768, f1⟩, ⟨S1x32768, f2⟩] h (ix2 (⟨1, hn⟩ : Fin 3) q) = f1 (ix2 (0 : Fin 1) q) := by
  refine concatenate_apply_piece (t := S3x32768) (0 : Fin 2) [⟨S1x32768, f0⟩, ⟨S1x32768, f1⟩, ⟨S1x32768, f2⟩] h
    (ix2 (⟨1, hn⟩ : Fin 3) q) 1 (Nat.lt_of_lt_of_eq hn rfl) S1x32768 f1 rfl rfl 1 ?_ (ix2 (0 : Fin 1) q) (fun b hb => ?_) ?_
  · rfl
  · match b with
    | ⟨0, _⟩ => exact absurd rfl hb
    | ⟨1, _⟩ => rfl
  · rfl

/-- Three [1, 32768] rows stacked along axis 0, read in row 2: the third piece. -/
theorem stack3_apply_2 {α : Type} (f0 f1 f2 : S1x32768.Idx → α)
    (h : Shape.Concatenates (([⟨S1x32768, f0⟩, ⟨S1x32768, f1⟩, ⟨S1x32768, f2⟩] : List ((s : Shape) × (s.Idx → α))).map (·.1)) S3x32768 0)
    (hn : 2 < 3) (q : Fin 32768) :
    concatenate S3x32768 0 [⟨S1x32768, f0⟩, ⟨S1x32768, f1⟩, ⟨S1x32768, f2⟩] h (ix2 (⟨2, hn⟩ : Fin 3) q) = f2 (ix2 (0 : Fin 1) q) := by
  refine concatenate_apply_piece (t := S3x32768) (0 : Fin 2) [⟨S1x32768, f0⟩, ⟨S1x32768, f1⟩, ⟨S1x32768, f2⟩] h
    (ix2 (⟨2, hn⟩ : Fin 3) q) 2 (Nat.lt_of_lt_of_eq hn rfl) S1x32768 f2 rfl rfl 2 ?_ (ix2 (0 : Fin 1) q) (fun b hb => ?_) ?_
  · rfl
  · match b with
    | ⟨0, _⟩ => exact absurd rfl hb
    | ⟨1, _⟩ => rfl
  · rfl

/-- The shift-times-cell payload at (a, q): the three rows are stacked, row a holding the shift's entries against column a. -/
theorem pay10_apply (x2 : Vec Ideal S3x32768 .f32) (x3 : Vec Ideal S3x3 .f32) (a : Fin 3) (q : Fin 32768) :
    k0_pay10 (F := Ideal) x2 x3 (ix2 a q)
      = (x2 (ix2 0 q) * x3 (ix2 0 a) + x2 (ix2 1 q) * x3 (ix2 1 a)) + x2 (ix2 2 q) * x3 (ix2 2 a) := by
  unfold k0_pay10
  simp only [shapeCast_self]
  match a with
  | ⟨0, h⟩ => exact (stack3_apply_0 _ _ _ _ h q).trans (lincomb_apply x2 x3 0 ⟨0, h⟩ rfl _ _ _ 0 q)
  | ⟨1, h⟩ => exact (stack3_apply_1 _ _ _ _ h q).trans (lincomb_apply x2 x3 1 ⟨1, h⟩ rfl _ _ _ 0 q)
  | ⟨2, h⟩ => exact (stack3_apply_2 _ _ _ _ h q).trans (lincomb_apply x2 x3 2 ⟨2, h⟩ rfl _ _ _ 0 q)

/-- The displacement payload at (a, q) is component a of the displacement of the pair in column q. -/
theorem pay1_apply (x0 x1 x2 : Vec Ideal S3x32768 .f32) (x3 : Vec Ideal S3x3 .f32) (a : Fin 3) (q : Fin 32768) :
    k0_pay1 (F := Ideal) (k0_pay10 x2 x3) (k0_pay11 x0 x1) (ix2 a q)
      = LJ.dr (fun a => x0 (ix2 a q)) (fun a => x1 (ix2 a q)) (fun b => x2 (ix2 b q)) (fun b a => x3 (ix2 b a)) a := by
  show k0_pay11 (F := Ideal) x0 x1 (ix2 a q) + k0_pay10 (F := Ideal) x2 x3 (ix2 a q) = _
  rw [pay11_apply, pay10_apply]
  rfl

/-- The source index of the sum over the three rows: row k inserted above column q. -/
theorem lift_eq (q : Fin 32768) (k : Fin 3) : reduces_S3x32768_S32768.lift (ix1 q) k = ix2 k q := by
  funext d
  apply Fin.ext
  match d with
  | ⟨0, _⟩ => rfl
  | ⟨1, _⟩ => rfl

/-- The squared-length payload at (u, q): the sum over the three rows of the squares of the displacement payload. -/
theorem pay2_gen (v49 v50 : FVec Ideal S3x32768 .f32) (u : Fin 1) (q : Fin 32768) :
    k0_pay2 (F := Ideal) v49 v50 (ix2 u q)
      = (k0_pay1 v49 v50 (ix2 0 q) * k0_pay1 v49 v50 (ix2 0 q) + k0_pay1 v49 v50 (ix2 1 q) * k0_pay1 v49 v50 (ix2 1 q))
        + k0_pay1 v49 v50 (ix2 2 q) * k0_pay1 v49 v50 (ix2 2 q) := by
  unfold k0_pay2
  refine (shapeCast_a_1a_apply _ _ u q).trans ?_
  refine (Ideal.multiReduction_add_single _ _ reduces_S3x32768_S32768 _ _ (ix1 q)).trans ?_
  refine (Fin.sum_univ_three _).trans ?_
  rw [lift_eq, lift_eq, lift_eq]
  rfl

/-- The distance payload at an index: the square root of the squared length there. -/
theorem pay3_gen (v49 v50 : FVec Ideal S3x32768 .f32) (i : S1x32768.Idx) :
    k0_pay3 (F := Ideal) v49 v50 i = LJ.dist (k0_pay2 v49 v50 i) := by
  unfold k0_pay3
  show FloatOps.sqrt (k0_pay2 v49 v50 i) = LJ.dist (k0_pay2 v49 v50 i)
  generalize k0_pay2 v49 v50 i = x
  rfl

/-- The guarded reciprocal of the distance, at an index. -/
theorem pay4_gen (v49 v50 : FVec Ideal S3x32768 .f32) (i : S1x32768.Idx) :
    k0_pay4 (F := Ideal) v49 v50 i = LJ.invK (k0_pay2 v49 v50 i) := by
  unfold k0_pay4
  simp only [select_apply, cmpf_apply, broadcast_apply, divf_apply, pay3_gen]
  generalize k0_pay2 v49 v50 i = x
  rfl

/-- The sixth power, at an index. -/
theorem pay5_gen (v49 v50 : FVec Ideal S3x32768 .f32) (i : S1x32768.Idx) :
    k0_pay5 (F := Ideal) v49 v50 i = LJ.sr6K (k0_pay2 v49 v50 i) := by
  unfold k0_pay5
  simp only [mulf_apply, broadcast_apply, pay4_gen]
  generalize k0_pay2 v49 v50 i = x
  rfl

/-- The twelfth power, at an index. -/
theorem pay6_gen (v49 v50 : FVec Ideal S3x32768 .f32) (i : S1x32768.Idx) :
    k0_pay6 (F := Ideal) v49 v50 i = LJ.sr12K (k0_pay2 v49 v50 i) := by
  unfold k0_pay6
  simp only [mulf_apply, pay5_gen]
  generalize k0_pay2 v49 v50 i = x
  rfl

/-- The cutoff bit, at an index. -/
theorem pay7_gen (v49 v50 : FVec Ideal S3x32768 .f32) (i : S1x32768.Idx) :
    k0_pay7 (F := Ideal) v49 v50 i = LJ.cut (k0_pay2 v49 v50 i) := by
  unfold k0_pay7
  simp only [cmpf_apply, broadcast_apply, pay3_gen]
  generalize k0_pay2 v49 v50 i = x
  rfl

/-- The energy payload at q: the pair energy of the squared length in column q. -/
theorem pay9_gen (v49 v50 : FVec Ideal S3x32768 .f32) (q : Fin 32768) :
    k0_pay9 (F := Ideal) v49 v50 (ix1 q) = LJ.peK (k0_pay2 v49 v50 (ix2 0 q)) := by
  unfold k0_pay9
  refine (shapeCast_1a_a_apply _ _ q).trans ?_
  simp only [select_apply, mulf_apply, subf_apply, broadcast_apply, pay5_gen, pay6_gen, pay7_gen]
  generalize k0_pay2 v49 v50 (ix2 0 q) = x
  rfl

/-- The force payload at (a, q): the force factor of column q, spread down the three rows, times the displacement. -/
theorem pay8_gen (v49 v50 : FVec Ideal S3x32768 .f32) (a : Fin 3) (q : Fin 32768) :
    k0_pay8 (F := Ideal) v49 v50 (ix2 a q) = LJ.gK (k0_pay2 v49 v50 (ix2 0 q)) * k0_pay1 v49 v50 (ix2 a q) := by
  unfold k0_pay8
  simp only [mulf_apply]
  rw [broadcastTo_1b_ab_apply _ _ a q]
  simp only [select_apply, mulf_apply, subf_apply, broadcast_apply, pay4_gen, pay5_gen, pay6_gen, pay7_gen]
  generalize k0_pay2 v49 v50 (ix2 0 q) = x
  generalize k0_pay1 v49 v50 (ix2 a q) = y
  rfl

/-- The squared-length payload over the loaded blocks, in column q, is the squared distance of the pair there. -/
theorem pay2_apply (x0 x1 x2 : Vec Ideal S3x32768 .f32) (x3 : Vec Ideal S3x3 .f32) (u : Fin 1) (q : Fin 32768) :
    k0_pay2 (F := Ideal) (k0_pay10 x2 x3) (k0_pay11 x0 x1) (ix2 u q)
      = LJ.d2 (fun a => x0 (ix2 a q)) (fun a => x1 (ix2 a q)) (fun b => x2 (ix2 b q)) (fun b a => x3 (ix2 b a)) := by
  rw [pay2_gen, pay1_apply, pay1_apply, pay1_apply]
  rfl

/-- What the energy window's buffer holds after the body, at pair q: the pair's energy. -/
theorem out4_apply (x0 x1 x2 : Vec Ideal S3x32768 .f32) (x3 : Vec Ideal S3x3 .f32) (q : Fin 32768) :
    Gen.out0_4 (F := Ideal) x0 x1 x2 x3 (ix1 q)
      = LJ.peK (LJ.d2 (fun a => x0 (ix2 a q)) (fun a => x1 (ix2 a q)) (fun b => x2 (ix2 b q)) (fun b a => x3 (ix2 b a))) := by
  unfold Gen.out0_4
  rw [View.canon_unit_zero hz1]
  simp only [View.ld_unit_zero (S := S3x32768) hz2, View.ld_unit_zero (S := S3x3) hz2]
  rw [pay9_gen, pay2_apply]

/-- What the force window's buffer holds after the body, at component a of pair q: the force factor times the
    displacement's component. -/
theorem out5_apply (x0 x1 x2 : Vec Ideal S3x32768 .f32) (x3 : Vec Ideal S3x3 .f32) (a : Fin 3) (q : Fin 32768) :
    Gen.out0_5 (F := Ideal) x0 x1 x2 x3 (ix2 a q)
      = LJ.gK (LJ.d2 (fun a => x0 (ix2 a q)) (fun a => x1 (ix2 a q)) (fun b => x2 (ix2 b q)) (fun b a => x3 (ix2 b a)))
        * LJ.dr (fun a => x0 (ix2 a q)) (fun a => x1 (ix2 a q)) (fun b => x2 (ix2 b q)) (fun b a => x3 (ix2 b a)) a := by
  unfold Gen.out0_5
  rw [View.canon_unit_zero hz2]
  simp only [View.ld_unit_zero (S := S3x32768) hz2, View.ld_unit_zero (S := S3x3) hz2]
  rw [pay8_gen, pay2_apply, pay1_apply]

end Cert.KernelIdeal.Pay

end
-- ==== Proof.KernelBlocks.lean ====
/-
  What the pair kernel's region leaves in its two output arrays, as whole-array functions.

  Point t of the grid computes, for each pair of its block, the pair energy and the force vector from the pair's
  entries of the planar arrays (the body's payload read at an index); block t of an output array is block t of
  ONE function of the array index (`GE`, `GF`), the blocks tile the arrays, so the arrays end holding them.
-/
import proofs.«401026_j30176440222240_3_alg».proof.Proof.KernelIdx
import proofs.«401026_j30176440222240_3_alg».proof.Proof.KernelPay
import proofs.«401026_j30176440222240_3_alg».proof.Proof.LJ
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-! ## The arrays the region reads, by their literal types -/

/-- r_i of every pair, planar: [3, 16777216] (the first window's array as the region finds it). -/
abbrev riT (c : Dev nD) : S3x16777216.Idx → EReal := V m c (Pipeline.arrRef spec0 0)
/-- r_j of every pair, planar. -/
abbrev rjT (c : Dev nD) : S3x16777216.Idx → EReal := V m c (Pipeline.arrRef spec0 1)
/-- The shifts, planar. -/
abbrev shT (c : Dev nD) : S3x16777216.Idx → EReal := V m c (Pipeline.arrRef spec0 2)
/-- The cell. -/
abbrev cel (c : Dev nD) : S3x3.Idx → EReal := V m c (Pipeline.arrRef spec0 3)

/-- The squared distance of pair p, from the planar arrays. -/
def d2At (c : Dev nD) (p : Fin 16777216) : EReal :=
  LJ.d2 (fun a => riT m c (ix2 a p)) (fun a => rjT m c (ix2 a p)) (fun b => shT m c (ix2 b p)) (fun b a => cel m c (ix2 b a))
/-- Component a of the displacement of pair p, from the planar arrays. -/
def drAt (c : Dev nD) (p : Fin 16777216) (a : Fin 3) : EReal :=
  LJ.dr (fun a => riT m c (ix2 a p)) (fun a => rjT m c (ix2 a p)) (fun b => shT m c (ix2 b p)) (fun b a => cel m c (ix2 b a)) a

/-- The pair energies the region leaves: one whole-array function. -/
def GE (c : Dev nD) : S16777216.Idx → EReal := fun i => LJ.peK (d2At m c (i 0))
/-- The force vectors the region leaves, planar. -/
def GF (c : Dev nD) : S3x16777216.Idx → EReal := fun i => LJ.gK (d2At m c (i 1)) * drAt m c (i 1) (i 0)

theorem GE_apply (c : Dev nD) (p : Fin 16777216) : GE m c (ix1 p) = LJ.peK (d2At m c p) := rfl
theorem GF_apply (c : Dev nD) (a : Fin 3) (p : Fin 16777216) :
    GF m c (ix2 a p) = LJ.gK (d2At m c p) * drAt m c p a := rfl

/-! ## A block read where the array holds it -/

theorem rd0 (A : S3x16777216.Idx → EReal) (t : Fin cfg0.N) (a : Fin 3) (q : Fin 32768) :
    ((cfg0.win 0).blk t).view.read (Elt Ideal) A (ix2 a q) = A (ix2 a (pairOf t q)) := by
  show A (((cfg0.win 0).blk t).view.emb (ix2 a q)) = _
  rw [emb0]
theorem rd1 (A : S3x16777216.Idx → EReal) (t : Fin cfg0.N) (a : Fin 3) (q : Fin 32768) :
    ((cfg0.win 1).blk t).view.read (Elt Ideal) A (ix2 a q) = A (ix2 a (pairOf t q)) := by
  show A (((cfg0.win 1).blk t).view.emb (ix2 a q)) = _
  rw [emb1]
theorem rd2 (A : S3x16777216.Idx → EReal) (t : Fin cfg0.N) (a : Fin 3) (q : Fin 32768) :
    ((cfg0.win 2).blk t).view.read (Elt Ideal) A (ix2 a q) = A (ix2 a (pairOf t q)) := by
  show A (((cfg0.win 2).blk t).view.emb (ix2 a q)) = _
  rw [emb2]
theorem rd3 (A : S3x3.Idx → EReal) (t : Fin cfg0.N) (b a : Fin 3) :
    ((cfg0.win 3).blk t).view.read (Elt Ideal) A (ix2 b a) = A (ix2 b a) := by
  show A (((cfg0.win 3).blk t).view.emb (ix2 b a)) = _
  rw [emb3]

/-! ## The body's results at an entry of a point's block -/

/-- The energies at entry q of point t's block: the pair function of the pair's entries of the planar arrays. -/
theorem out4_at (c : Dev nD) (t : Fin cfg0.N) (q : Fin 32768) :
    Gen.out0_4 (F := Ideal) (((cfg0.win 0).blk t).view.read (Elt Ideal) (riT m c))
        (((cfg0.win 1).blk t).view.read (Elt Ideal) (rjT m c)) (((cfg0.win 2).blk t).view.read (Elt Ideal) (shT m c))
        (((cfg0.win 3).blk t).view.read (Elt Ideal) (cel m c)) (ix1 q)
      = LJ.peK (d2At m c (pairOf t q)) := by
  refine (Cert.KernelIdeal.Pay.out4_apply (((cfg0.win 0).blk t).view.read (Elt Ideal) (riT m c))
        (((cfg0.win 1).blk t).view.read (Elt Ideal) (rjT m c)) (((cfg0.win 2).blk t).view.read (Elt Ideal) (shT m c))
        (((cfg0.win 3).blk t).view.read (Elt Ideal) (cel m c)) q).trans ?_
  have e1 : (fun a : Fin 3 => (((cfg0.win 0).blk t).view.read (Elt Ideal) (riT m c)) (ix2 a q)) = fun a => riT m c (ix2 a (pairOf t q)) :=
    funext fun a => rd0 (riT m c) t a q
  have e2 : (fun a : Fin 3 => (((cfg0.win 1).blk t).view.read (Elt Ideal) (rjT m c)) (ix2 a q)) = fun a => rjT m c (ix2 a (pairOf t q)) :=
    funext fun a => rd1 (rjT m c) t a q
  have e3 : (fun b : Fin 3 => (((cfg0.win 2).blk t).view.read (Elt Ideal) (shT m c)) (ix2 b q)) = fun b => shT m c (ix2 b (pairOf t q)) :=
    funext fun b => rd2 (shT m c) t b q
  have e4 : (fun (b a : Fin 3) => (((cfg0.win 3).blk t).view.read (Elt Ideal) (cel m c)) (ix2 b a)) = fun b a => cel m c (ix2 b a) :=
    funext fun b => funext fun a => rd3 (cel m c) t b a
  unfold d2At
  rw [e1, e2, e3, e4]

/-- The force vectors at entry (a, q) of point t's block. -/
theorem out5_at (c : Dev nD) (t : Fin cfg0.N) (a : Fin 3) (q : Fin 32768) :
    Gen.out0_5 (F := Ideal) (((cfg0.win 0).blk t).view.read (Elt Ideal) (riT m c))
        (((cfg0.win 1).blk t).view.read (Elt Ideal) (rjT m c)) (((cfg0.win 2).blk t).view.read (Elt Ideal) (shT m c))
        (((cfg0.win 3).blk t).view.read (Elt Ideal) (cel m c)) (ix2 a q)
      = LJ.gK (d2At m c (pairOf t q)) * drAt m c (pairOf t q) a := by
  refine (Cert.KernelIdeal.Pay.out5_apply (((cfg0.win 0).blk t).view.read (Elt Ideal) (riT m c))
        (((cfg0.win 1).blk t).view.read (Elt Ideal) (rjT m c)) (((cfg0.win 2).blk t).view.read (Elt Ideal) (shT m c))
        (((cfg0.win 3).blk t).view.read (Elt Ideal) (cel m c)) a q).trans ?_
  have e1 : (fun a : Fin 3 => (((cfg0.win 0).blk t).view.read (Elt Ideal) (riT m c)) (ix2 a q)) = fun a => riT m c (ix2 a (pairOf t q)) :=
    funext fun a => rd0 (riT m c) t a q
  have e2 : (fun a : Fin 3 => (((cfg0.win 1).blk t).view.read (Elt Ideal) (rjT m c)) (ix2 a q)) = fun a => rjT m c (ix2 a (pairOf t q)) :=
    funext fun a => rd1 (rjT m c) t a q
  have e3 : (fun b : Fin 3 => (((cfg0.win 2).blk t).view.read (Elt Ideal) (shT m c)) (ix2 b q)) = fun b => shT m c (ix2 b (pairOf t q)) :=
    funext fun b => rd2 (shT m c) t b q
  have e4 : (fun (b a : Fin 3) => (((cfg0.win 3).blk t).view.read (Elt Ideal) (cel m c)) (ix2 b a)) = fun b a => cel m c (ix2 b a) :=
    funext fun b => funext fun a => rd3 (cel m c) t b a
  unfold d2At drAt
  rw [e1, e2, e3, e4]

/-! ## What a point writes back -/

/-- Every index of point t's energies block is an entry q of it. -/
theorem surj4 (t : Fin cfg0.N) (j : ((cfg0.win 4).xblock (grid0.coords t)).Idx) :
    ∃ q : Fin 32768, j = (ix1 q : S32768.Idx) := ⟨(j : S32768.Idx) 0, @eq_ix1 32768 j⟩

/-- Every index of point t's forces block is an entry (a, q) of it. -/
theorem surj5 (t : Fin cfg0.N) (j : ((cfg0.win 5).xblock (grid0.coords t)).Idx) :
    ∃ (a : Fin 3) (q : Fin 32768), j = (ix2 a q : S3x32768.Idx) :=
  ⟨(j : S3x32768.Idx) 0, (j : S3x32768.Idx) 1, @eq_ix2 3 32768 j⟩

/-- Point t writes back block t of the pair energies. -/
theorem flushed4_eq (c : Dev nD) (t : Fin cfg0.N) :
    (dats m 0 c).flushed 4 t = ((cfg0.win 4).blk t).view.read (Elt Ideal) (GE m c) := by
  show (cfg0.win 4).cut (grid0.coords t) ((dats m 0 c).after 4 t) = _
  rw [after0_4]
  unfold iblk
  have hO := out4_at m c t
  generalize Gen.out0_4 (F := Ideal) _ _ _ _ = O at hO ⊢
  funext j
  rw [View.read_apply, cast_eq]
  obtain ⟨q, rfl⟩ := surj4 t j
  rw [emb4, GE_apply]
  exact hO q

/-- Point t writes back block t of the force vectors. -/
theorem flushed5_eq (c : Dev nD) (t : Fin cfg0.N) :
    (dats m 0 c).flushed 5 t = ((cfg0.win 5).blk t).view.read (Elt Ideal) (GF m c) := by
  show (cfg0.win 5).cut (grid0.coords t) ((dats m 0 c).after 5 t) = _
  rw [after0_5]
  unfold iblk
  have hO := out5_at m c t
  generalize Gen.out0_5 (F := Ideal) _ _ _ _ = O at hO ⊢
  funext j
  rw [View.read_apply, cast_eq]
  obtain ⟨a, q, rfl⟩ := surj5 t j
  rw [emb5, GF_apply]
  exact hO a q

/-! ## The blocks tile the arrays -/

theorem cover4 (i : S16777216.Idx) :
    ∃ t : Fin cfg0.N, (cfg0.win 4).flush t = true ∧ i ∈ ((cfg0.win 4).blk t).view.set := by
  have hi : (i 0).val < 16777216 := (i 0).isLt
  have ht : (i 0).val / 32768 < cfg0.N := lt_of_lt_of_eq (by omega : (i 0).val / 32768 < 512) N_0.symm
  have hq : (i 0).val % 32768 < 32768 := by omega
  refine ⟨⟨(i 0).val / 32768, ht⟩, flush0_4 _, ?_⟩
  have hmem := View.emb_mem_set ((cfg0.win 4).blk ⟨(i 0).val / 32768, ht⟩).view (ix1 (⟨(i 0).val % 32768, hq⟩ : Fin 32768))
  rw [emb4] at hmem
  have e : i = ix1 (pairOf ⟨(i 0).val / 32768, ht⟩ ⟨(i 0).val % 32768, hq⟩) := by
    funext b
    match b with
    | ⟨0, _⟩ => exact Fin.ext (by show (i 0).val = (i 0).val / 32768 * 32768 + (i 0).val % 32768; omega)
  exact (congrArg (fun x => x ∈ ((cfg0.win 4).blk ⟨(i 0).val / 32768, ht⟩).view.set) e).mpr hmem

theorem cover5 (i : S3x16777216.Idx) :
    ∃ t : Fin cfg0.N, (cfg0.win 5).flush t = true ∧ i ∈ ((cfg0.win 5).blk t).view.set := by
  have hi : (i 1).val < 16777216 := (i 1).isLt
  have h0 : (i 0).val < 3 := (i 0).isLt
  have ht : (i 1).val / 32768 < cfg0.N := lt_of_lt_of_eq (by omega : (i 1).val / 32768 < 512) N_0.symm
  have hq : (i 1).val % 32768 < 32768 := by omega
  refine ⟨⟨(i 1).val / 32768, ht⟩, flush0_5 _, ?_⟩
  have hmem := View.emb_mem_set ((cfg0.win 5).blk ⟨(i 1).val / 32768, ht⟩).view
    (ix2 (⟨(i 0).val, h0⟩ : Fin 3) (⟨(i 1).val % 32768, hq⟩ : Fin 32768))
  rw [emb5] at hmem
  have e : i = ix2 (⟨(i 0).val, h0⟩ : Fin 3) (pairOf ⟨(i 1).val / 32768, ht⟩ ⟨(i 1).val % 32768, hq⟩) := by
    funext b
    match b with
    | ⟨0, _⟩ => exact Fin.ext rfl
    | ⟨1, _⟩ => exact Fin.ext (by show (i 1).val = (i 1).val / 32768 * 32768 + (i 1).val % 32768; omega)
  exact (congrArg (fun x => x ∈ ((cfg0.win 5).blk ⟨(i 1).val / 32768, ht⟩).view.set) e).mpr hmem

/-! ## The arrays after the run -/

/-- The energies array ends holding `GE`. -/
theorem final4 (c : Dev nD) : (dats m 0 c).arrAt 4 cfg0.N = GE m c :=
  (dats m 0 c).arrAt_eq_of_cover 4 (GE m c) (fun t _ => flushed4_eq m c t) cover4

/-- The forces array ends holding `GF`. -/
theorem final5 (c : Dev nD) : (dats m 0 c).arrAt 5 cfg0.N = GF m c :=
  (dats m 0 c).arrAt_eq_of_cover 5 (GF m c) (fun t _ => flushed5_eq m c t) cover5

end Cert.KernelIdeal.Blocks

end
-- ==== Proof.LibScatterRowsCols.lean ====
/-
  THE ACCUMULATING ROW SCATTER AND ITS TRANSPOSE, READ AT AN INDEX (ideal instance).

  StableHLO's scatter with an `add` body, one scatter index per update: the operand `x : [N, C]`, the scatter
  indices `idx : [P, 1]` (each read as a SIGNED integer and not clamped), the updates `upd : [P, C]`; update row `p`
  is added to operand row `idx[p, 0]` when that row exists and is dropped when it does not. Over the extended reals
  the result at `(n, a)` is `x[n, a]` plus the sum of `upd[p, a]` over the update rows `p` whose index is `n`.
  The same on the transposed layout: operand `[C, N]`, updates `[C, P]`, columns scattered.

  For each layout: the start of the window and the window coordinate on each operand axis (four small lemmas), the
  condition under which an update element lands at a given operand element, and the sum.
-/
import Idealize.ShloMosaic.PureOps.Ideal
import Idealize.ShloMosaic.Lib.ValueIdx

noncomputable section

open scoped BigOperators

namespace LibScatterRowsCols

open Idealize.ShloMosaic Idealize.ShloMosaic.ValueIdx

/-! ## Rows: operand `[N, C]`, indices `[P, 1]`, updates `[P, C]` -/

/-- The dimension numbers of a scatter of whole rows: operand `[N, C]`, scatter indices `[P, 1]` (the index vector on
    axis 1, one component, naming operand axis 0), updates `[P, C]` whose axis 1 is the window axis (going to operand
    axis 1) and whose axis 0 runs over the scatter indices; operand axis 0 is the inserted (scattered) one. -/
abbrev rowDims (N P C : Nat) (wf : ScatterDims.WF ⟨2, ![N, C]⟩ ⟨2, ![P, 1]⟩ ⟨2, ![P, C]⟩ [1] [0] [0] 1) :
    ScatterDims ⟨2, ![N, C]⟩ ⟨2, ![P, 1]⟩ ⟨2, ![P, C]⟩ where
  updateWindowDims := [1]
  insertedWindowDims := [0]
  scatterDimsToOperandDims := [0]
  indexVectorDim := 1
  wf := wf

/-- Row scatter: on operand axis 0 the window of update element `j = (p, a')` starts at the scatter index `idx[p, 0]`,
    read signed. -/
theorem rows_start0 {N P C w : Nat} (wf) (j : (⟨2, ![P, C]⟩ : Shape).Idx) (idx : IVec ⟨2, ![P, 1]⟩ w) :
    (rowDims N P C wf).start j idx 0 = (idx (ix2 (j 0) (0 : Fin 1))).toInt := by
  unfold ScatterDims.start
  rw [dif_pos (show (0 : Fin 2) ∈ (rowDims N P C wf).scatterDimsToOperandDims from List.mem_singleton.mpr rfl)]
  have hsi : (rowDims N P C wf).siIdx j ⟨List.idxOf (0 : Fin 2) (rowDims N P C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Row scatter: operand axis 1 is not named by the scatter indices, so the window starts at `0` there. -/
theorem rows_start1 {N P C w : Nat} (wf) (j : (⟨2, ![P, C]⟩ : Shape).Idx) (idx : IVec ⟨2, ![P, 1]⟩ w) :
    (rowDims N P C wf).start j idx 1 = 0 := by
  unfold ScatterDims.start
  rw [dif_neg (show (1 : Fin 2) ∉ ([0] : List (Fin 2)) from by decide)]

/-- Row scatter: operand axis 0 is the inserted axis, so the window coordinate is `0` there. -/
theorem rows_window0 {N P C : Nat} (wf) (j : (⟨2, ![P, C]⟩ : Shape).Idx) :
    (rowDims N P C wf).window j 0 = 0 := by
  unfold ScatterDims.window
  have h : (0 : Fin 2) ∉ (rowDims N P C wf).sKept :=
    (show (0 : Fin 2) ∉ (List.finRange 2).filter (· ∉ [(0 : Fin 2)]) from by decide)
  rw [dif_neg h]

/-- Row scatter: on operand axis 1 the window coordinate of update element `j = (p, a')` is its column `a'`. -/
theorem rows_window1 {N P C : Nat} (wf) (j : (⟨2, ![P, C]⟩ : Shape).Idx) :
    (rowDims N P C wf).window j 1 = (j 1).val := by
  unfold ScatterDims.window
  have h : (1 : Fin 2) ∈ (rowDims N P C wf).sKept :=
    (show (1 : Fin 2) ∈ (List.finRange 2).filter (· ∉ [(0 : Fin 2)]) from by decide)
  rw [dif_pos h]
  rfl

/-- Row scatter: update element `(p, a')` lands at operand element `(n, a)` exactly when the scatter index `idx[p, 0]`,
    read signed, is `n` and the columns agree. (An index outside `[0, N)` equals no `n`: the update is dropped.) -/
theorem rows_resultIdx_iff {N P C w : Nat} (wf) (idx : IVec ⟨2, ![P, 1]⟩ w) (p : Fin P) (a' : Fin C)
    (n : Fin N) (a : Fin C) :
    (rowDims N P C wf).resultIdx? (ix2 p a') idx = some (ix2 n a)
      ↔ (idx (ix2 p (0 : Fin 1))).toInt = (n.val : Int) ∧ a' = a := by
  have hs0 := rows_start0 wf (ix2 p a') idx
  have hs1 := rows_start1 wf (ix2 p a') idx
  have hw0 := rows_window0 wf (ix2 p a')
  have hw1 := rows_window1 wf (ix2 p a')
  have hp : (ix2 p a' : (⟨2, ![P, C]⟩ : Shape).Idx) 0 = p := rfl
  have ha' : (ix2 p a' : (⟨2, ![P, C]⟩ : Shape).Idx) 1 = a' := rfl
  rw [hp] at hs0
  rw [ha'] at hw1
  unfold ScatterDims.resultIdx?
  constructor
  · intro h
    split at h
    · rename_i hb
      have h' := Option.some.inj h
      have h0 := congrArg Fin.val (congrFun h' 0)
      have h1 := congrArg Fin.val (congrFun h' 1)
      have hb0 := hb 0
      simp only [hs0, hs1, hw0, hw1] at h0 h1 hb0
      have hn : ((ix2 n a : (⟨2, ![N, C]⟩ : Shape).Idx) 0).val = n.val := rfl
      have ha : ((ix2 n a : (⟨2, ![N, C]⟩ : Shape).Idx) 1).val = a.val := rfl
      rw [hn] at h0
      rw [ha] at h1
      exact ⟨by omega, Fin.ext (by omega)⟩
    · exact absurd h (by simp)
  · rintro ⟨ht, rfl⟩
    have hb : ∀ b, 0 ≤ (rowDims N P C wf).start (ix2 p a') idx b + (rowDims N P C wf).window (ix2 p a') b ∧
        (rowDims N P C wf).start (ix2 p a') idx b + (rowDims N P C wf).window (ix2 p a') b <
          (⟨2, ![N, C]⟩ : Shape).size b := by
      rw [Fin.forall_fin_two]
      refine ⟨?_, ?_⟩
      · rw [hs0, hw0, ht]
        have : (⟨2, ![N, C]⟩ : Shape).size 0 = N := rfl
        rw [this]; have := n.isLt; omega
      · rw [hs1, hw1]
        have : (⟨2, ![N, C]⟩ : Shape).size 1 = C := rfl
        rw [this]; have := a'.isLt; omega
    rw [dif_pos hb]
    congr 1
    funext b
    refine Fin.ext ?_
    match b with
    | ⟨0, _⟩ =>
      show ((rowDims N P C wf).start (ix2 p a') idx 0 + (rowDims N P C wf).window (ix2 p a') 0).toNat = n.val
      rw [hs0, hw0, ht]; omega
    | ⟨1, _⟩ =>
      show ((rowDims N P C wf).start (ix2 p a') idx 1 + (rowDims N P C wf).window (ix2 p a') 1).toNat = a'.val
      rw [hs1, hw1]; omega

/-- THE ROW SCATTER-ADD READ AT `(n, a)`: the operand's element plus the sum of `upd[p, a]` over the update rows `p` whose
    scatter index `idx[p, 0]`, read signed, is `n`. -/
theorem hostScatterAdd_rows_apply {N P C w : Nat} (wf) (x : (⟨2, ![N, C]⟩ : Shape).Idx → EReal) (idx : IVec ⟨2, ![P, 1]⟩ w)
    (upd : (⟨2, ![P, C]⟩ : Shape).Idx → EReal) (n : Fin N) (a : Fin C) :
    Ideal.hostScatterAdd (rowDims N P C wf) x idx upd (ix2 n a)
      = x (ix2 n a) + ∑ p ∈ Finset.univ.filter (fun p : Fin P => (idx (ix2 p (0 : Fin 1))).toInt = (n.val : Int)), upd (ix2 p a) := by
  unfold Ideal.hostScatterAdd
  beta_reduce
  congr 1
  rw [Finset.sum_filter, sum_idx2, Finset.sum_filter]
  refine Finset.sum_congr rfl fun p _ => ?_
  simp only [rows_resultIdx_iff]
  by_cases ht : (idx (ix2 p (0 : Fin 1))).toInt = (n.val : Int)
  · simp only [ht, true_and, if_true]
    rw [Finset.sum_ite_eq' Finset.univ a (fun a' => upd (ix2 p a'))]
    simp
  · simp only [ht, false_and, if_false]
    exact Finset.sum_const_zero

/-! ## Columns: operand `[C, N]`, indices `[P, 1]`, updates `[C, P]` -/

/-- The dimension numbers of the same scatter on the transposed layout: operand `[C, N]`, scatter indices `[P, 1]` (the
    index vector on axis 1, one component, naming operand axis 1), updates `[C, P]` whose axis 0 is the window axis
    (going to operand axis 0) and whose axis 1 runs over the scatter indices; operand axis 1 is the inserted one. -/
abbrev colDims (N P C : Nat) (wf : ScatterDims.WF ⟨2, ![C, N]⟩ ⟨2, ![P, 1]⟩ ⟨2, ![C, P]⟩ [0] [1] [1] 1) :
    ScatterDims ⟨2, ![C, N]⟩ ⟨2, ![P, 1]⟩ ⟨2, ![C, P]⟩ where
  updateWindowDims := [0]
  insertedWindowDims := [1]
  scatterDimsToOperandDims := [1]
  indexVectorDim := 1
  wf := wf

/-- Column scatter: operand axis 0 is not named by the scatter indices, so the window starts at `0` there. -/
theorem cols_start0 {N P C w : Nat} (wf) (j : (⟨2, ![C, P]⟩ : Shape).Idx) (idx : IVec ⟨2, ![P, 1]⟩ w) :
    (colDims N P C wf).start j idx 0 = 0 := by
  unfold ScatterDims.start
  rw [dif_neg (show (0 : Fin 2) ∉ ([1] : List (Fin 2)) from by decide)]

/-- Column scatter: on operand axis 1 the window of update element `j = (a', p)` starts at the scatter index
    `idx[p, 0]`, read signed. -/
theorem cols_start1 {N P C w : Nat} (wf) (j : (⟨2, ![C, P]⟩ : Shape).Idx) (idx : IVec ⟨2, ![P, 1]⟩ w) :
    (colDims N P C wf).start j idx 1 = (idx (ix2 (j 1) (0 : Fin 1))).toInt := by
  unfold ScatterDims.start
  rw [dif_pos (show (1 : Fin 2) ∈ (colDims N P C wf).scatterDimsToOperandDims from List.mem_singleton.mpr rfl)]
  have hsi : (colDims N P C wf).siIdx j ⟨List.idxOf (1 : Fin 2) (colDims N P C wf).scatterDimsToOperandDims,
      List.idxOf_lt_length_iff.2 (List.mem_singleton.mpr rfl)⟩ = ix2 (j 1) (0 : Fin 1) := by
    funext b; refine Fin.ext ?_
    match b with
    | ⟨0, _⟩ => rfl
    | ⟨1, _⟩ => rfl
  rw [hsi]
  rfl

/-- Column scatter: on operand axis 0 the window coordinate of update element `j = (a', p)` is its row `a'`. -/
theorem cols_window0 {N P C : Nat} (wf) (j : (⟨2, ![C, P]⟩ : Shape).Idx) :
    (colDims N P C wf).window j 0 = (j 0).val := by
  unfold ScatterDims.window
  have h : (0 : Fin 2) ∈ (colDims N P C wf).sKept :=
    (show (0 : Fin 2) ∈ (List.finRange 2).filter (· ∉ [(1 : Fin 2)]) from by decide)
  rw [dif_pos h]
  rfl

/-- Column scatter: operand axis 1 is the inserted axis, so the window coordinate is `0` there. -/
theorem cols_window1 {N P C : Nat} (wf) (j : (⟨2, ![C, P]⟩ : Shape).Idx) :
    (colDims N P C wf).window j 1 = 0 := by
  unfold ScatterDims.window
  have h : (1 : Fin 2) ∉ (colDims N P C wf).sKept :=
    (show (1 : Fin 2) ∉ (List.finRange 2).filter (· ∉ [(1 : Fin 2)]) from by decide)
  rw [dif_neg h]

/-- Column scatter: update element `(a', p)` lands at operand element `(a, n)` exactly when the scatter index
    `idx[p, 0]`, read signed, is `n` and the rows agree. -/
theorem cols_resultIdx_iff {N P C w : Nat} (wf) (idx : IVec ⟨2, ![P, 1]⟩ w) (p : Fin P) (a' : Fin C)
    (n : Fin N) (a : Fin C) :
    (colDims N P C wf).resultIdx? (ix2 a' p) idx = some (ix2 a n)
      ↔ (idx (ix2 p (0 : Fin 1))).toInt = (n.val : Int) ∧ a' = a := by
  have hs0 := cols_start0 wf (ix2 a' p) idx
  have hs1 := cols_start1 wf (ix2 a' p) idx
  have hw0 := cols_window0 wf (ix2 a' p)
  have hw1 := cols_window1 wf (ix2 a' p)
  have hp : (ix2 a' p : (⟨2, ![C, P]⟩ : Shape).Idx) 1 = p := rfl
  have ha' : (ix2 a' p : (⟨2, ![C, P]⟩ : Shape).Idx) 0 = a' := rfl
  rw [hp] at hs1
  rw [ha'] at hw0
  unfold ScatterDims.resultIdx?
  constructor
  · intro h
    split at h
    · rename_i hb
      have h' := Option.some.inj h
      have h0 := congrArg Fin.val (congrFun h' 0)
      have h1 := congrArg Fin.val (congrFun h' 1)
      have hb1 := hb 1
      simp only [hs0, hs1, hw0, hw1] at h0 h1 hb1
      have ha : ((ix2 a n : (⟨2, ![C, N]⟩ : Shape).Idx) 0).val = a.val := rfl
      have hn : ((ix2 a n : (⟨2, ![C, N]⟩ : Shape).Idx) 1).val = n.val := rfl
      rw [ha] at h0
      rw [hn] at h1
      exact ⟨by omega, Fin.ext (by omega)⟩
    · exact absurd h (by simp)
  · rintro ⟨ht, rfl⟩
    have hb : ∀ b, 0 ≤ (colDims N P C wf).start (ix2 a' p) idx b + (colDims N P C wf).window (ix2 a' p) b ∧
        (colDims N P C wf).start (ix2 a' p) idx b + (colDims N P C wf).window (ix2 a' p) b <
          (⟨2, ![C, N]⟩ : Shape).size b := by
      rw [Fin.forall_fin_two]
      refine ⟨?_, ?_⟩
      · rw [hs0, hw0]
        have : (⟨2, ![C, N]⟩ : Shape).size 0 = C := rfl
        rw [this]; have := a'.isLt; omega
      · rw [hs1, hw1, ht]
        have : (⟨2, ![C, N]⟩ : Shape).size 1 = N := rfl
        rw [this]; have := n.isLt; omega
    rw [dif_pos hb]
    congr 1
    funext b
    refine Fin.ext ?_
    match b with
    | ⟨0, _⟩ =>
      show ((colDims N P C wf).start (ix2 a' p) idx 0 + (colDims N P C wf).window (ix2 a' p) 0).toNat = a'.val
      rw [hs0, hw0]; omega
    | ⟨1, _⟩ =>
      show ((colDims N P C wf).start (ix2 a' p) idx 1 + (colDims N P C wf).window (ix2 a' p) 1).toNat = n.val
      rw [hs1, hw1, ht]; omega

/-- THE COLUMN SCATTER-ADD READ AT `(a, n)`: the operand's element plus the sum of `updT[a, p]` over the update columns
    `p` whose scatter index `idx[p, 0]`, read signed, is `n`. -/
theorem hostScatterAdd_cols_apply {N P C w : Nat} (wf) (xT : (⟨2, ![C, N]⟩ : Shape).Idx → EReal) (idx : IVec ⟨2, ![P, 1]⟩ w)
    (updT : (⟨2, ![C, P]⟩ : Shape).Idx → EReal) (n : Fin N) (a : Fin C) :
    Ideal.hostScatterAdd (colDims N P C wf) xT idx updT (ix2 a n)
      = xT (ix2 a n) + ∑ p ∈ Finset.univ.filter (fun p : Fin P => (idx (ix2 p (0 : Fin 1))).toInt = (n.val : Int)), updT (ix2 a p) := by
  unfold Ideal.hostScatterAdd
  beta_reduce
  congr 1
  rw [Finset.sum_filter, sum_idx2, Finset.sum_comm, Finset.sum_filter]
  refine Finset.sum_congr rfl fun p _ => ?_
  simp only [cols_resultIdx_iff]
  by_cases ht : (idx (ix2 p (0 : Fin 1))).toInt = (n.val : Int)
  · simp only [ht, true_and, if_true]
    rw [Finset.sum_ite_eq' Finset.univ a (fun a' => updT (ix2 a' p))]
    simp
  · simp only [ht, false_and, if_false]
    exact Finset.sum_const_zero

end LibScatterRowsCols

end
-- ==== Proof.KernelTail.lean ====
/-
  THE HOST OPERATIONS AFTER THE REGION, READ ON THE REGION'S TWO OUTPUT ARRAYS.

  After its one region the program holds the pair energies E : [16777216] and the pair forces F : [3, 16777216], and
  from them and the two rows i, j of the pair list it returns
      energy = 0.5 · Σ_p E[p],
      forces = transpose( zeros[3, 262144] .at[:, i].add(−F) .at[:, j].add(F) ),
  each scatter index wrapped first as a negative index into an axis of 262144 is (idx < 0 ? idx + 262144 : idx) and
  placed on a trailing unit axis. Over the extended reals an accumulating scatter is an exact sum, so the force on
  atom n along coordinate a is
      (0 + Σ_{p : wrap(i[p]) = n} −F[a, p]) + Σ_{p : wrap(j[p]) = n} F[a, p].
  Here: the wrapped index array at (p, 0), the zeros array and one column scatter at (a, n), the assembled forces at
  (n, a) over arrays of literal types, and then the two results of the tail on the arrays the region leaves.
-/
import proofs.«401026_j30176440222240_3_alg».proof.Proof.Gen.KernelIdeal.Frame
import proofs.«401026_j30176440222240_3_alg».proof.Proof.LJ
import proofs.«401026_j30176440222240_3_alg».proof.Proof.LibScatterRowsCols
import Idealize.ShloMosaic.Lib.StableHlo.Run
import Idealize.ShloMosaic.Lib.Pipeline.Value
import Idealize.ShloMosaic.Lib.ValueIdx

noncomputable section

open scoped BigOperators

namespace Cert.KernelIdeal.Tail

open Cert.KernelIdeal Cert.KernelIdeal.Gen Idealize.ShloMosaic Idealize.ShloMosaic.TcCoe Idealize.SL.Sem Idealize.ShloMosaic.StableHlo Idealize.ShloMosaic.ValueIdx

variable (m : (ℓ : Loc nD τ sig) → Buf (Elt Ideal) ℓ)

/-- the energies and forces arrays the region leaves, by their literal types -/
abbrev outE (c : Dev nD) : S16777216.Idx → EReal := (dats m 0 c).arrAt 4 cfg0.N
abbrev outF (c : Dev nD) : S3x16777216.Idx → EReal := (dats m 0 c).arrAt 5 cfg0.N

/-! ### The scatter's pieces over arrays of literal types -/

/-- The wrapped index array of a row of the pair list: each entry wrapped as a negative index is, then placed on a
    trailing unit axis. -/
def wrapIdx (r : IVec S16777216 32) : IVec S16777216x1 32 :=
  broadcastInDim S16777216x1 ![0] bcast_S16777216_S16777216x1_0
    (select (cmpi .slt r (broadcastInDim S16777216 ![] bcast_S_S16777216 (constantI S_ 32 0#32)))
      (addi r (broadcastInDim S16777216 ![] bcast_S_S16777216 (constantI S_ 32 262144#32))) r)

/-- Entry (p, 0) of the wrapped index array is the wrapped entry p of the row. -/
theorem wrapIdx_apply (r : IVec S16777216 32) (p : Fin 16777216) :
    wrapIdx r (ix2 p (0 : Fin 1)) = LJ.wrap (r (ix1 p)) := by
  unfold wrapIdx
  refine (broadcastInDim_apply ![0] bcast_S16777216_S16777216x1_0 _ (ix2 p (0 : Fin 1)) (ix1 p) ?_).trans ?_
  · intro a
    have ha : a = 0 := Subsingleton.elim _ _
    subst ha
    rw [if_neg (by decide)]
    rfl
  · have h0 : broadcastInDim S16777216 ![] bcast_S_S16777216 (constantI S_ 32 0#32) (ix1 p) = 0#32 :=
      broadcastInDim_apply ![] bcast_S_S16777216 (constantI S_ 32 0#32) (ix1 p) (fun a => a.elim0) (fun a => a.elim0)
    have h1 : broadcastInDim S16777216 ![] bcast_S_S16777216 (constantI S_ 32 262144#32) (ix1 p) = 262144#32 :=
      broadcastInDim_apply ![] bcast_S_S16777216 (constantI S_ 32 262144#32) (ix1 p) (fun a => a.elim0) (fun a => a.elim0)
    show Scalar.select (IntOp.cmpi .slt (r (ix1 p)) (broadcastInDim S16777216 ![] bcast_S_S16777216 (constantI S_ 32 0#32) (ix1 p)))
        (IntOp.addi (r (ix1 p)) (broadcastInDim S16777216 ![] bcast_S_S16777216 (constantI S_ 32 262144#32) (ix1 p))) (r (ix1 p)) = _
    rw [h0, h1]
    rfl

/-- The zeros array the scatters start from. -/
def zeros : FVec Ideal S3x262144 .f32 :=
  broadcastInDim S3x262144 ![] bcast_S_S3x262144 (constant (F := Ideal) S_ .f32 0x00000000#32)

theorem zeros_apply (a : Fin 3) (n : Fin 262144) : zeros (ix2 a n) = LJ.w0 :=
  broadcastInDim_apply ![] bcast_S_S3x262144 (constant (F := Ideal) S_ .f32 0x00000000#32) (ix2 a n) (fun b => b.elim0) (fun b => b.elim0)

/-- One accumulating column scatter of the program read at (a, n). -/
theorem scatter_apply (x : FVec Ideal S3x262144 .f32) (idx : IVec S16777216x1 32) (u : FVec Ideal S3x16777216 .f32)
    (n : Fin 262144) (a : Fin 3) :
    Host.scatterAdd (F := Ideal) scatter_S3x262144_S16777216x1_S3x16777216_0_1_1_1 x idx u (ix2 a n)
      = x (ix2 a n) + ∑ p ∈ Finset.univ.filter (fun p : Fin 16777216 => (idx (ix2 p (0 : Fin 1))).toInt = (n.val : Int)), u (ix2 a p) :=
  LibScatterRowsCols.hostScatterAdd_cols_apply scatter_S3x262144_S16777216x1_S3x16777216_0_1_1_1_wf x idx u n a

/-- The forces the tail assembles from the region's force array F and the two rows of the pair list: the zeros array,
    minus F scattered to the columns i names, plus F scattered to the columns j names, transposed. -/
def forcesOf (F : FVec Ideal S3x16777216 .f32) (ri rj : IVec S16777216 32) : FVec Ideal S262144x3 .f32 :=
  transpose S262144x3 [1, 0]
    (Host.scatterAdd (F := Ideal) scatter_S3x262144_S16777216x1_S3x16777216_0_1_1_1
      (Host.scatterAdd (F := Ideal) scatter_S3x262144_S16777216x1_S3x16777216_0_1_1_1 zeros (wrapIdx ri) (Host.negf (F := Ideal) F))
      (wrapIdx rj) F)
    transposes_S3x262144_S262144x3_1_0

/-- The assembled forces at atom n, coordinate a: zero, minus the sum of F[a, p] over the pairs whose first atom is n,
    plus the sum over the pairs whose second atom is n. -/
theorem forcesOf_apply (F : FVec Ideal S3x16777216 .f32) (ri rj : IVec S16777216 32) (n : Fin 262144) (a : Fin 3) :
    forcesOf F ri rj (ix2 n a)
      = (LJ.w0 + ∑ p ∈ Finset.univ.filter (fun p : Fin 16777216 => (LJ.wrap (ri (ix1 p))).toInt = (n.val : Int)), -(F (ix2 a p)))
        + ∑ p ∈ Finset.univ.filter (fun p : Fin 16777216 => (LJ.wrap (rj (ix1 p))).toInt = (n.val : Int)), F (ix2 a p) := by
  unfold forcesOf
  refine (transpose_apply [1, 0] _ transposes_S3x262144_S262144x3_1_0 (ix2 n a) (ix2 a n) ?_).trans ?_
  · intro b
    match b with
    | ⟨0, _⟩ => rfl
    | ⟨1, _⟩ => rfl
  · refine (scatter_apply _ _ _ n a).trans ?_
    refine congr (congrArg HAdd.hAdd ?_) ?_
    · refine (scatter_apply _ _ _ n a).trans ?_
      refine congr (congrArg HAdd.hAdd (zeros_apply a n)) ?_
      simp only [wrapIdx_apply]
      rfl
    · simp only [wrapIdx_apply]

set_option maxHeartbeats 2000000 in
/-- The tail's forces over ANY contents of the buffers it reads. -/
theorem after_forces (W : Valuation τ sig (Elt Ideal)) :
    (StableHlo.after (hostOps1 (F := Ideal)) W (Proc.devRef .tc main_v27) : S262144x3.Idx → EReal)
      = forcesOf (W (Proc.devRef .tc main_v8_1)) (W (Proc.devRef .tc main_v1)) (W (Proc.devRef .tc main_v3)) := by
  after_results_simp
  rfl

/-! ### The tail on the region's arrays -/

/-- The energies buffer when the tail starts is the region's energies array. -/
theorem arrE (c : Dev nD) :
    Pipeline.withArrays spec0 c (V0 m c) (fun w => (dats m 0 c).arrAt w cfg0.N) (Proc.devRef .tc main_v8_0) = outE m c :=
  Pipeline.withArrays_arr spec0 launch0.win.arr_inj c _ _ 4

/-- The forces buffer when the tail starts is the region's forces array. -/
theorem arrF (c : Dev nD) :
    Pipeline.withArrays spec0 c (V0 m c) (fun w => (dats m 0 c).arrAt w cfg0.N) (Proc.devRef .tc main_v8_1) = outF m c :=
  Pipeline.withArrays_arr spec0 launch0.win.arr_inj c _ _ 5

/-- Row i of the pair list is no window's array: the tail reads it as the region found it. -/
theorem arrI (c : Dev nD) :
    Pipeline.withArrays spec0 c (V0 m c) (fun w => (dats m 0 c).arrAt w cfg0.N) (Proc.devRef .tc main_v1) = V m c main_v1 :=
  Pipeline.withArrays_of_ne _ c (V0 m c) _ main_v1 (by exact (by decide : ∀ w, Pipeline.arrRef spec0 w ≠ main_v1))

/-- Row j of the pair list is no window's array: the tail reads it as the region found it. -/
theorem arrJ (c : Dev nD) :
    Pipeline.withArrays spec0 c (V0 m c) (fun w => (dats m 0 c).arrAt w cfg0.N) (Proc.devRef .tc main_v3) = V m c main_v3 :=
  Pipeline.withArrays_of_ne _ c (V0 m c) _ main_v3 (by exact (by decide : ∀ w, Pipeline.arrRef spec0 w ≠ main_v3))

set_option maxHeartbeats 2000000 in
/-- The energy the program returns: half the sum of the region's pair energies. -/
theorem tail_energy (c : Dev nD) :
    (Pipeline.afterTail₀ cfgs (dats m) 0 (V0 m) [hostOps1] c main_v10 : S_.Idx → EReal)
      = mulf (constant (F := Ideal) S_ .f32 0x3F000000#32) (Host.reduceAdd (F := Ideal) (outE m c) (constant (F := Ideal) S_ .f32 0x00000000#32) reducesTo_S16777216_S_d0 h_S_) := by
  unfold Pipeline.afterTail₀
  show StableHlo.after hostOps1 _ (Proc.devRef .tc main_v10) = _
  after_results
  exact congrArg (fun x => mulf (constant (F := Ideal) S_ .f32 0x3F000000#32) (Host.reduceAdd (F := Ideal) x (constant (F := Ideal) S_ .f32 0x00000000#32) reducesTo_S16777216_S_d0 h_S_)) (arrE m c)

/-- The forces the program returns, as an array. -/
theorem tail_forces_arr (c : Dev nD) :
    (Pipeline.afterTail₀ cfgs (dats m) 0 (V0 m) [hostOps1] c main_v27 : S262144x3.Idx → EReal)
      = forcesOf (outF m c) (V m c main_v1) (V m c main_v3) := by
  unfold Pipeline.afterTail₀
  refine (after_forces _).trans ?_
  exact congr (congr (congrArg forcesOf (arrF m c)) (arrI m c)) (arrJ m c)

/-- The forces the program returns at atom n, coordinate a. -/
theorem tail_forces_apply (c : Dev nD) (n : Fin 262144) (a : Fin 3) :
    (Pipeline.afterTail₀ cfgs (dats m) 0 (V0 m) [hostOps1] c main_v27 : S262144x3.Idx → EReal) (ix2 n a)
      = (LJ.w0 + ∑ p ∈ Finset.univ.filter (fun p : Fin 16777216 => (LJ.wrap ((V m c main_v1 : S16777216.Idx → BitVec 32) (ix1 p))).toInt = (n.val : Int)), -(outF m c (ix2 a p)))
        + ∑ p ∈ Finset.univ.filter (fun p : Fin 16777216 => (LJ.wrap ((V m c main_v3 : S16777216.Idx → BitVec 32) (ix1 p))).toInt = (n.val : Int)), outF m c (ix2 a p) :=
  (congrFun (tail_forces_arr m c) (ix2 n a)).trans (forcesOf_apply (outF m c) (V m c main_v1) (V m c main_v3) n a)

end Cert.KernelIdeal.Tail

end
-- ==== Proof.LibGatherRowsCols.lean ====
/-
  STABLEHLO'S GATHER OF WHOLE ROWS (AND, ON THE TRANSPOSED LAYOUT, WHOLE COLUMNS) OF A MATRIX, READ AT AN INDEX.

  What x[idx] of a matrix x : [N, C] at one start index per result row, idx : [P, 1], lowers to: a gather with
  offset_dims [1], collapsed_slice_dims [0], start_index_map [0], index_vector_dim 1 and slice_sizes [1, C]. Result
  element (p, a) is x at row idx[p, 0], read as a signed integer and clamped into [0, N − 1], and column a.  The same
  on the transposed layout xT : [C, N]: offset_dims [0], collapsed_slice_dims [1], start_index_map [1],
  slice_sizes [C, 1]; result element (a, p) is xT at row a and column clamp(idx[p, 0]).

  In both cases the operand index of the gather is, per operand axis, start + batching coordinate + offset coordinate:
  on the gathered axis the start is the clamped start index (the clamp bound is size − slice size = N − 1), there is no
  batching axis, and the offset coordinate vanishes because the axis is collapsed; on the other axis the start is 0
  (the start index map does not name it), and the offset coordinate is the result's coordinate on its one offset axis.
-/
import Idealize.ShloMosaic.PureOps.ShapeOps
import Idealize.ShloMosaic.Lib.ValueIdx

noncomputable section

namespace LibGatherRowsCols

open Idealize.ShloMosaic Idealize.ShloMosaic.ValueIdx

/-! ## Rows of x : [N, C] at idx : [P, 1] -/

/-- The dimension numbers of the row gather x[idx] for an operand [N, C], start indices [P, 1] and result [P, C]:
    result axis 1 is the offset axis, operand axis 0 is collapsed and is the one the start index addresses, the start
    indices' axis 1 (of extent 1) holds the index vector, and a slice is one whole row. Their conditions wf are
    decided on a program's literal shapes. -/
abbrev rowGather (N P C : Nat) (wf : GatherDims.WF ⟨2, ![N, C]⟩ ⟨2, ![P, 1]⟩ ⟨2, ![P, C]⟩ [1] [0] [] [0] [] 1 ![1, C]) :
    GatherDims ⟨2, ![N, C]⟩ ⟨2, ![P, 1]⟩ ⟨2, ![P, C]⟩ where
  offsetDims := [1]
  collapsedSliceDims := [0]
  operandBatchingDims := []
  startIndicesBatchingDims := []
  startIndexMap := [0]
  indexVectorDim := 1
  sliceSizes := ![1, C]
  wf := wf

/-- The start-indices index the row gather reads for result index (p, a) is (p, 0): the result's batch coordinate
    p on the start indices' batch axis and component 0 on the index vector's axis. -/
theorem rowGather_siIdx {N P C : Nat}
    (wf : GatherDims.WF ⟨2, ![N, C]⟩ ⟨2, ![P, 1]⟩ ⟨2, ![P, C]⟩ [1] [0] [] [0] [] 1 ![1, C])
    (p : Fin P) (a : Fin C) (c : Fin (rowGather N P C wf).startIndexMap.length) :
    (rowGather N P C wf).siIdx (ix2 p a) c = ix2 p (0 : Fin 1) := by
  funext b; refine Fin.ext ?_
  match b with
  | ⟨0, _⟩ => rfl
  | ⟨1, _⟩ =>
    have hc : c.val < 1 := c.isLt
    show c.val = 0
    omega

/-- On the gathered axis 0 the row gather's operand coordinate for result index (p, a) is the start index idx[p, 0]
    read signed and clamped into [0, N − 1]: no batching coordinate, and no offset coordinate on a collapsed axis. -/
theorem rowGather_operandIdx_zero {N P C w : Nat}
    (wf : GatherDims.WF ⟨2, ![N, C]⟩ ⟨2, ![P, 1]⟩ ⟨2, ![P, C]⟩ [1] [0] [] [0] [] 1 ![1, C])
    (idx : IVec ⟨2, ![P, 1]⟩ w) (p : Fin P) (a : Fin C) :
    ((rowGather N P C wf).operandIdx (ix2 p a) idx 0).val = min (idx (ix2 p (0 : Fin 1))).toInt.toNat (N - 1) := by
  show (rowGather N P C wf).start (ix2 p a) idx 0 + (rowGather N P C wf).batchCoord (ix2 p a) 0
    + (rowGather N P C wf).offCoord (ix2 p a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N P C wf).startIndexMap from List.mem_singleton.mpr rfl)]
  rw [rowGather_siIdx wf p a]
  rfl

/-- On the offset axis 1 the row gather's operand coordinate for result index (p, a) is a: the start is 0 (the
    start index map does not name the axis), there is no batching coordinate, and the offset coordinate is the
    result's coordinate on its offset axis. -/
theorem rowGather_operandIdx_one {N P C w : Nat}
    (wf : GatherDims.WF ⟨2, ![N, C]⟩ ⟨2, ![P, 1]⟩ ⟨2, ![P, C]⟩ [1] [0] [] [0] [] 1 ![1, C])
    (idx : IVec ⟨2, ![P, 1]⟩ w) (p : Fin P) (a : Fin C) :
    ((rowGather N P C wf).operandIdx (ix2 p a) idx 1).val = a.val := by
  show (rowGather N P C wf).start (ix2 p a) idx 1 + (rowGather N P C wf).batchCoord (ix2 p a) 1
    + (rowGather N P C wf).offCoord (ix2 p a) 1 = _
  rw [GatherDims.batchCoord_eq_zero _ _ _ List.not_mem_nil]
  have hs : (rowGather N P C wf).start (ix2 p a) idx 1 = 0 := by
    unfold GatherDims.start
    exact dif_neg (show (1 : Fin 2) ∉ ([0] : List (Fin 2)) by decide)
  rw [hs]
  simp only [Nat.add_zero, Nat.zero_add]
  unfold GatherDims.offCoord
  rw [dif_pos ((GatherDims.mem_sKept _ _).mpr
    ⟨show (1 : Fin 2) ∉ ([0] : List (Fin 2)) by decide, List.not_mem_nil⟩)]
  rfl

/-- THE ROW GATHER READ AT (p, a): the operand at row idx[p, 0], read signed and clamped into [0, N − 1], and
    column a. -/
theorem gather_rows_apply {α : Type} {N P C w : Nat} (hN : 0 < N)
    (wf : GatherDims.WF ⟨2, ![N, C]⟩ ⟨2, ![P, 1]⟩ ⟨2, ![P, C]⟩ [1] [0] [] [0] [] 1 ![1, C])
    (x : (⟨2, ![N, C]⟩ : Shape).Idx → α) (idx : IVec ⟨2, ![P, 1]⟩ w) (p : Fin P) (a : Fin C) :
    Host.gather (rowGather N P C wf) x idx (ix2 p a)
      = x (ix2 (⟨min (idx (ix2 p (0 : Fin 1))).toInt.toNat (N - 1), by omega⟩ : Fin N) a) := by
  unfold Host.gather
  congr 1
  funext b
  refine Fin.ext ?_
  match b with
  | ⟨0, _⟩ => exact rowGather_operandIdx_zero wf idx p a
  | ⟨1, _⟩ => exact rowGather_operandIdx_one wf idx p a

/-! ## Columns of xT : [C, N] at idx : [P, 1] -/

/-- The dimension numbers of the column gather xT[:, idx] for an operand [C, N], start indices [P, 1] and result
    [C, P]: result axis 0 is the offset axis, operand axis 1 is collapsed and is the one the start index addresses,
    the start indices' axis 1 (of extent 1) holds the index vector, and a slice is one whole column. Their conditions
    wf are decided on a program's literal shapes. -/
abbrev colGather (N P C : Nat) (wf : GatherDims.WF ⟨2, ![C, N]⟩ ⟨2, ![P, 1]⟩ ⟨2, ![C, P]⟩ [0] [1] [] [1] [] 1 ![C, 1]) :
    GatherDims ⟨2, ![C, N]⟩ ⟨2, ![P, 1]⟩ ⟨2, ![C, P]⟩ where
  offsetDims := [0]
  collapsedSliceDims := [1]
  operandBatchingDims := []
  startIndicesBatchingDims := []
  startIndexMap := [1]
  indexVectorDim := 1
  sliceSizes := ![C, 1]
  wf := wf

/-- The start-indices index the column gather reads for result index (a, p) is (p, 0): the result's batch
    coordinate p (its axis 1, the one that is not an offset axis) on the start indices' batch axis and component 0
    on the index vector's axis. -/
theorem colGather_siIdx {N P C : Nat}
    (wf : GatherDims.WF ⟨2, ![C, N]⟩ ⟨2, ![P, 1]⟩ ⟨2, ![C, P]⟩ [0] [1] [] [1] [] 1 ![C, 1])
    (p : Fin P) (a : Fin C) (c : Fin (colGather N P C wf).startIndexMap.length) :
    (colGather N P C wf).siIdx (ix2 a p) c = ix2 p (0 : Fin 1) := by
  funext b; refine Fin.ext ?_
  match b with
  | ⟨0, _⟩ => rfl
  | ⟨1, _⟩ =>
    have hc : c.val < 1 := c.isLt
    show c.val = 0
    omega

/-- On the offset axis 0 the column gather's operand coordinate for result index (a, p) is a: the start is 0 (the
    start index map does not name the axis), there is no batching coordinate, and the offset coordinate is the
    result's coordinate on its offset axis. -/
theorem colGather_operandIdx_zero {N P C w : Nat}
    (wf : GatherDims.WF ⟨2, ![C, N]⟩ ⟨2, ![P, 1]⟩ ⟨2, ![C, P]⟩ [0] [1] [] [1] [] 1 ![C, 1])
    (idx : IVec ⟨2, ![P, 1]⟩ w) (p : Fin P) (a : Fin C) :
    ((colGather N P C wf).operandIdx (ix2 a p) idx 0).val = a.val := by
  show (colGather N P C wf).start (ix2 a p) idx 0 + (colGather N P C wf).batchCoord (ix2 a p) 0
    + (colGather N P C wf).offCoord (ix2 a p) 0 = _
  rw [GatherDims.batchCoord_eq_zero _ _ _ List.not_mem_nil]
  have hs : (colGather N P C wf).start (ix2 a p) idx 0 = 0 := by
    unfold GatherDims.start
    exact dif_neg (show (0 : Fin 2) ∉ ([1] : List (Fin 2)) by decide)
  rw [hs]
  simp only [Nat.add_zero, Nat.zero_add]
  unfold GatherDims.offCoord
  rw [dif_pos ((GatherDims.mem_sKept _ _).mpr
    ⟨show (0 : Fin 2) ∉ ([1] : List (Fin 2)) by decide, List.not_mem_nil⟩)]
  rfl

/-- On the gathered axis 1 the column gather's operand coordinate for result index (a, p) is the start index
    idx[p, 0] read signed and clamped into [0, N − 1]: no batching coordinate, and no offset coordinate on a
    collapsed axis. -/
theorem colGather_operandIdx_one {N P C w : Nat}
    (wf : GatherDims.WF ⟨2, ![C, N]⟩ ⟨2, ![P, 1]⟩ ⟨2, ![C, P]⟩ [0] [1] [] [1] [] 1 ![C, 1])
    (idx : IVec ⟨2, ![P, 1]⟩ w) (p : Fin P) (a : Fin C) :
    ((colGather N P C wf).operandIdx (ix2 a p) idx 1).val = min (idx (ix2 p (0 : Fin 1))).toInt.toNat (N - 1) := by
  show (colGather N P C wf).start (ix2 a p) idx 1 + (colGather N P C wf).batchCoord (ix2 a p) 1
    + (colGather N P C wf).offCoord (ix2 a p) 1 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (1 : Fin 2) ∈ (colGather N P C wf).startIndexMap from List.mem_singleton.mpr rfl)]
  rw [colGather_siIdx wf p a]
  rfl

/-- THE COLUMN GATHER READ AT (a, p): the operand at row a and column idx[p, 0], read signed and clamped into
    [0, N − 1]. -/
theorem gather_cols_apply {α : Type} {N P C w : Nat} (hN : 0 < N)
    (wf : GatherDims.WF ⟨2, ![C, N]⟩ ⟨2, ![P, 1]⟩ ⟨2, ![C, P]⟩ [0] [1] [] [1] [] 1 ![C, 1])
    (xT : (⟨2, ![C, N]⟩ : Shape).Idx → α) (idx : IVec ⟨2, ![P, 1]⟩ w) (p : Fin P) (a : Fin C) :
    Host.gather (colGather N P C wf) xT idx (ix2 a p)
      = xT (ix2 a (⟨min (idx (ix2 p (0 : Fin 1))).toInt.toNat (N - 1), by omega⟩ : Fin N)) := by
  unfold Host.gather
  congr 1
  funext b
  refine Fin.ext ?_
  match b with
  | ⟨0, _⟩ => exact colGather_operandIdx_zero wf idx p a
  | ⟨1, _⟩ => exact colGather_operandIdx_one wf idx p a

end LibGatherRowsCols

end
-- ==== Proof.KernelHost.lean ====
/-
  THE ARRAYS THE REGION READS, AS FUNCTIONS OF THE ARGUMENTS.

  Before its one region the program prepares, on the host, the three arrays of per-pair data the region's windows
  read.  The pair list map : [2, P] (P = 16777216) is cut into its two rows i and j, each flattened to [P]; the
  positions pos : [N, 3] (N = 262144) are transposed to [3, N]; each row of indices is then used to take columns of
  the transposed positions, and the shifts [P, 3] are transposed to [3, P].

  One take is: wrap the index as a negative index wraps (idx < 0 ↦ idx + N), write it as a column [P, 1], test
  0 ≤ idx ≤ N − 1 (the two comparisons joined by "and", then reduced by "and" over the column's one component),
  gather the columns of the transposed positions at the start index read signed and clamped into [0, N − 1], and keep
  the gathered value where the test holds, else a NaN word.

  Read at one index (a, p), for indices that lie in [0, N): the wrap leaves the index alone, the test holds (every
  element of the tested array is 1, so the fold by "and" from 1 is 1), so the take is the gathered value, which is the
  transposed positions at (a, clamp idx), i.e. pos at (clamp idx, a): coordinate a of atom i[p]'s position
  (take_pair).  The transposed shifts at (b, p) are the shifts at (p, b), and row r of the pair list at p is
  map (r, p).

  The second half identifies each buffer's contents at the region's entry with those functions of the arguments.  The
  host lines are four stretches run in a row (the cuts and the transpose; the first take; the second take; the shifts'
  transpose); a stretch leaves alone every buffer it does not write, so each buffer is read off the one stretch that
  writes it, at the contents the earlier stretches left.  Within a take the operations are read a few at a time, each
  group from the contents the group before left, so that every intermediate array is named once.
-/
import proofs.«401026_j30176440222240_3_alg».proof.Proof.Gen.KernelIdeal.Frame
import proofs.«401026_j30176440222240_3_alg».proof.Proof.LJ
import proofs.«401026_j30176440222240_3_alg».proof.Proof.LibGatherRowsCols
import Idealize.ShloMosaic.Lib.StableHlo.Run
import Idealize.ShloMosaic.Lib.Pipeline.Value
import Idealize.ShloMosaic.Lib.ValueIdx
import Idealize.ShloMosaic.Lib.ValueLayout
import Idealize.ShloMosaic.Lib.Affine
import Idealize.ShloMosaic.PureOps.Reduce

noncomputable section

namespace Cert.KernelIdeal.Host

open Cert.KernelIdeal Cert.KernelIdeal.Gen Idealize.ShloMosaic Idealize.ShloMosaic.TcCoe Idealize.SL.Sem
  Idealize.ShloMosaic.StableHlo Idealize.ShloMosaic.ValueIdx

/-! ## The host operations as functions of plain arrays -/

/-- Row r of the pair list [2, P], sliced out as [1, P] and flattened to [P]. -/
def rowOf (off : Fin 2 → Nat) (h : S2x16777216.Slices off S1x16777216) (map : IVec S2x16777216 32) : IVec S16777216 32 :=
  shapeCast S16777216 (extractStridedSlice S1x16777216 off map h) shapeCasts_S1x16777216_S16777216

/-- The wrap of a possibly negative index into an axis of 262144 (idx < 0 ↦ idx + 262144), then the index as a column [P, 1]. -/
def wrapIdx (row : IVec S16777216 32) : IVec S16777216x1 32 :=
  broadcastInDim S16777216x1 ![0] bcast_S16777216_S16777216x1_0
    (select (cmpi .slt row (broadcastInDim S16777216 ![] bcast_S_S16777216 (constantI S_ 32 0#32)))
      (addi row (broadcastInDim S16777216 ![] bcast_S_S16777216 (constantI S_ 32 262144#32))) row)

/-- The test 0 ≤ idx ≤ 262143, reduced by "and" over the index vector's one component. -/
def inRange (idx : IVec S16777216x1 32) : IVec S16777216 1 :=
  Host.reduce IntOp.andi
    (andi (cmpi .sge idx (broadcastInDim S16777216x1 ![] bcast_S_S16777216x1 (constantI S_ 32 0#32)))
      (cmpi .sle idx (broadcastInDim S16777216x1 ![0, 1] bcast_S1x1_S16777216x1_0_1
        (broadcastInDim S1x1 ![1] bcast_S1_S1x1_1 (constantI S1 32 262143#32)))))
    (constantI S_ 1 1#1) reducesTo_S16777216x1_S16777216_d1 h_S_

/-- The take of columns of xT : [3, N] at idx, with the out-of-range fill: the gathered column where the test holds, else NaN. -/
def takeT (xT : FVec Ideal S3x262144 .f32) (idx : IVec S16777216x1 32) : FVec Ideal S3x16777216 .f32 :=
  select (broadcastInDim S3x16777216 ![1] bcast_S16777216_S3x16777216_1 (inRange idx))
    (Host.gather gather_S3x262144_S16777216x1_S3x16777216_0_1_n_n_1_1_31 xT idx)
    (broadcastInDim S3x16777216 ![] bcast_S_S3x16777216 (constant (F := Ideal) S_ .f32 0x7FC00000#32))

/-! ## Read at an index -/

/-- Row r of the pair list at p is map (r, p): the flattening reads (0, p) of the slice, the slice reads (r, p). -/
theorem rowOf_apply (off : Fin 2 → Nat) (h : S2x16777216.Slices off S1x16777216) (map : IVec S2x16777216 32)
    (r : Fin 2) (h0 : off 0 = r.val) (h1 : off 1 = 0) (p : Fin 16777216) :
    rowOf off h map (ix1 p) = map (ix2 r p) := by
  unfold rowOf
  refine (shapeCast_1a_a_apply _ shapeCasts_S1x16777216_S16777216 p).trans ?_
  refine extractStridedSlice_apply _ map h _ (ix2 r p) fun a => ?_
  match a with
  | ⟨0, _⟩ => show r.val = off 0 + 0; omega
  | ⟨1, _⟩ => show p.val = off 1 + p.val; omega

/-- The column of wrapped indices at (p, 0) is the wrap of the row's element p. -/
theorem wrapIdx_apply (row : IVec S16777216 32) (p : Fin 16777216) :
    wrapIdx row (ix2 p (0 : Fin 1)) = LJ.wrap (row (ix1 p)) := by
  unfold wrapIdx
  refine (broadcastInDim_apply _ bcast_S16777216_S16777216x1_0 _ _ (ix1 p) fun a => ?_).trans ?_
  · match a with
    | ⟨0, _⟩ => rfl
  · rfl

/-- An index that is not negative is left alone by the wrap. -/
theorem wrap_of_nonneg (w : BitVec 32) (hw : 0 ≤ w.toInt) : LJ.wrap w = w := by
  unfold LJ.wrap
  have h : IntOp.cmpi .slt w 0#32 = 0#1 := eq_zero_of_ne_one fun e => by
    have := IntOp.cmpi_slt.mp e
    have h0 : (0#32 : BitVec 32).toInt = 0 := by decide
    omega
  rw [h, select_zero]

/-- A left fold by "and" from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduce by "and" from 1 of an array of 1s is 1 everywhere. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x hx _

/-- Where every start index lies in [0, 262143] the test holds at every pair. -/
theorem inRange_apply (idx : IVec S16777216x1 32)
    (hidx : ∀ i, 0 ≤ (idx i).toInt ∧ (idx i).toInt ≤ 262143) (j : S16777216.Idx) : inRange idx j = 1#1 := by
  unfold inRange
  refine reduce_andi_of_all _ _ _ _ (fun i => ?_) rfl j
  show IntOp.andi (IntOp.cmpi .sge (idx i) 0#32) (IntOp.cmpi .sle (idx i) 262143#32) = 1#1
  have h0 : (0#32 : BitVec 32).toInt = 0 := by decide
  have h1 : (262143#32 : BitVec 32).toInt = 262143 := by decide
  rw [IntOp.andi_eq_one, IntOp.cmpi_sge, IntOp.cmpi_sle, h0, h1]
  exact hidx i

/-- The take read at (a, p): the operand at row a and the column the start index names. -/
theorem takeT_apply (xT : FVec Ideal S3x262144 .f32) (idx : IVec S16777216x1 32)
    (hidx : ∀ i, 0 ≤ (idx i).toInt ∧ (idx i).toInt ≤ 262143) (a : Fin 3) (p : Fin 16777216) :
    takeT xT idx (ix2 a p) = xT (ix2 a (LJ.row (idx (ix2 p (0 : Fin 1))))) := by
  unfold takeT
  refine (select_apply _ _ _ _).trans ?_
  have hc : broadcastInDim S3x16777216 ![1] bcast_S16777216_S3x16777216_1 (inRange idx) (ix2 a p) = 1#1 :=
    (broadcastInDim_apply _ bcast_S16777216_S3x16777216_1 _ _ (ix1 p) fun b => by
      match b with
      | ⟨0, _⟩ => rfl).trans (inRange_apply idx hidx _)
  rw [hc, select_one]
  exact LibGatherRowsCols.gather_cols_apply (N := 262144) (P := 16777216) (C := 3) (by norm_num)
    gather_S3x262144_S16777216x1_S3x16777216_0_1_n_n_1_1_31_wf xT idx p a

/-- The take of columns of the transposed positions at row r of the pair list, read at (a, p), for indices in range:
    coordinate a of the position of atom map[r, p]. -/
theorem take_pair (pos : FVec Ideal S262144x3 .f32) (map : IVec S2x16777216 32) (off : Fin 2 → Nat)
    (h : S2x16777216.Slices off S1x16777216) (r : Fin 2) (h0 : off 0 = r.val) (h1 : off 1 = 0)
    (hin : ∀ p : Fin 16777216, 0 ≤ (map (ix2 r p)).toInt ∧ (map (ix2 r p)).toInt < 262144)
    (a : Fin 3) (p : Fin 16777216) :
    takeT (transpose S3x262144 [1, 0] pos transposes_S262144x3_S3x262144_1_0) (wrapIdx (rowOf off h map)) (ix2 a p)
      = pos (ix2 (LJ.row (LJ.wrap (map (ix2 r p)))) a) := by
  have hw : ∀ q : Fin 16777216, wrapIdx (rowOf off h map) (ix2 q (0 : Fin 1)) = LJ.wrap (map (ix2 r q)) := fun q => by
    rw [wrapIdx_apply, rowOf_apply off h map r h0 h1]
  refine (takeT_apply _ _ (fun i => ?_) a p).trans ?_
  · obtain ⟨q, u, rfl⟩ : ∃ q u, i = ix2 q u := ⟨i 0, i 1, eq_ix2 i⟩
    obtain rfl : u = 0 := Subsingleton.elim _ _
    rw [hw q, wrap_of_nonneg _ (hin q).1]
    have := hin q
    omega
  · rw [hw p]
    exact transpose_ix2_apply pos transposes_S262144x3_S3x262144_1_0 a _

/-! ## The buffers when the region is entered

The host lines before the region are four stretches run in a row; a stretch leaves alone what it does not write. -/

variable (m : (ℓ : Loc nD τ sig) → Buf (Elt Ideal) ℓ)

/-- Closes "no operation of these stretches writes this buffer". -/
local macro "not_written" : tactic =>
  `(tactic| (refine List.forall_iff_forall_mem.mp ?_
             simp only [hostOps0, hostOps0_1, hostOps0_2, hostOps0_3, List.Forall, StableHlo.nullary_writes, StableHlo.unary_writes,
               StableHlo.binary_writes, StableHlo.ternary_writes, StableHlo.quaternary_writes, StableHlo.reshape_writes,
               StableHlo.binaryIndexed_writes, Finset.mem_singleton]
             repeat' apply And.intro
             all_goals exact StableHlo.devRef_ne_of_ne (by decide)))

/-- The contents at the region's entry, stretch after stretch. -/
theorem V_eq (c : Dev nD) (b : Ref sig .tc) :
    V m c b = after hostOps0_3 (after hostOps0_2 (after hostOps0_1 (after hostOps0 (fun b => m (c, b)))))
      (Proc.devRef .tc b) := by
  show after (List.flatten [hostOps0, hostOps0_1, hostOps0_2, hostOps0_3]) _ _ = _
  rw [List.flatten_cons, List.flatten_cons, List.flatten_cons, List.flatten_cons, List.flatten_nil, List.append_nil,
    after_append, after_append, after_append]

/-- Reads a buffer through a nest of operation results: at its own result buffer an operation's function, elsewhere
    what was there. -/
local macro "results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

section Stretches
variable (W : Valuation τ sig (Elt Ideal))

theorem s0_v1 : (after hostOps0 W (Proc.devRef .tc main_v1) : S16777216.Idx → BitVec 32)
    = rowOf ![0, 0] slices_S2x16777216_S1x16777216_0_0 (W (Proc.devRef .tc main_arg2)) := by
  simp only [hostOps0]
  after_results
  rfl

theorem s0_v3 : (after hostOps0 W (Proc.devRef .tc main_v3) : S16777216.Idx → BitVec 32)
    = rowOf ![1, 0] slices_S2x16777216_S1x16777216_1_0 (W (Proc.devRef .tc main_arg2)) := by
  simp only [hostOps0]
  after_results
  rfl

theorem s0_v4 : (after hostOps0 W (Proc.devRef .tc main_v4) : S3x262144.Idx → EReal)
    = transpose S3x262144 [1, 0] (W (Proc.devRef .tc main_arg0)) transposes_S262144x3_S3x262144_1_0 := by
  simp only [hostOps0]
  after_results

set_option maxHeartbeats 1000000 in
theorem s1_v5 : (after hostOps0_1 W (Proc.devRef .tc main_v5) : S3x16777216.Idx → EReal)
    = takeT (W (Proc.devRef .tc main_v4)) (wrapIdx (W (Proc.devRef .tc main_v1))) := by
  simp only [hostOps0_1]
  -- the wrapped index as a column: the first eight operations
  iterate 8 rw [after_cons]
  generalize hW1 : HloOp.result _ _ = W1
  have e5 : (W1 (Proc.devRef .tc main_call0_v5) : S16777216x1.Idx → BitVec 32) = wrapIdx (W (Proc.devRef .tc main_v1)) := by
    rw [← hW1]; results; simp only [TRef.ofBuf, TRef.toBuf, cast_eq]; rfl
  have e4 : W1 (Proc.devRef .tc main_v4) = W (Proc.devRef .tc main_v4) := by
    rw [← hW1]; results
  clear hW1
  -- the range test: the next ten
  iterate 10 rw [after_cons]
  generalize hW2 : HloOp.result _ _ = W2
  have f12 : (W2 (Proc.devRef .tc main_call0_v12) : S16777216.Idx → BitVec 1) = inRange (W1 (Proc.devRef .tc main_call0_v5)) := by
    rw [← hW2]; results; simp only [TRef.ofBuf, TRef.toBuf, cast_eq]; rfl
  have f5 : W2 (Proc.devRef .tc main_call0_v5) = W1 (Proc.devRef .tc main_call0_v5) := by
    rw [← hW2]; results
  have f4 : W2 (Proc.devRef .tc main_v4) = W1 (Proc.devRef .tc main_v4) := by
    rw [← hW2]; results
  clear hW2
  -- the gather, the test along the rows and the fill: the next four
  iterate 4 rw [after_cons]
  generalize hW3 : HloOp.result _ _ = W3
  have g14 : (W3 (Proc.devRef .tc main_call0_v14) : S3x16777216.Idx → BitVec 1)
      = broadcastInDim S3x16777216 ![1] bcast_S16777216_S3x16777216_1 (W2 (Proc.devRef .tc main_call0_v12)) := by
    rw [← hW3]; results; simp only [TRef.ofBuf, TRef.toBuf, cast_eq]
  have g13 : (W3 (Proc.devRef .tc main_call0_v13) : S3x16777216.Idx → EReal)
      = Host.gather gather_S3x262144_S16777216x1_S3x16777216_0_1_n_n_1_1_31 (W2 (Proc.devRef .tc main_v4))
          (W2 (Proc.devRef .tc main_call0_v5)) := by
    rw [← hW3]; results; simp only [TRef.ofBuf, TRef.toBuf, cast_eq]
  have g15 : (W3 (Proc.devRef .tc main_call0_v15) : S3x16777216.Idx → EReal)
      = broadcastInDim S3x16777216 ![] bcast_S_S3x16777216 (constant (F := Ideal) S_ .f32 0x7FC00000#32) := by
    rw [← hW3]; results; simp only [TRef.ofBuf, TRef.toBuf, cast_eq]
  clear hW3
  -- the select
  rw [after_cons, after_nil, ternary_result]
  simp only [TRef.ofBuf, TRef.toBuf, cast_eq]
  rw [g14, g13, g15, f12, f5, f4, e5, e4]
  unfold takeT
  with_reducible rfl

set_option maxHeartbeats 1000000 in
theorem s2_v6 : (after hostOps0_2 W (Proc.devRef .tc main_v6) : S3x16777216.Idx → EReal)
    = takeT (W (Proc.devRef .tc main_v4)) (wrapIdx (W (Proc.devRef .tc main_v3))) := by
  simp only [hostOps0_2]
  -- the wrapped index as a column: the first eight operations
  iterate 8 rw [after_cons]
  generalize hW1 : HloOp.result _ _ = W1
  have e5 : (W1 (Proc.devRef .tc main_call1_v5) : S16777216x1.Idx → BitVec 32) = wrapIdx (W (Proc.devRef .tc main_v3)) := by
    rw [← hW1]; results; simp only [TRef.ofBuf, TRef.toBuf, cast_eq]; rfl
  have e4 : W1 (Proc.devRef .tc main_v4) = W (Proc.devRef .tc main_v4) := by
    rw [← hW1]; results
  clear hW1
  -- the range test: the next ten
  iterate 10 rw [after_cons]
  generalize hW2 : HloOp.result _ _ = W2
  have f12 : (W2 (Proc.devRef .tc main_call1_v12) : S16777216.Idx → BitVec 1) = inRange (W1 (Proc.devRef .tc main_call1_v5)) := by
    rw [← hW2]; results; simp only [TRef.ofBuf, TRef.toBuf, cast_eq]; rfl
  have f5 : W2 (Proc.devRef .tc main_call1_v5) = W1 (Proc.devRef .tc main_call1_v5) := by
    rw [← hW2]; results
  have f4 : W2 (Proc.devRef .tc main_v4) = W1 (Proc.devRef .tc main_v4) := by
    rw [← hW2]; results
  clear hW2
  -- the gather, the test along the rows and the fill: the next four
  iterate 4 rw [after_cons]
  generalize hW3 : HloOp.result _ _ = W3
  have g14 : (W3 (Proc.devRef .tc main_call1_v14) : S3x16777216.Idx → BitVec 1)
      = broadcastInDim S3x16777216 ![1] bcast_S16777216_S3x16777216_1 (W2 (Proc.devRef .tc main_call1_v12)) := by
    rw [← hW3]; results; simp only [TRef.ofBuf, TRef.toBuf, cast_eq]
  have g13 : (W3 (Proc.devRef .tc main_call1_v13) : S3x16777216.Idx → EReal)
      = Host.gather gather_S3x262144_S16777216x1_S3x16777216_0_1_n_n_1_1_31 (W2 (Proc.devRef .tc main_v4))
          (W2 (Proc.devRef .tc main_call1_v5)) := by
    rw [← hW3]; results; simp only [TRef.ofBuf, TRef.toBuf, cast_eq]
  have g15 : (W3 (Proc.devRef .tc main_call1_v15) : S3x16777216.Idx → EReal)
      = broadcastInDim S3x16777216 ![] bcast_S_S3x16777216 (constant (F := Ideal) S_ .f32 0x7FC00000#32) := by
    rw [← hW3]; results; simp only [TRef.ofBuf, TRef.toBuf, cast_eq]
  clear hW3
  -- the select
  rw [after_cons, after_nil, ternary_result]
  simp only [TRef.ofBuf, TRef.toBuf, cast_eq]
  rw [g14, g13, g15, f12, f5, f4, e5, e4]
  unfold takeT
  with_reducible rfl

theorem s3_v7 : (after hostOps0_3 W (Proc.devRef .tc main_v7) : S3x16777216.Idx → EReal)
    = transpose S3x16777216 [1, 0] (W (Proc.devRef .tc main_arg3)) transposes_S16777216x3_S3x16777216_1_0 := by
  simp only [hostOps0_3]
  after_results

end Stretches

/-! ## The statements -/

/-- i = row 0 of the pair list, as the region and the later host lines find it. -/
theorem V_v1_eq (c : Dev nD) : (V m c main_v1 : S16777216.Idx → BitVec 32)
    = rowOf ![0, 0] slices_S2x16777216_S1x16777216_0_0 (m ((c.tc : Thread nD τ).loc main_arg2)) := by
  rw [V_eq, after_of_forall_not_mem (b := Proc.devRef .tc main_v1) (hostOps0_3 (F := Ideal)) _ (by not_written),
    after_of_forall_not_mem (b := Proc.devRef .tc main_v1) (hostOps0_2 (F := Ideal)) _ (by not_written),
    after_of_forall_not_mem (b := Proc.devRef .tc main_v1) (hostOps0_1 (F := Ideal)) _ (by not_written), s0_v1]

/-- j = row 1 of the pair list. -/
theorem V_v3_eq (c : Dev nD) : (V m c main_v3 : S16777216.Idx → BitVec 32)
    = rowOf ![1, 0] slices_S2x16777216_S1x16777216_1_0 (m ((c.tc : Thread nD τ).loc main_arg2)) := by
  rw [V_eq, after_of_forall_not_mem (b := Proc.devRef .tc main_v3) (hostOps0_3 (F := Ideal)) _ (by not_written),
    after_of_forall_not_mem (b := Proc.devRef .tc main_v3) (hostOps0_2 (F := Ideal)) _ (by not_written),
    after_of_forall_not_mem (b := Proc.devRef .tc main_v3) (hostOps0_1 (F := Ideal)) _ (by not_written), s0_v3]

/-- The columns of the transposed positions taken at i. -/
theorem V_v5_eq (c : Dev nD) : (V m c main_v5 : S3x16777216.Idx → EReal)
    = takeT (transpose S3x262144 [1, 0] (m ((c.tc : Thread nD τ).loc main_arg0)) transposes_S262144x3_S3x262144_1_0)
        (wrapIdx (rowOf ![0, 0] slices_S2x16777216_S1x16777216_0_0 (m ((c.tc : Thread nD τ).loc main_arg2)))) := by
  rw [V_eq, after_of_forall_not_mem (b := Proc.devRef .tc main_v5) (hostOps0_3 (F := Ideal)) _ (by not_written),
    after_of_forall_not_mem (b := Proc.devRef .tc main_v5) (hostOps0_2 (F := Ideal)) _ (by not_written), s1_v5, s0_v4, s0_v1]

/-- The columns of the transposed positions taken at j: the first take writes nothing the second reads. -/
theorem V_v6_eq (c : Dev nD) : (V m c main_v6 : S3x16777216.Idx → EReal)
    = takeT (transpose S3x262144 [1, 0] (m ((c.tc : Thread nD τ).loc main_arg0)) transposes_S262144x3_S3x262144_1_0)
        (wrapIdx (rowOf ![1, 0] slices_S2x16777216_S1x16777216_1_0 (m ((c.tc : Thread nD τ).loc main_arg2)))) := by
  rw [V_eq, after_of_forall_not_mem (b := Proc.devRef .tc main_v6) (hostOps0_3 (F := Ideal)) _ (by not_written), s2_v6,
    after_of_forall_not_mem (b := Proc.devRef .tc main_v4) (hostOps0_1 (F := Ideal)) _ (by not_written),
    after_of_forall_not_mem (b := Proc.devRef .tc main_v3) (hostOps0_1 (F := Ideal)) _ (by not_written), s0_v4, s0_v3]

/-- The shifts transposed. -/
theorem V_v7_eq (c : Dev nD) : (V m c main_v7 : S3x16777216.Idx → EReal)
    = transpose S3x16777216 [1, 0] (m ((c.tc : Thread nD τ).loc main_arg3)) transposes_S16777216x3_S3x16777216_1_0 := by
  rw [V_eq, s3_v7, after_of_forall_not_mem (b := Proc.devRef .tc main_arg3) (hostOps0_2 (F := Ideal)) _ (by not_written),
    after_of_forall_not_mem (b := Proc.devRef .tc main_arg3) (hostOps0_1 (F := Ideal)) _ (by not_written),
    after_of_forall_not_mem (b := Proc.devRef .tc main_arg3) (hostOps0 (F := Ideal)) _ (by not_written)]

theorem V_ri (c : Dev nD)
    (hin : ∀ (r : Fin 2) (p : Fin 16777216), 0 ≤ ((m ((c.tc : Thread nD τ).loc main_arg2) : IVec S2x16777216 32) (ix2 r p)).toInt ∧ ((m ((c.tc : Thread nD τ).loc main_arg2) : IVec S2x16777216 32) (ix2 r p)).toInt < 262144)
    (a : Fin 3) (p : Fin 16777216) :
    (V m c main_v5 : S3x16777216.Idx → EReal) (ix2 a p) = LJ.pairRi (m ((c.tc : Thread nD τ).loc main_arg0)) (m ((c.tc : Thread nD τ).loc main_arg2)) p a :=
  (congrFun (V_v5_eq m c) (ix2 a p)).trans
    (take_pair _ _ ![0, 0] slices_S2x16777216_S1x16777216_0_0 (0 : Fin 2) rfl rfl (hin 0) a p)

theorem V_rj (c : Dev nD)
    (hin : ∀ (r : Fin 2) (p : Fin 16777216), 0 ≤ ((m ((c.tc : Thread nD τ).loc main_arg2) : IVec S2x16777216 32) (ix2 r p)).toInt ∧ ((m ((c.tc : Thread nD τ).loc main_arg2) : IVec S2x16777216 32) (ix2 r p)).toInt < 262144)
    (a : Fin 3) (p : Fin 16777216) :
    (V m c main_v6 : S3x16777216.Idx → EReal) (ix2 a p) = LJ.pairRj (m ((c.tc : Thread nD τ).loc main_arg0)) (m ((c.tc : Thread nD τ).loc main_arg2)) p a :=
  (congrFun (V_v6_eq m c) (ix2 a p)).trans
    (take_pair _ _ ![1, 0] slices_S2x16777216_S1x16777216_1_0 (1 : Fin 2) rfl rfl (hin 1) a p)

theorem V_sh (c : Dev nD) (b : Fin 3) (p : Fin 16777216) :
    (V m c main_v7 : S3x16777216.Idx → EReal) (ix2 b p) = (m ((c.tc : Thread nD τ).loc main_arg3) : S16777216x3.Idx → EReal) (ix2 p b) :=
  (congrFun (V_v7_eq m c) (ix2 b p)).trans
    (transpose_ix2_apply _ transposes_S16777216x3_S3x16777216_1_0 b p)

theorem V_v1 (c : Dev nD) (p : Fin 16777216) :
    (V m c main_v1 : S16777216.Idx → BitVec 32) (ix1 p) = (m ((c.tc : Thread nD τ).loc main_arg2) : IVec S2x16777216 32) (ix2 (0 : Fin 2) p) :=
  (congrFun (V_v1_eq m c) (ix1 p)).trans (rowOf_apply ![0, 0] slices_S2x16777216_S1x16777216_0_0 _ (0 : Fin 2) rfl rfl p)

theorem V_v3 (c : Dev nD) (p : Fin 16777216) :
    (V m c main_v3 : S16777216.Idx → BitVec 32) (ix1 p) = (m ((c.tc : Thread nD τ).loc main_arg2) : IVec S2x16777216 32) (ix2 (1 : Fin 2) p) :=
  (congrFun (V_v3_eq m c) (ix1 p)).trans (rowOf_apply ![1, 0] slices_S2x16777216_S1x16777216_1_0 _ (1 : Fin 2) rfl rfl p)

end Cert.KernelIdeal.Host

end
-- ==== Proof.KernelValue.lean ====
/-
  The pair kernel's program, read: its run with the two results named, and what the region's two output arrays
  hold in terms of the ARGUMENT arrays.

  Before the region the program gathers r_i and r_j of every pair out of the transposed positions and transposes
  the shifts; where every pair index names an atom (the index range the gather's in-bounds test asks for) the planar
  arrays the region reads are, entry by entry, the pair data of the arguments, so the region's energies and forces
  are the kernel's pair function of the arguments' pair data.
-/
import proofs.«401026_j30176440222240_3_alg».proof.Proof.KernelBlocks
import proofs.«401026_j30176440222240_3_alg».proof.Proof.KernelTail
import proofs.«401026_j30176440222240_3_alg».proof.Proof.KernelHost

noncomputable section

namespace Cert.KernelIdeal.RunValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-! ## The arguments -/

/-- The positions [262144, 3]. -/
abbrev posA (c : Dev nD) : S262144x3.Idx → EReal := m ((c.tc : Thread nD τ).loc main_arg0)
/-- The cell [3, 3]. -/
abbrev cellA (c : Dev nD) : S3x3.Idx → EReal := m ((c.tc : Thread nD τ).loc main_arg1)
/-- The pair list [2, 16777216]. -/
abbrev mapA (c : Dev nD) : IVec S2x16777216 32 := m ((c.tc : Thread nD τ).loc main_arg2)
/-- The shifts [16777216, 3]. -/
abbrev shA (c : Dev nD) : S16777216x3.Idx → EReal := m ((c.tc : Thread nD τ).loc main_arg3)

/-- Every entry of the pair list names an atom. -/
def InRange (c : Dev nD) : Prop :=
  ∀ (r : Fin 2) (p : Fin 16777216), 0 ≤ (mapA m c (ix2 r p)).toInt ∧ (mapA m c (ix2 r p)).toInt < 262144

/-! ## The run, its two results named -/

/-- Every weakly fair execution of the kernel's program ends with its two results at what the host operations after
    the region make of the region's output arrays, the arguments unchanged. -/
theorem run : θ_run defs (onTc (τ := τ) (main (F := Ideal))) ⟨m, fun _ => 0, ρ⟩ fun r => ∀ c : Dev nD,
      r.2.mem ((c.tc : Thread nD τ).loc main_v10) = Pipeline.afterTail₀ cfgs (dats m) 0 (V0 m) [hostOps1] c main_v10
      ∧ r.2.mem ((c.tc : Thread nD τ).loc main_v27) = Pipeline.afterTail₀ cfgs (dats m) 0 (V0 m) [hostOps1] c main_v27
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(h c).2 main_v10 (Pipeline.mem_restRefs_of main_v10 (by decide) (by decide)),
     (h c).2 main_v27 (Pipeline.mem_restRefs_of main_v27 (by decide) (by decide)),
     ((h c).2 main_arg0 (Pipeline.mem_restRefs_of main_arg0 (by decide) (by decide))).trans (W_main_arg0 m (dats m) c),
     ((h c).1 3).trans (((dats m 0 c).arrAt_in 3 rfl _).trans ((A_eq m c 3).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

/-! ## The planar arrays are the arguments' pair data -/

theorem d2At_eq (c : Dev nD) (hin : InRange m c) (p : Fin 16777216) :
    Blocks.d2At m c p = LJ.pairD2 (posA m c) (cellA m c) (mapA m c) (shA m c) p := by
  have h1 : (fun a => Blocks.riT m c (ix2 a p)) = LJ.pairRi (posA m c) (mapA m c) p :=
    funext fun a => Cert.KernelIdeal.Host.V_ri m c hin a p
  have h2 : (fun a => Blocks.rjT m c (ix2 a p)) = LJ.pairRj (posA m c) (mapA m c) p :=
    funext fun a => Cert.KernelIdeal.Host.V_rj m c hin a p
  have h3 : (fun b => Blocks.shT m c (ix2 b p)) = LJ.pairSh (shA m c) p :=
    funext fun b => Cert.KernelIdeal.Host.V_sh m c b p
  have h4 : (fun b a => Blocks.cel m c (ix2 b a)) = LJ.cellF (cellA m c) := by
    funext b a
    show V m c main_arg1 (ix2 b a) = _
    rw [V_main_arg1]
    rfl
  unfold Blocks.d2At LJ.pairD2
  rw [h1, h2, h3, h4]

theorem drAt_eq (c : Dev nD) (hin : InRange m c) (p : Fin 16777216) (a : Fin 3) :
    Blocks.drAt m c p a = LJ.pairDr (posA m c) (cellA m c) (mapA m c) (shA m c) p a := by
  have h1 : (fun a => Blocks.riT m c (ix2 a p)) = LJ.pairRi (posA m c) (mapA m c) p :=
    funext fun a => Cert.KernelIdeal.Host.V_ri m c hin a p
  have h2 : (fun a => Blocks.rjT m c (ix2 a p)) = LJ.pairRj (posA m c) (mapA m c) p :=
    funext fun a => Cert.KernelIdeal.Host.V_rj m c hin a p
  have h3 : (fun b => Blocks.shT m c (ix2 b p)) = LJ.pairSh (shA m c) p :=
    funext fun b => Cert.KernelIdeal.Host.V_sh m c b p
  have h4 : (fun b a => Blocks.cel m c (ix2 b a)) = LJ.cellF (cellA m c) := by
    funext b a
    show V m c main_arg1 (ix2 b a) = _
    rw [V_main_arg1]
    rfl
  unfold Blocks.drAt LJ.pairDr
  rw [h1, h2, h3, h4]

/-! ## The region's output arrays, of the arguments -/

/-- Entry p of the energies array. -/
theorem outE_apply (c : Dev nD) (hin : InRange m c) (p : Fin 16777216) :
    Tail.outE m c (ix1 p) = LJ.peK (LJ.pairD2 (posA m c) (cellA m c) (mapA m c) (shA m c) p) := by
  show (dats m 0 c).arrAt 4 cfg0.N (ix1 p) = _
  rw [Blocks.final4, Blocks.GE_apply, d2At_eq m c hin]

/-- Entry (a, p) of the forces array. -/
theorem outF_apply (c : Dev nD) (hin : InRange m c) (a : Fin 3) (p : Fin 16777216) :
    Tail.outF m c (ix2 a p)
      = LJ.gK (LJ.pairD2 (posA m c) (cellA m c) (mapA m c) (shA m c) p) * LJ.pairDr (posA m c) (cellA m c) (mapA m c) (shA m c) p a := by
  show (dats m 0 c).arrAt 5 cfg0.N (ix2 a p) = _
  rw [Blocks.final5, Blocks.GF_apply, d2At_eq m c hin, drAt_eq m c hin]

end Cert.KernelIdeal.RunValue

end
-- ==== Proof.RefPairs.lean ====
/-
  The reference program read pair by pair.

  For pair p the reference gathers the positions of atoms i = mapping[0, p] and j = mapping[1, p] (a negative index
  wrapped as numpy wraps it, the gather's start read signed and clamped into the array), forms the displacement
  dr = r_j − r_i + shifts[p] @ cell, its squared length d2, and from d2 the pair's energy and the factor of dr in its
  force. Each theorem below reads one stage of the reference at pair p (and coordinate a) as the corresponding
  function of the pair's data: the wrapped indices, the components of dr, d2, the energy after the cutoff select and
  the force vector. Every step is the reference's own operation at an index; no algebraic law beyond 0 + x = x (the
  initial value of the sum of squares) is used.
-/
import proofs.«401026_j30176440222240_3_alg».proof.Proof.RefRead
import proofs.«401026_j30176440222240_3_alg».proof.Proof.LJ
import proofs.«401026_j30176440222240_3_alg».proof.Proof.LibGatherRowsCols
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

variable (pos : FVec Ideal S262144x3 .f32) (cell : FVec Ideal S3x3 .f32) (map : IVec S2x16777216 32)
  (sh : FVec Ideal S16777216x3 .f32) (p : Fin 16777216) (a : Fin 3)

/-! ### The pair list's two rows -/

/-- mapping[0], the atoms i, at pair p. -/
theorem v1_apply : val_main_v1 (F := Ideal) map (ix1 p) = map (ix2 (0 : Fin 2) p) := by
  rw [val_main_v1_apply, val_main_v0_apply]
  refine congrArg map (funext fun d => Fin.ext ?_)
  match d with
  | ⟨0, _⟩ => rfl
  | ⟨1, _⟩ => exact Nat.mod_eq_of_lt p.isLt

/-- mapping[1], the atoms j, at pair p. -/
theorem v3_apply : val_main_v3 (F := Ideal) map (ix1 p) = map (ix2 (1 : Fin 2) p) := by
  rw [val_main_v3_apply, val_main_v2_apply]
  refine congrArg map (funext fun d => Fin.ext ?_)
  match d with
  | ⟨0, _⟩ => rfl
  | ⟨1, _⟩ => exact Nat.mod_eq_of_lt p.isLt

/-- A column index (p, 0) of a [P, 1] array read back as the row index p. -/
theorem col_ix (f : S16777216x1.Idx → S16777216.Idx)
    (hf : ∀ i : S16777216x1.Idx, ((f i) 0).val = (i 0).val) : f (ix2 p (0 : Fin 1)) = ix1 p :=
  funext fun d => Fin.ext (by match d with | ⟨0, _⟩ => exact hf _)

/-! ### The wrapped indices -/

theorem v8_apply : val_main_v8 (F := Ideal) map (ix1 p) = LJ.wrap (map (ix2 (1 : Fin 2) p)) := by
  rw [val_main_v8_apply, val_main_v5_apply, val_main_v7_apply, val_main_v4_apply, val_main_v6_apply,
    val_main_c_apply, val_main_c_0_apply, v3_apply]
  rfl

theorem v15_apply : val_main_v15 (F := Ideal) map (ix1 p) = LJ.wrap (map (ix2 (0 : Fin 2) p)) := by
  rw [val_main_v15_apply, val_main_v12_apply, val_main_v14_apply, val_main_v11_apply, val_main_v13_apply,
    val_main_c_1_apply, val_main_c_2_apply, v1_apply]
  rfl

theorem v55_apply : val_main_v55 (F := Ideal) map (ix1 p) = LJ.wrap (map (ix2 (0 : Fin 2) p)) := by
  rw [val_main_v55_apply, val_main_v52_apply, val_main_v54_apply, val_main_v51_apply, val_main_v53_apply,
    val_main_c_13_apply, val_main_c_14_apply, v1_apply]
  rfl

theorem v62_apply : val_main_v62 (F := Ideal) map (ix1 p) = LJ.wrap (map (ix2 (1 : Fin 2) p)) := by
  rw [val_main_v62_apply, val_main_v59_apply, val_main_v61_apply, val_main_v58_apply, val_main_v60_apply,
    val_main_c_15_apply, val_main_c_16_apply, v3_apply]
  rfl

/-- The gather index of atom j. -/
theorem v9_apply : val_main_v9 (F := Ideal) map (ix2 p (0 : Fin 1)) = LJ.wrap (map (ix2 (1 : Fin 2) p)) :=
  (val_main_v9_apply map _).trans
    ((congrArg (val_main_v8 (F := Ideal) map) (col_ix p idx_main_v9 fun _ => rfl)).trans (v8_apply map p))

/-- The gather index of atom i. -/
theorem v16_apply : val_main_v16 (F := Ideal) map (ix2 p (0 : Fin 1)) = LJ.wrap (map (ix2 (0 : Fin 2) p)) :=
  (val_main_v16_apply map _).trans
    ((congrArg (val_main_v15 (F := Ideal) map) (col_ix p idx_main_v16 fun _ => rfl)).trans (v15_apply map p))

/-- The scatter index of atom i. -/
theorem v56_apply : val_main_v56 (F := Ideal) map (ix2 p (0 : Fin 1)) = LJ.wrap (map (ix2 (0 : Fin 2) p)) :=
  (val_main_v56_apply map _).trans
    ((congrArg (val_main_v55 (F := Ideal) map) (col_ix p idx_main_v56 fun _ => rfl)).trans (v55_apply map p))

/-- The scatter index of atom j. -/
theorem v63_apply : val_main_v63 (F := Ideal) map (ix2 p (0 : Fin 1)) = LJ.wrap (map (ix2 (1 : Fin 2) p)) :=
  (val_main_v63_apply map _).trans
    ((congrArg (val_main_v62 (F := Ideal) map) (col_ix p idx_main_v63 fun _ => rfl)).trans (v62_apply map p))

/-! ### The gathered positions -/

/-- positions[j] at (p, a). -/
theorem v10_apply : val_main_v10 (F := Ideal) pos map (ix2 p a) = LJ.pairRj pos map p a := by
  unfold val_main_v10
  refine (LibGatherRowsCols.gather_rows_apply (by omega) _ pos (val_main_v9 (F := Ideal) map) p a).trans ?_
  refine congrArg (fun r : Fin 262144 => pos (ix2 r a)) (Fin.ext ?_)
  show min (val_main_v9 (F := Ideal) map (ix2 p (0 : Fin 1))).toInt.toNat (262144 - 1) = _
  rw [v9_apply]
  rfl

/-- positions[i] at (p, a). -/
theorem v17_apply : val_main_v17 (F := Ideal) pos map (ix2 p a) = LJ.pairRi pos map p a := by
  unfold val_main_v17
  refine (LibGatherRowsCols.gather_rows_apply (by omega) _ pos (val_main_v16 (F := Ideal) map) p a).trans ?_
  refine congrArg (fun r : Fin 262144 => pos (ix2 r a)) (Fin.ext ?_)
  show min (val_main_v16 (F := Ideal) map (ix2 p (0 : Fin 1))).toInt.toNat (262144 - 1) = _
  rw [v16_apply]
  rfl

/-! ### The displacement and its squared length -/

theorem v18_apply : val_main_v18 (F := Ideal) pos map (ix2 p a) = LJ.pairRj pos map p a - LJ.pairRi pos map p a := by
  rw [val_main_v18_apply, v10_apply, v17_apply]
  rfl

/-- shifts @ cell at (p, a): the sum over the contracted axis, in the order the sum over Fin 3 unfolds to. -/
theorem v19_apply : val_main_v19 (F := Ideal) cell sh (ix2 p a)
    = (sh (ix2 p (0 : Fin 3)) * cell (ix2 (0 : Fin 3) a) + sh (ix2 p (1 : Fin 3)) * cell (ix2 (1 : Fin 3) a))
        + sh (ix2 p (2 : Fin 3)) * cell (ix2 (2 : Fin 3) a) := by
  have el : ∀ k : Fin 3, lidx_main_v19 (ix2 p a) k = ix2 p k := fun k =>
    funext fun d => Fin.ext (by match d with | ⟨0, _⟩ => rfl | ⟨1, _⟩ => rfl)
  have er : ∀ k : Fin 3, ridx_main_v19 (ix2 p a) k = ix2 k a := fun k =>
    funext fun d => Fin.ext (by match d with | ⟨0, _⟩ => rfl | ⟨1, _⟩ => rfl)
  rw [val_main_v19_apply, Fin.sum_univ_three, el, el, el, er, er, er]

theorem v20_apply : val_main_v20 (F := Ideal) pos cell map sh (ix2 p a) = LJ.pairDr pos cell map sh p a := by
  rw [val_main_v20_apply, v18_apply, v19_apply]
  rfl

theorem v21_apply : val_main_v21 (F := Ideal) pos cell map sh (ix2 p a)
    = LJ.pairDr pos cell map sh p a * LJ.pairDr pos cell map sh p a := by
  rw [val_main_v21_apply, v20_apply]
  rfl

theorem v22_apply : val_main_v22 (F := Ideal) pos cell map sh (ix1 p) = LJ.pairD2 pos cell map sh p := by
  have e : ∀ k : Fin 3, idx_main_v22 (ix1 p) k = ix2 p k := fun k =>
    funext fun d => Fin.ext (by match d with | ⟨0, _⟩ => rfl | ⟨1, _⟩ => rfl)
  rw [val_main_v22_apply, Fin.sum_univ_three, e, e, e, v21_apply, v21_apply, v21_apply, val_main_cst_apply]
  show LJ.w0 + _ = _
  rw [LJ.w0_eq, zero_add]
  rfl

/-! ### The pair function of the squared length -/

theorem v23_apply : val_main_v23 (F := Ideal) pos cell map sh (ix1 p) = LJ.dist (LJ.pairD2 pos cell map sh p) := by
  rw [val_main_v23_apply, v22_apply]
  rfl

theorem v25_apply : val_main_v25 (F := Ideal) pos cell map sh (ix1 p) = LJ.invR (LJ.pairD2 pos cell map sh p) := by
  rw [val_main_v25_apply, val_main_v24_apply, val_main_cst_3_apply, v23_apply]
  rfl

theorem v28_apply : val_main_v28 (F := Ideal) pos cell map sh (ix1 p) = LJ.sr6R (LJ.pairD2 pos cell map sh p) := by
  rw [val_main_v28_apply, val_main_v27_apply, val_main_v26_apply, v25_apply]
  rfl

theorem v29_apply : val_main_v29 (F := Ideal) pos cell map sh (ix1 p) = LJ.sr12R (LJ.pairD2 pos cell map sh p) := by
  rw [val_main_v29_apply, v28_apply]
  rfl

theorem v34_apply : val_main_v34 (F := Ideal) pos cell map sh (ix1 p) = LJ.cut (LJ.pairD2 pos cell map sh p) := by
  rw [val_main_v34_apply, val_main_v33_apply, val_main_cst_5_apply, v23_apply]
  rfl

theorem v35_apply : val_main_v35 (F := Ideal) pos cell map sh (ix1 p) = LJ.peR (LJ.pairD2 pos cell map sh p) := by
  rw [val_main_v35_apply, v34_apply, val_main_v32_apply, val_main_v31_apply, val_main_cst_4_apply,
    val_main_v30_apply, v29_apply, v28_apply, val_main_call0_v1_apply, val_main_call0_v0_apply,
    val_main_cst_6_apply]
  rfl

theorem v45_apply : val_main_v45 (F := Ideal) pos cell map sh (ix1 p) = LJ.gR (LJ.pairD2 pos cell map sh p) := by
  rw [val_main_v45_apply, val_main_v44_apply, v34_apply, val_main_v43_apply, val_main_v39_apply,
    val_main_v38_apply, val_main_cst_9_apply, val_main_v42_apply, val_main_v41_apply, val_main_v40_apply,
    val_main_cst_10_apply, v29_apply, v28_apply, v23_apply, val_main_call1_v1_apply, val_main_call1_v0_apply,
    val_main_cst_11_apply]
  rfl

/-! ### The force vectors -/

theorem v47_apply : val_main_v47 (F := Ideal) pos cell map sh (ix2 p a) = LJ.gR (LJ.pairD2 pos cell map sh p) := by
  have e1 : idx_main_v47 (ix2 p a) = ix2 p (0 : Fin 1) :=
    funext fun d => Fin.ext (by match d with | ⟨0, _⟩ => rfl | ⟨1, _⟩ => rfl)
  rw [val_main_v47_apply, e1, val_main_v46_apply, col_ix p idx_main_v46 fun _ => rfl, v45_apply]

theorem v48_apply : val_main_v48 (F := Ideal) pos cell map sh (ix2 p a)
    = LJ.gR (LJ.pairD2 pos cell map sh p) * LJ.pairDr pos cell map sh p a := by
  rw [val_main_v48_apply, v47_apply, v20_apply]
  rfl

end Cert.ReferenceIdeal.RefValue

end
-- ==== Proof.RefForces.lean ====
/-
  The reference's forces, read atom by atom.

  The reference scatters −F at the atoms i and +F at the atoms j of the pairs into a zero array, F the force
  vectors [16777216, 3].  An accumulating scatter of rows adds, at row n, the update rows of exactly the pairs whose
  (wrapped) index is n; so entry (n, a) of the result is
      (0 + Σ over the pairs p with i_p = n of −F(p, a)) + Σ over the pairs p with j_p = n of F(p, a).
-/
import proofs.«401026_j30176440222240_3_alg».proof.Proof.RefPairs
import proofs.«401026_j30176440222240_3_alg».proof.Proof.LibScatterRowsCols

noncomputable section

namespace Cert.ReferenceIdeal.RefValue

open Cert.ReferenceIdeal Cert.ReferenceIdeal.Gen Cert.ReferenceIdeal.Read Idealize.ShloMosaic Idealize.ShloMosaic.ValueIdx

/-- The reference's row scatter at entry (n, a): the operand's entry plus the updates of the pairs whose index is n. -/
theorem scatter_rows_apply (x : FVec Ideal S262144x3 .f32) (idx : IVec S16777216x1 32) (upd : FVec Ideal S16777216x3 .f32)
    (n : Fin 262144) (a : Fin 3) :
    Host.scatterAdd (F := Ideal) scatter_S262144x3_S16777216x1_S16777216x3_1_0_0_1 x idx upd (ix2 n a)
      = x (ix2 n a) + ∑ p ∈ Finset.univ.filter (fun p : Fin 16777216 => (idx (ix2 p (0 : Fin 1))).toInt = (n.val : Int)), upd (ix2 p a) :=
  LibScatterRowsCols.hostScatterAdd_rows_apply scatter_S262144x3_S16777216x1_S16777216x3_1_0_0_1.wf x idx upd n a

variable (pos : FVec Ideal S262144x3 .f32) (cell : FVec Ideal S3x3 .f32) (map : IVec S2x16777216 32)
  (sh : FVec Ideal S16777216x3 .f32)

/-- The pairs whose atom i is n, by the scatter's own index array. -/
theorem filter_i (n : Fin 262144) :
    (Finset.univ.filter fun p : Fin 16777216 => (val_main_v56 (F := Ideal) map (ix2 p (0 : Fin 1))).toInt = (n.val : Int))
      = Finset.univ.filter fun p : Fin 16777216 => (LJ.wrap (map (ix2 (0 : Fin 2) p))).toInt = (n.val : Int) :=
  Finset.filter_congr fun p _ => by rw [v56_apply]

/-- The pairs whose atom j is n. -/
theorem filter_j (n : Fin 262144) :
    (Finset.univ.filter fun p : Fin 16777216 => (val_main_v63 (F := Ideal) map (ix2 p (0 : Fin 1))).toInt = (n.val : Int))
      = Finset.univ.filter fun p : Fin 16777216 => (LJ.wrap (map (ix2 (1 : Fin 2) p))).toInt = (n.val : Int) :=
  Finset.filter_congr fun p _ => by rw [v63_apply]

/-- Entry (n, a) of the reference's forces. -/
theorem v64_apply (n : Fin 262144) (a : Fin 3) :
    val_main_v64 (F := Ideal) pos cell map sh (ix2 n a)
      = (LJ.w0 + ∑ p ∈ Finset.univ.filter (fun p : Fin 16777216 => (LJ.wrap (map (ix2 (0 : Fin 2) p))).toInt = (n.val : Int)),
            -(val_main_v48 (F := Ideal) pos cell map sh (ix2 p a)))
        + ∑ p ∈ Finset.univ.filter (fun p : Fin 16777216 => (LJ.wrap (map (ix2 (1 : Fin 2) p))).toInt = (n.val : Int)),
            val_main_v48 (F := Ideal) pos cell map sh (ix2 p a) := by
  unfold val_main_v64 val_main_v57
  rw [scatter_rows_apply, scatter_rows_apply, filter_i, filter_j]
  have h49 : val_main_v49 (F := Ideal) (ix2 n a) = LJ.w0 := by rw [val_main_v49_apply]; rfl
  rw [h49]
  refine congrArg₂ (· + ·) (congrArg (LJ.w0 + ·) (Finset.sum_congr rfl fun p _ => ?_)) rfl
  rw [val_main_v50_apply]
  rfl

end Cert.ReferenceIdeal.RefValue

end
-- ==== Proof.PreFacts.lean ====
/-
  THE PRECONDITION, DECODED. The certificate's precondition is a conjunction of five `all`s over its inputs: the three
  float inputs finite, every entry of the [2 × 16777216] pair list in [0, 262144), and every pair's squared distance
  positive. The value proof needs the last two as plain facts: the signed range of each index word, and
  `0 < dist2[p]` where `dist2` is the reference program's own stage 22 (positions gathered at the two wrapped
  indices and subtracted, the shifts times the cell added, the squares summed along the last axis). The
  precondition computes that vector by the same 23 operations, so the two terms are equal by unfolding; the rest is
  reading a conjunction of `i1` scalars and two reductions by `and` back into statements at every index.
-/
import proofs.«401026_j30176440222240_3_alg».proof.Proof.Gen.Pre_finite_inputs
import proofs.«401026_j30176440222240_3_alg».proof.Proof.RefRead
import Idealize.ShloMosaic.Lib.ReduceAll
import Idealize.ShloMosaic.Lib.StableHlo.Predicate
import Idealize.ShloMosaic.Lib.ValueIdx
import Idealize.ShloMosaic.Lib.Pipeline.Value

noncomputable section

namespace Cert.Pre_finite_inputs.Decode

open Idealize.ShloMosaic Idealize.ShloMosaic.ValueIdx
open Cert.Pre_finite_inputs Cert.Pre_finite_inputs.Gen

/-- A rank-0 array has one index. -/
instance : Subsingleton S_.Idx := ⟨fun a b => funext fun d => d.elim0⟩

/-- One entry of the pair list: the conjunction of the two signed comparisons `0 ≤ w` and `w < 262144` being the
    bit 1 says the word, read signed, lies in [0, 262144). -/
theorem word_range (w : BitVec 32)
    (h : IntOp.andi (IntOp.cmpi .sge w 0#32) (IntOp.cmpi .slt w 262144#32) = 1#1) :
    0 ≤ w.toInt ∧ w.toInt < 262144 := by
  obtain ⟨h0, h1⟩ := IntOp.andi_eq_one.1 h
  have e0 : (0#32 : BitVec 32).toInt = 0 := by decide
  have e1 : (262144#32 : BitVec 32).toInt = 262144 := by decide
  exact ⟨e0 ▸ IntOp.cmpi_sge.1 h0, e1 ▸ IntOp.cmpi_slt.1 h1⟩

/-- The all-zero f32 pattern denotes the real number 0. -/
theorem zero_word : Ideal.ofBits .f32 0x00000000#32 = (0 : EReal) := by
  simp [Ideal.ofBits, Ideal.ieee]

/-- THE TAIL OF THE PRECONDITION, for any squared-distance vector `v22` and any value `v36` of the three finiteness
    conjuncts. The result is `(v36 ∧ all(0 ≤ map < 262144)) ∧ all(v22 > 0)`, a conjunction of `i1` scalars; when it
    is 1 both reductions by `and` are 1, so each of their operands is 1 at every index: at (r, p) the two signed
    comparisons of `map[r, p]` against the broadcast constants 0 and 262144, at p the ordered comparison
    `v22[p] > 0.0`, which on the extended reals is `0 < v22[p]`. -/
theorem of_part2 (map : IVec S2x16777216 32) (v22 : FVec Ideal S16777216 .f32) (v36 : IVec S_ 1)
    (h : fn_part2 (F := Ideal) map v22 v36 ix0 = 1#1) :
    (∀ (r : Fin 2) (p : Fin 16777216), 0 ≤ (map (ix2 r p)).toInt ∧ (map (ix2 r p)).toInt < 262144)
    ∧ (∀ p : Fin 16777216, (0 : EReal) < v22 (ix1 p)) := by
  unfold fn_part2 at h
  dsimp only at h
  obtain ⟨h1, hd⟩ := IntOp.andi_eq_one.1 h
  obtain ⟨-, hm⟩ := IntOp.andi_eq_one.1 h1
  refine ⟨fun r p => ?_, fun p => ?_⟩
  · -- a broadcast scalar constant reads as the constant at every index, by unfolding
    exact word_range _ (Host.reduce_andi_all _ _ _ _ ix0 hm (ix2 r p))
  · have e : Ideal.cmp .ogt (v22 (ix1 p)) (Ideal.ofBits .f32 0x00000000#32) = 1#1 :=
      Host.reduce_andi_all _ _ _ _ ix0 hd (ix1 p)
    rw [zero_word] at e
    unfold Ideal.cmp at e
    exact of_decide_eq_true ((StableHlo.Predicate.ofBool_eq_one_iff _).1 e)

/-- The precondition's first 23 operations are the reference program's first 23, operation for operation (the rows of
    the pair list sliced and reshaped, negative indices wrapped, the positions gathered and subtracted, the shifts
    times the cell added, the squares summed along the last axis): its squared-distance vector IS the reference's
    stage 22, and the precondition is its tail applied to that vector. Both sides unfold to the same term, at any
    float instance. -/
theorem fn_eq_part2 {F : FTy → Type} [FloatOps F] (pos : FVec F S262144x3 .f32) (cell : FVec F S3x3 .f32)
    (map : IVec S2x16777216 32) (sh : FVec F S16777216x3 .f32) :
    ∃ v36 : IVec S_ 1, fn (F := F) pos cell map sh
      = fn_part2 (F := F) map (Cert.ReferenceIdeal.Read.val_main_v22 (F := F) pos cell map sh) v36 :=
  ⟨_, rfl⟩

/-- THE PRECONDITION DECODED: every entry of the pair list is an atom index in [0, 262144) (signed), and every
    pair's squared distance, as the reference computes it, is positive. -/
theorem of_pre (pos : FVec Ideal Cert.Pre_finite_inputs.S262144x3 .f32) (cell : FVec Ideal Cert.Pre_finite_inputs.S3x3 .f32)
    (map : IVec Cert.Pre_finite_inputs.S2x16777216 32) (sh : FVec Ideal Cert.Pre_finite_inputs.S16777216x3 .f32)
    (h : Cert.Pre_finite_inputs.fn (F := Ideal) pos cell map sh = fun _ => 1#1) :
    (∀ (r : Fin 2) (p : Fin 16777216), 0 ≤ (map (ix2 r p)).toInt ∧ (map (ix2 r p)).toInt < 262144)
    ∧ (∀ p : Fin 16777216, (0 : EReal) < Cert.ReferenceIdeal.Read.val_main_v22 (F := Ideal) pos cell map sh (ix1 p)) := by
  obtain ⟨v36, e⟩ := fn_eq_part2 (F := Ideal) pos cell map sh
  exact of_part2 map _ v36 (e ▸ congrFun h ix0)

end Cert.Pre_finite_inputs.Decode

end
-- ==== Proof.LJEq.lean ====
/-
  The kernel's guarded pair function is the reference's wherever the squared distance is positive.

  For q > 0 the guard q > 0 passes, so the kernel's reciprocal is 1/√q, the reference's; √q is not zero, so a
  quotient by it is the product with its inverse; 1.0 is the unit; and the two sixth powers differ by one use
  of associativity.
-/
import proofs.«401026_j30176440222240_3_alg».proof.Proof.LJ

noncomputable section

namespace LJ

open Idealize.ShloMosaic

/-- The square root of a positive extended real is not zero. -/
theorem dist_ne_zero {q : EReal} (h : 0 < q) : dist q ≠ 0 := by
  unfold dist
  induction q using EReal.rec with
  | bot => exact absurd h (by simp)
  | top => rw [Ideal.sqrt_top]; exact EReal.top_ne_zero
  | coe r =>
    have hr : 0 < r := by exact_mod_cast h
    rw [Ideal.sqrt_coe, if_neg (not_lt.mpr hr.le)]
    have : Real.sqrt r ≠ 0 := (Real.sqrt_pos.mpr hr).ne'
    exact_mod_cast this

/-- Off zero the quotient is the product with the inverse. -/
theorem div_of_ne {x y : EReal} (hy : y ≠ 0) : Ideal.div x y = x * y⁻¹ := by
  unfold Ideal.div; rw [if_neg hy]

/-- With a positive squared distance the guard passes: the kernel's reciprocal is the reference's. -/
theorem invK_eq {q : EReal} (h : 0 < q) : invK q = invR q := by
  unfold invK invR
  have hc : FloatOps.cmpf (F := Ideal) (φ := .f32) .ogt q w0 = 1#1 := by
    show Ideal.cmp .ogt q w0 = 1#1
    unfold Ideal.cmp
    rw [w0_eq]
    simp [h]
  rw [hc]
  rfl

theorem sr6K_eq {q : EReal} (h : 0 < q) : sr6K q = sr6R q := by
  unfold sr6K sr6R
  rw [invK_eq h, w1_eq, one_mul]
  exact mul_assoc _ _ _

theorem sr12K_eq {q : EReal} (h : 0 < q) : sr12K q = sr12R q := by
  unfold sr12K sr12R; rw [sr6K_eq h]

/-- The pair energies agree. -/
theorem pe_eq {q : EReal} (h : 0 < q) : peK q = peR q := by
  unfold peK peR; rw [sr12K_eq h, sr6K_eq h]

/-- The force factors agree. -/
theorem g_eq {q : EReal} (h : 0 < q) : gK q = gR q := by
  have hd := dist_ne_zero h
  have hx : invR q = (dist q)⁻¹ := by unfold invR; rw [div_of_ne hd, w1_eq, one_mul]
  unfold gK gR
  rw [sr12K_eq h, sr6K_eq h, invK_eq h, div_of_ne hd, div_of_ne hd, hx]

end LJ

end
-- ==== Proof.Bridge.lean ====
/-
  The two programs' results are the same functions of the arguments.

  Under the precondition every pair index names an atom and every pair's squared distance is positive.  Then the
  kernel's guarded pair function is the reference's (the guard passes and the distance is not zero), so the pair
  energies agree entry by entry and the force vectors agree up to the transposed layout; the energy is the same
  host sum of equal arrays, and the forces are the same accumulating scatter: entry (n, a) of either result is
      (0 + Σ over the pairs with atom i = n of −F(p, a)) + Σ over the pairs with atom j = n of F(p, a),
  the kernel's read through its transposed scatter and final transpose.
-/
import proofs.«401026_j30176440222240_3_alg».proof.Proof.KernelValue
import proofs.«401026_j30176440222240_3_alg».proof.Proof.RefForces
import proofs.«401026_j30176440222240_3_alg».proof.Proof.PreFacts
import proofs.«401026_j30176440222240_3_alg».proof.Proof.LJEq

noncomputable section

namespace Cert.Bridge

open Idealize.ShloMosaic Idealize.ShloMosaic.TcCoe Idealize.SL.Sem Idealize.ShloMosaic.ValueIdx
open Cert.KernelIdeal (nD τ)

variable (m : (ℓ : Loc Cert.KernelIdeal.nD Cert.KernelIdeal.τ Cert.KernelIdeal.sig) → Buf (Elt Ideal) ℓ)

/-- The arguments as the reference's stages take them. -/
abbrev P (c : Dev Cert.KernelIdeal.nD) : FVec Ideal Cert.ReferenceIdeal.S262144x3 .f32 := Cert.KernelIdeal.RunValue.posA m c
abbrev C (c : Dev Cert.KernelIdeal.nD) : FVec Ideal Cert.ReferenceIdeal.S3x3 .f32 := Cert.KernelIdeal.RunValue.cellA m c
abbrev M (c : Dev Cert.KernelIdeal.nD) : IVec Cert.ReferenceIdeal.S2x16777216 32 := Cert.KernelIdeal.RunValue.mapA m c
abbrev S (c : Dev Cert.KernelIdeal.nD) : FVec Ideal Cert.ReferenceIdeal.S16777216x3 .f32 := Cert.KernelIdeal.RunValue.shA m c

/-- What the precondition gives: the index range, and positive squared distances. -/
theorem of_pre (c : Dev Cert.KernelIdeal.nD)
    (hpre : Cert.Pre_finite_inputs.fn (F := Ideal) (P m c) (C m c) (M m c) (S m c) = fun _ => 1#1) :
    Cert.KernelIdeal.RunValue.InRange m c ∧ ∀ p : Fin 16777216, 0 < LJ.pairD2 (P m c) (C m c) (M m c) (S m c) p := by
  obtain ⟨hin, hpos⟩ := Cert.Pre_finite_inputs.Decode.of_pre (P m c) (C m c) (M m c) (S m c) hpre
  refine ⟨hin, fun p => ?_⟩
  have := hpos p
  rwa [Cert.ReferenceIdeal.RefValue.v22_apply] at this

/-- The pair energies: the region's array is the reference's stage. -/
theorem energies_eq (c : Dev Cert.KernelIdeal.nD) (hin : Cert.KernelIdeal.RunValue.InRange m c)
    (hpos : ∀ p : Fin 16777216, 0 < LJ.pairD2 (P m c) (C m c) (M m c) (S m c) p) :
    Cert.KernelIdeal.Tail.outE m c = Cert.ReferenceIdeal.Read.val_main_v35 (F := Ideal) (P m c) (C m c) (M m c) (S m c) := by
  funext i
  obtain ⟨p, rfl⟩ : ∃ p : Fin 16777216, i = ix1 p := ⟨i 0, eq_ix1 i⟩
  rw [Cert.KernelIdeal.RunValue.outE_apply m c hin p, Cert.ReferenceIdeal.RefValue.v35_apply, LJ.pe_eq (hpos p)]

/-- The force vectors: the region's planar array is the reference's stage, transposed. -/
theorem forces_eq (c : Dev Cert.KernelIdeal.nD) (hin : Cert.KernelIdeal.RunValue.InRange m c)
    (hpos : ∀ p : Fin 16777216, 0 < LJ.pairD2 (P m c) (C m c) (M m c) (S m c) p) (a : Fin 3) (p : Fin 16777216) :
    Cert.KernelIdeal.Tail.outF m c (ix2 a p)
      = Cert.ReferenceIdeal.Read.val_main_v48 (F := Ideal) (P m c) (C m c) (M m c) (S m c) (ix2 p a) := by
  rw [Cert.KernelIdeal.RunValue.outF_apply m c hin a p, Cert.ReferenceIdeal.RefValue.v48_apply, LJ.g_eq (hpos p)]

/-! ## The two results -/

variable (m' : (ℓ : Loc Cert.ReferenceIdeal.nD Cert.ReferenceIdeal.τ Cert.ReferenceIdeal.sig) → Buf (Elt Ideal) ℓ)

/-- The energies agree: the same host sum, halved, of equal arrays. -/
theorem energy (c : Dev Cert.KernelIdeal.nD)
    (hpre : Cert.Pre_finite_inputs.fn (F := Ideal) (P m c) (C m c) (M m c) (S m c) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.res_main_v37 (F := Ideal) m' c : Cert.ReferenceIdeal.S_.Idx → EReal)
      = Pipeline.afterTail₀ Cert.KernelIdeal.cfgs (Cert.KernelIdeal.Gen.dats m) 0 (Cert.KernelIdeal.Gen.V0 m) [Cert.KernelIdeal.Gen.hostOps1] c Cert.KernelIdeal.main_v10 := by
  obtain ⟨hin, hpos⟩ := of_pre m c hpre
  rw [Cert.ReferenceIdeal.Read.val_main_v37_eq, h0, h1, h2, h3]
  refine Eq.trans ?_ (Cert.KernelIdeal.Tail.tail_energy m c).symm
  rw [energies_eq m c hin hpos]
  unfold Cert.ReferenceIdeal.Read.val_main_v37 Cert.ReferenceIdeal.Read.val_main_v36 Cert.ReferenceIdeal.Read.val_main_cst_8
    Cert.ReferenceIdeal.Read.val_main_cst_7
  rfl

/-- The forces agree, atom by atom and coordinate by coordinate. -/
theorem forces (c : Dev Cert.KernelIdeal.nD)
    (hpre : Cert.Pre_finite_inputs.fn (F := Ideal) (P m c) (C m c) (M m c) (S m c) = fun _ => 1#1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Value.res_main_v64 (F := Ideal) m' c : Cert.ReferenceIdeal.S262144x3.Idx → EReal)
      = Pipeline.afterTail₀ Cert.KernelIdeal.cfgs (Cert.KernelIdeal.Gen.dats m) 0 (Cert.KernelIdeal.Gen.V0 m) [Cert.KernelIdeal.Gen.hostOps1] c Cert.KernelIdeal.main_v27 := by
  obtain ⟨hin, hpos⟩ := of_pre m c hpre
  rw [Cert.ReferenceIdeal.Read.val_main_v64_eq, h0, h1, h2, h3]
  funext i
  obtain ⟨n, a, rfl⟩ : ∃ (n : Fin 262144) (a : Fin 3), i = ix2 n a := ⟨i 0, i 1, eq_ix2 i⟩
  refine (Cert.ReferenceIdeal.RefValue.v64_apply (P m c) (C m c) (M m c) (S m c) n a).trans ?_
  refine Eq.trans ?_ (Cert.KernelIdeal.Tail.tail_forces_apply m c n a).symm
  have hI : (Finset.univ.filter fun p : Fin 16777216 =>
        (LJ.wrap ((Cert.KernelIdeal.Gen.V m c Cert.KernelIdeal.main_v1 : Cert.KernelIdeal.S16777216.Idx → BitVec 32) (ix1 p))).toInt = (n.val : Int))
      = Finset.univ.filter fun p : Fin 16777216 => (LJ.wrap (M m c (ix2 (0 : Fin 2) p))).toInt = (n.val : Int) :=
    Finset.filter_congr fun p _ => by rw [Cert.KernelIdeal.Host.V_v1]
  have hJ : (Finset.univ.filter fun p : Fin 16777216 =>
        (LJ.wrap ((Cert.KernelIdeal.Gen.V m c Cert.KernelIdeal.main_v3 : Cert.KernelIdeal.S16777216.Idx → BitVec 32) (ix1 p))).toInt = (n.val : Int))
      = Finset.univ.filter fun p : Fin 16777216 => (LJ.wrap (M m c (ix2 (1 : Fin 2) p))).toInt = (n.val : Int) :=
    Finset.filter_congr fun p _ => by rw [Cert.KernelIdeal.Host.V_v3]
  rw [hI, hJ]
  refine congrArg₂ (· + ·) (congrArg (LJ.w0 + ·) (Finset.sum_congr rfl fun p _ => ?_)) (Finset.sum_congr rfl fun p _ => ?_)
  · rw [forces_eq m c hin hpos a p]
  · rw [forces_eq m c hin hpos a p]

end Cert.Bridge

end
-- ==== Proof.lean ====
/-
  The Lennard-Jones pair kernel against its reference, over the extended reals.

  Both programs compute, for 16777216 pairs (i, j) of 262144 atoms, the displacement dr = r_j − r_i + shift·cell,
  the pair energy 4((σ/r)¹² − (σ/r)⁶) inside the cutoff r < 2.5, the force factor, the total energy (half the sum of
  the pair energies) and the forces (−F scattered at the atoms i, +F at the atoms j).  The kernel works on planar
  arrays [3, P], gathered with jnp.take (which fills out-of-range indices), computes the pair function in a
  pallas_call tiled over blocks of 32768 pairs, guards the reciprocal distance at r = 0, and scatters on the
  transposed layout.  The claim holds on the reference's evident domain: every pair index names an atom, and every
  pair distance the reference divides by is positive.  There the guard passes and the two pair functions agree by
  associativity and commutativity of the product alone (Proof/LJEq.lean); the rest is layout: blocks to arrays
  (Proof/KernelBlocks.lean), gathers and transposes before the region (Proof/KernelHost.lean), the sum and the
  scatters after it (Proof/KernelTail.lean, Proof/RefForces.lean), the reference read pair by pair
  (Proof/RefPairs.lean), the precondition decoded (Proof/PreFacts.lean), and the two results joined
  (Proof/Bridge.lean).  The kernel's idealization rewrote no operation, so `preserves` has nothing to say.
-/
import proofs.«401026_j30176440222240_3_alg».proof.Defs
import proofs.«401026_j30176440222240_3_alg».proof.Proof.Gen.Kernel
import proofs.«401026_j30176440222240_3_alg».proof.Proof.Gen.Kernel.Skeleton
import proofs.«401026_j30176440222240_3_alg».proof.Proof.Gen.Kernel.Launch
import proofs.«401026_j30176440222240_3_alg».proof.Proof.Gen.Kernel.Points
import proofs.«401026_j30176440222240_3_alg».proof.Proof.Gen.Kernel.Frame
import proofs.«401026_j30176440222240_3_alg».proof.Proof.Gen.KernelIdeal
import proofs.«401026_j30176440222240_3_alg».proof.Proof.Gen.KernelIdeal.Skeleton
import proofs.«401026_j30176440222240_3_alg».proof.Proof.Gen.KernelIdeal.Launch
import proofs.«401026_j30176440222240_3_alg».proof.Proof.Gen.KernelIdeal.Points
import proofs.«401026_j30176440222240_3_alg».proof.Proof.Gen.KernelIdeal.Frame
import proofs.«401026_j30176440222240_3_alg».proof.Proof.Gen.ReferenceIdeal
import proofs.«401026_j30176440222240_3_alg».proof.Proof.Gen.Pre_finite_inputs
import proofs.«401026_j30176440222240_3_alg».proof.Proof.RefRun
import proofs.«401026_j30176440222240_3_alg».proof.Proof.RefRead
import proofs.«401026_j30176440222240_3_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : @Cert.frame_Kernel Cert.Kernel.Gen.facts Cert.Pre_finite_inputs.Gen.facts :=
  fun m ρ _ => Cert.Kernel.Gen.frame m ρ

/-- So does the idealized kernel. -/
theorem frame_ki : @Cert.frame_KernelIdeal Cert.KernelIdeal.Gen.facts Cert.Pre_finite_inputs.Gen.facts :=
  fun m ρ _ => Cert.KernelIdeal.Gen.frame m ρ

/-- The reference runs and keeps its arguments: its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories agreeing on the arguments both programs end at the kernel's two results. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Pipeline.afterTail₀ Cert.KernelIdeal.cfgs (Cert.KernelIdeal.Gen.dats m) 0 (Cert.KernelIdeal.Gen.V0 m)
      [Cert.KernelIdeal.Gen.hostOps1] c Cert.KernelIdeal.main_v10,
    fun c => Pipeline.afterTail₀ Cert.KernelIdeal.cfgs (Cert.KernelIdeal.Gen.dats m) 0 (Cert.KernelIdeal.Gen.V0 m)
      [Cert.KernelIdeal.Gen.hostOps1] c Cert.KernelIdeal.main_v27,
    Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact Cert.Bridge.energy m m' c (hpre c) (hagree c).1 (hagree c).2.1 (hagree c).2.2.1 (hagree c).2.2.2
  · exact Cert.Bridge.forces m m' c (hpre c) (hagree c).1 (hagree c).2.1 (hagree c).2.2.1 (hagree c).2.2.2

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
